-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x1024 : Shape := ⟨3, ![2048, 16, 1024]⟩
abbrev S240x1024 : Shape := ⟨2, ![240, 1024]⟩
abbrev S240 : Shape := ⟨1, ![240]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩

class Facts : Prop where
  bcast_S_S2048x16x1024 : S_.BroadcastsInDim S2048x16x1024 (![] : Fin 0 → Fin S2048x16x1024.rank)
  reducesTo_S2048x16x1024_S_d0_1_2 : S2048x16x1024.ReducesTo [0, 1, 2] S_
  h_S_ : 0 < S_.numel
  bcast_S_S240x1024 : S_.BroadcastsInDim S240x1024 (![] : Fin 0 → Fin S240x1024.rank)
  reducesTo_S240x1024_S_d0_1 : S240x1024.ReducesTo [0, 1] S_
  bcast_S_S240 : S_.BroadcastsInDim S240 (![] : Fin 0 → Fin S240.rank)
  reducesTo_S240_S_d0 : S240.ReducesTo [0] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part2 {F : FTy → Type} [FloatOps F] (main_arg7 : FVec F S1024x4096 .f32) (main_arg8 : FVec F S1024 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S4096x1024 .f32) (main_arg6 : FVec F S4096 .f32) (main_arg7 : FVec F S1024x4096 .f32) (main_arg8 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S2048x16x1024 .f32) (main_arg1 : FVec F S240x1024 .f32) (main_arg2 : FVec F S240 .f32) (main_arg3 : FVec F S1024 .f32) (main_arg4 : FVec F S1024 .f32) (main_arg5 : FVec F S4096x1024 .f32) (main_arg6 : FVec F S4096 .f32) (main_arg7 : FVec F S1024x4096 .f32) (main_arg8 : FVec F S1024 .f32) : IVec S_ 1 :=
  let main_v0 : FVec F S2048x16x1024 .f32 := Host.absf main_arg0
  let main_cst : FVec F S_ .f32 := constant S_ .f32 0x7F800000#32
  let main_v1 : FVec F S2048x16x1024 .f32 := broadcastInDim S2048x16x1024 ![] bcast_S_S2048x16x1024 main_cst
  let main_v2 : IVec S2048x16x1024 1 := cmpf .olt main_v0 main_v1
  let main_c : IVec S_ 1 := constantI S_ 1 1#1
  let main_v3 : IVec S_ 1 := (fun x v => Host.reduce IntOp.andi x v reducesTo_S2048x16x1024_S_d0_1_2 h_S_) main_v2 main_c
  let main_v4 : FVec F S240x1024 .f32 := Host.absf main_arg1
  let main_cst_0 : FVec F S_ .f32 := constant S_ .f32 0x7F800000#32
  let main_v5 : FVec F S240x1024 .f32 := broadcastInDim S240x1024 ![] bcast_S_S240x1024 main_cst_0
  let main_v6 : IVec S240x1024 1 := cmpf .olt main_v4 main_v5
  let main_c_1 : IVec S_ 1 := constantI S_ 1 1#1
  let main_v7 : IVec S_ 1 := (fun x v => Host.reduce IntOp.andi x v reducesTo_S240x1024_S_d0_1 h_S_) main_v6 main_c_1
  let main_v8 : IVec S_ 1 := andi main_v3 main_v7
  let main_v9 : FVec F S240 .f32 := Host.absf main_arg2
  let main_cst_2 : FVec F S_ .f32 := constant S_ .f32 0x7F800000#32
  let main_v10 : FVec F S240 .f32 := broadcastInDim S240 ![] bcast_S_S240 main_cst_2
  let main_v11 : IVec S240 1 := cmpf .olt main_v9 main_v10
  let main_c_3 : IVec S_ 1 := constantI S_ 1 1#1
  let main_v12 : IVec S_ 1 := (fun x v => Host.reduce IntOp.andi x v reducesTo_S240_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Kernel.lean ====
abbrev S2048x16x1024 : Shape := ⟨3, ![2048, 16, 1024]⟩
abbrev S240x1024 : Shape := ⟨2, ![240, 1024]⟩
abbrev S240 : Shape := ⟨1, ![240]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩
abbrev S2062x16x1024 : Shape := ⟨3, ![2062, 16, 1024]⟩
abbrev S32 : Shape := ⟨1, ![32]⟩
abbrev S78 : Shape := ⟨1, ![78]⟩
abbrev S32x1 : Shape := ⟨2, ![32, 1]⟩
abbrev S1x78 : Shape := ⟨2, ![1, 78]⟩
abbrev S32x78 : Shape := ⟨2, ![32, 78]⟩
abbrev S32x78x1 : Shape := ⟨3, ![32, 78, 1]⟩
abbrev S32x78x16x1024 : Shape := ⟨4, ![32, 78, 16, 1024]⟩
abbrev S1024x240 : Shape := ⟨2, ![1024, 240]⟩
abbrev S1x78x16x1024 : Shape := ⟨4, ![1, 78, 16, 1024]⟩
abbrev S64x16x1024 : Shape := ⟨3, ![64, 16, 1024]⟩
abbrev S78x16x1024 : Shape := ⟨3, ![78, 16, 1024]⟩
abbrev S1024x1024 : Shape := ⟨2, ![1024, 1024]⟩
abbrev S64x16x16x15 : Shape := ⟨4, ![64, 16, 16, 15]⟩
abbrev S16x15 : Shape := ⟨2, ![16, 15]⟩
abbrev S1x1x16x15 : Shape := ⟨4, ![1, 1, 16, 15]⟩
abbrev S64x16x16 : Shape := ⟨3, ![64, 16, 16]⟩
abbrev S64x16x16x1 : Shape := ⟨4, ![64, 16, 16, 1]⟩
abbrev S64x16x16x64 : Shape := ⟨4, ![64, 16, 16, 64]⟩
abbrev S64x16 : Shape := ⟨2, ![64, 16]⟩
abbrev S64x16x1 : Shape := ⟨3, ![64, 16, 1]⟩
abbrev S1x1x1024 : Shape := ⟨3, ![1, 1, 1024]⟩
abbrev S32768x1024 : Shape := ⟨2, ![32768, 1024]⟩
abbrev S256x1024 : Shape := ⟨2, ![256, 1024]⟩
abbrev S256x4096 : Shape := ⟨2, ![256, 4096]⟩
abbrev S1x4096 : Shape := ⟨2, ![1, 4096]⟩
abbrev S1x1024 : Shape := ⟨2, ![1, 1024]⟩

abbrev nBuf : Space → Nat
  | .hbm => 41
  | .vmem => 16
  | .smem => 0
  | _ => 0

abbrev bufTy : (tb : Table) → Fin (tcTables nBuf tb) → BufTy
  | .hbm, ⟨0, _⟩ => ⟨S2048x16x1024, .f32⟩
  | .hbm, ⟨1, _⟩ => ⟨S240x1024, .f32⟩
  | .hbm, ⟨2, _⟩ => ⟨S240, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096, .f32⟩
  | .hbm, ⟨7, _⟩ => ⟨S1024x4096, .f32⟩
  | .hbm, ⟨8, _⟩ => ⟨S1024, .f32⟩
  | .hbm, ⟨9, _⟩ => ⟨S_, .i32⟩
  | .hbm, ⟨10, _⟩ => ⟨S_, .f32⟩
  | .hbm, ⟨11, _⟩ => ⟨S2062x16x1024, .f32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S78, .i32⟩
  | .hbm, ⟨17, _⟩ => ⟨S32x1, .i32⟩
  | .hbm, ⟨18, _⟩ => ⟨S1x78, .i32⟩
  | .hbm, ⟨19, _⟩ => ⟨S32x78, .i32⟩
  | .hbm, ⟨20, _⟩ => ⟨S32x78, .i32⟩
  | .hbm, ⟨21, _⟩ => ⟨S32x78, .i32⟩
  | .hbm, ⟨22, _⟩ => ⟨S_, .i32⟩
  | .hbm, ⟨23, _⟩ => ⟨S32x78, .i32⟩
  | .hbm, ⟨24, _⟩ => ⟨S32x78, .i1⟩
  | .hbm, ⟨25, _⟩ => ⟨S_, .i32⟩
  | .hbm, ⟨26, _⟩ => ⟨S32x78, .i32⟩
  | .hbm, ⟨27, _⟩ => ⟨S32x78, .i32⟩
  | .hbm, ⟨28, _⟩ => ⟨S32x78, .i32⟩
  | .hbm, ⟨29, _⟩ => ⟨S32x78x1, .i32⟩
  | .hbm, ⟨30, _⟩ => ⟨S32x78x16x1024, .f32⟩
  | .hbm, ⟨31, _⟩ => ⟨S1024x240, .f32⟩
  | .hbm, ⟨32, _⟩ => ⟨S1024x240, .bf16⟩
  | .hbm, ⟨33, _⟩ => ⟨S2048x16x1024, .bf16⟩
  | .hbm, ⟨34, _⟩ => ⟨S32768x1024, .bf16⟩
  | .hbm, ⟨35, _⟩ => ⟨S1024x4096, .f32⟩
  | .hbm, ⟨36, _⟩ => ⟨S1024x4096, .bf16⟩
  | .hbm, ⟨37, _⟩ => ⟨S4096x1024, .f32⟩
  | .hbm, ⟨38, _⟩ => ⟨S4096x1024, .bf16⟩
  | .hbm, ⟨39, _⟩ => ⟨S32768x1024, .f32⟩
  | .hbm, ⟨40, _⟩ => ⟨S2048x16x1024, .f32⟩
  | .local _ .vmem, ⟨0, _⟩ => ⟨S1x78x16x1024, .f32⟩
  | .local _ .vmem, ⟨1, _⟩ => ⟨S1x78x16x1024, .f32⟩
  | .local _ .vmem, ⟨2, _⟩ => ⟨S1024x240, .bf16⟩
  | .local _ .vmem, ⟨3, _⟩ => ⟨S240, .f32⟩
  | .local _ .vmem, ⟨4, _⟩ => ⟨S1024, .f32⟩
  | .local _ .vmem, ⟨5, _⟩ => ⟨S1024, .f32⟩
  | .local _ .vmem, ⟨6, _⟩ => ⟨S64x16x1024, .bf16⟩
  | .local _ .vmem, ⟨7, _⟩ => ⟨S64x16x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x4096, .bf16⟩
  | .local _ .vmem, ⟨11, _⟩ => ⟨S4096, .f32⟩
  | .local _ .vmem, ⟨12, _⟩ => ⟨S4096x1024, .bf16⟩
  | .local _ .vmem, ⟨13, _⟩ => ⟨S1024, .f32⟩
  | .local _ .vmem, ⟨14, _⟩ => ⟨S256x1024, .f32⟩
  | .local _ .vmem, ⟨15, _⟩ => ⟨S256x1024, .f32⟩
  | _, _ => ⟨S2048x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x78x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x240 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  pads_S2048x16x1024_S2062x16x1024_1400_000_000 : S2048x16x1024.Pads (![14, 0, 0] : Fin 3 → Nat) ![0, 0, 0] ![0, 0, 0] S2062x16x1024
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S78_S1x78_1 : S78.BroadcastsInDim S1x78 (![1] : Fin 1 → Fin S1x78.rank)
  bcast_S32x1_S32x78_0_1 : S32x1.BroadcastsInDim S32x78 (![0, 1] : Fin 2 → Fin S32x78.rank)
  bcast_S1x78_S32x78_0_1 : S1x78.BroadcastsInDim S32x78 (![0, 1] : Fin 2 → Fin S32x78.rank)
  bcast_S_S32x78 : S_.BroadcastsInDim S32x78 (![] : Fin 0 → Fin S32x78.rank)
  bcast_S32x78_S32x78x1_0_1 : S32x78.BroadcastsInDim S32x78x1 (![0, 1] : Fin 2 → Fin S32x78x1.rank)
  transposes_S240x1024_S1024x240_1_0 : S240x1024.Transposes [1, 0] S1024x240
  bitsLt_bf16_f32 : FTy.bits .bf16 < FTy.bits .f32
  inb_S1x78x16x1024_S1x78x16x1024_0_0_0_0 : ∀ a, (![0, 0, 0, 0] : Fin 4 → Nat) a + S1x78x16x1024.size a ≤ S1x78x16x1024.size a
  h_S1x78x16x1024 : 0 < S1x78x16x1024.numel
  shapeCasts_S1x78x16x1024_S78x16x1024 : S1x78x16x1024.ShapeCasts S78x16x1024
  slices_S78x16x1024_o14_0_0_S64x16x1024 : S78x16x1024.Slices ![14, 0, 0] S64x16x1024
  shapeCasts_S64x16x1024_S1024x1024 : S64x16x1024.ShapeCasts S1024x1024
  inb_S1024x240_S1024x240_0_0 : ∀ a, (![0, 0] : Fin 2 → Nat) a + S1024x240.size a ≤ S1024x240.size a
  h_S1024x240 : 0 < S1024x240.numel
  shapeCasts_S1024x240_S1024x240 : S1024x240.ShapeCasts S1024x240
  shapeCasts_S1024x240_S64x16x16x15 : S1024x240.ShapeCasts S64x16x16x15
  inb_S240_S240_0 : ∀ a, (![0] : Fin 1 → Nat) a + S240.size a ≤ S240.size a
  h_S240 : 0 < S240.numel
  shapeCasts_S240_S16x15 : S240.ShapeCasts S16x15
  shapeCasts_S16x15_S1x1x16x15 : S16x15.ShapeCasts S1x1x16x15
  broadcasts_S1x1x16x15_S64x16x16x15 : S1x1x16x15.Broadcasts S64x16x16x15
  reduces_S64x16x16x15_S64x16x16 : S64x16x16x15.Reduces [3] S64x16x16
  shapeCasts_S64x16x16_S64x16x16x1 : S64x16x16.ShapeCasts S64x16x16x1
  broadcasts_S64x16x16x1_S64x16x16x15 : S64x16x16x1.Broadcasts S64x16x16x15
  slices_S64x16x16x15_o0_0_0_0_S64x16x16x1 : S64x16x16x15.Slices ![0, 0, 0, 0] S64x16x16x1
  shapeCasts_S64x16x16x1_S64x16x16 : S64x16x16x1.ShapeCasts S64x16x16
  shapeCasts_S64x16x16x1_S64x16x16x1 : S64x16x16x1.ShapeCasts S64x16x16x1
  broadcasts_S64x16x16x1_S64x16x16x64 : S64x16x16x1.Broadcasts S64x16x16x64
  shapeCasts_S64x16x16x64_S64x16x1024 : S64x16x16x64.ShapeCasts S64x16x1024
  slices_S78x16x1024_o0_0_0_S64x16x1024 : S78x16x1024.Slices ![0, 0, 0] S64x16x1024
  slices_S64x16x16x15_o0_0_0_1_S64x16x16x1 : S64x16x16x15.Slices ![0, 0, 0, 1] S64x16x16x1
  slices_S78x16x1024_o1_0_0_S64x16x1024 : S78x16x1024.Slices ![1, 0, 0] S64x16x1024
  slices_S64x16x16x15_o0_0_0_2_S64x16x16x1 : S64x16x16x15.Slices ![0, 0, 0, 2] S64x16x16x1
  slices_S78x16x1024_o2_0_0_S64x16x1024 : S78x16x1024.Slices ![2, 0, 0] S64x16x1024
  slices_S64x16x16x15_o0_0_0_3_S64x16x16x1 : S64x16x16x15.Slices ![0, 0, 0, 3] S64x16x16x1
  slices_S78x16x1024_o3_0_0_S64x16x1024 : S78x16x1024.Slices ![3, 0, 0] S64x16x1024
  slices_S64x16x16x15_o0_0_0_4_S64x16x16x1 : S64x16x16x15.Slices ![0, 0, 0, 4] S64x16x16x1
  slices_S78x16x1024_o4_0_0_S64x16x1024 : S78x16x1024.Slices ![4, 0, 0] S64x16x1024
  slices_S64x16x16x15_o0_0_0_5_S64x16x16x1 : S64x16x16x15.Slices ![0, 0, 0, 5] S64x16x16x1
  slices_S78x16x1024_o5_0_0_S64x16x1024 : S78x16x1024.Slices ![5, 0, 0] S64x16x1024
  slices_S64x16x16x15_o0_0_0_6_S64x16x16x1 : S64x16x16x15.Slices ![0, 0, 0, 6] S64x16x16x1
  slices_S78x16x1024_o6_0_0_S64x16x1024 : S78x16x1024.Slices ![6, 0, 0] S64x16x1024
  slices_S64x16x16x15_o0_0_0_7_S64x16x16x1 : S64x16x16x15.Slices ![0, 0, 0, 7] S64x16x16x1
  slices_S78x16x1024_o7_0_0_S64x16x1024 : S78x16x1024.Slices ![7, 0, 0] S64x16x1024
  slices_S64x16x16x15_o0_0_0_8_S64x16x16x1 : S64x16x16x15.Slices ![0, 0, 0, 8] S64x16x16x1
  slices_S78x16x1024_o8_0_0_S64x16x1024 : S78x16x1024.Slices ![8, 0, 0] S64x16x1024
  slices_S64x16x16x15_o0_0_0_9_S64x16x16x1 : S64x16x16x15.Slices ![0, 0, 0, 9] S64x16x16x1
  slices_S78x16x1024_o9_0_0_S64x16x1024 : S78x16x1024.Slices ![9, 0, 0] S64x16x1024
  slices_S64x16x16x15_o0_0_0_10_S64x16x16x1 : S64x16x16x15.Slices ![0, 0, 0, 10] S64x16x16x1
  slices_S78x16x1024_o10_0_0_S64x16x1024 : S78x16x1024.Slices ![10, 0, 0] S64x16x1024
  slices_S64x16x16x15_o0_0_0_11_S64x16x16x1 : S64x16x16x15.Slices ![0, 0, 0, 11] S64x16x16x1
  slices_S78x16x1024_o11_0_0_S64x16x1024 : S78x16x1024.Slices ![11, 0, 0] S64x16x1024
  slices_S64x16x16x15_o0_0_0_12_S64x16x16x1 : S64x16x16x15.Slices ![0, 0, 0, 12] S64x16x16x1
  slices_S78x16x1024_o12_0_0_S64x16x1024 : S78x16x1024.Slices ![12, 0, 0] S64x16x1024
  slices_S64x16x16x15_o0_0_0_13_S64x16x16x1 : S64x16x16x15.Slices ![0, 0, 0, 13] S64x16x16x1
  slices_S78x16x1024_o13_0_0_S64x16x1024 : S78x16x1024.Slices ![13, 0, 0] S64x16x1024
  slices_S64x16x16x15_o0_0_0_14_S64x16x16x1 : S64x16x16x15.Slices ![0, 0, 0, 14] S64x16x16x1
  reduces_S64x16x1024_S64x16 : S64x16x1024.Reduces [2] S64x16
  shapeCasts_S64x16_S64x16x1 : S64x16.ShapeCasts S64x16x1
  broadcasts_S64x16x1_S64x16x1024 : S64x16x1.Broadcasts S64x16x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S64x16x1024 : S1x1x1024.Broadcasts S64x16x1024
  inb_S64x16x1024_S64x16x1024_0_0_0 : ∀ a, (![0, 0, 0] : Fin 3 → Nat) a + S64x16x1024.size a ≤ S64x16x1024.size a
  h_S64x16x1024 : 0 < S64x16x1024.numel
  packedbf16_S64x16x1024_S64x16x1024_0_0_0 : (Rect.unit (s := S64x16x1024) ![0, 0, 0] S64x16x1024.size inb_S64x16x1024_S64x16x1024_0_0_0).PackedRows (EltTy.packing .bf16)
  shapeCasts_S2048x16x1024_S32768x1024 : S2048x16x1024.ShapeCasts S32768x1024
  transposes_S4096x1024_S1024x4096_1_0 : S4096x1024.Transposes [1, 0] S1024x4096
  transposes_S1024x4096_S4096x1024_1_0 : S1024x4096.Transposes [1, 0] S4096x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S1024_S1x1024 : S1024.ShapeCasts S1x1024
  broadcasts_S1x1024_S256x1024 : S1x1024.Broadcasts S256x1024
  shapeCasts_S32768x1024_S2048x16x1024 : S32768x1024.ShapeCasts S2048x16x1024
  gather_S2062x16x1024_S32x78x1_S32x78x16x1024_23_0_n_n_0_2_1161024_wf : GatherDims.WF S2062x16x1024 S32x78x1 S32x78x16x1024 [2, 3] [0] [] [0] [] 2 ![1, 16, 1024]
  dot_S1024x1024_S1024x240_S1024x240_1_0_0_1_n_n_wf : DotDims.WF S1024x1024 S1024x240 S1024x240 [1] [0] [0] [1] [] []
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x78x16x1024.size a ≤ S32x78x16x1024.size a
  hwx0_0 : ∀ i : grid0.Coords, EltTy.bits .f32 = 32 ∨ (Rect.block (s := S32x78x16x1024) S1x78x16x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x240.size a ≤ S1024x240.size a
  hwx0_1 : ∀ i : grid0.Coords, EltTy.bits .bf16 = 32 ∨ (Rect.block (s := S1024x240) S1024x240.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S240.size a ≤ S240.size a
  hwx0_2 : ∀ i : grid0.Coords, EltTy.bits .f32 = 32 ∨ (Rect.block (s := S240) S240.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x16x1024.size a ≤ S2048x16x1024.size a
  hwx0_5 : ∀ i : grid0.Coords, EltTy.bits .bf16 = 32 ∨ (Rect.block (s := S2048x16x1024) S64x16x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S32768x1024.size a
  hwx1_0 : ∀ i : grid1.Coords, EltTy.bits .bf16 = 32 ∨ (Rect.block (s := S32768x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S4096.size a
  hwx1_2 : ∀ i : grid1.Coords, EltTy.bits .f32 = 32 ∨ (Rect.block (s := S4096) S4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S32768x1024.size a
  hwx1_5 : ∀ i : grid1.Coords, EltTy.bits .f32 = 32 ∨ (Rect.block (s := S32768x1024) S256x1024.size (cc1_transform_5 i) (hinb1_5 i)).WholeWords (EltTy.packing .f32)

variable [Facts₀]

def gather_S2062x16x1024_S32x78x1_S32x78x16x1024_23_0_n_n_0_2_1161024 : GatherDims S2062x16x1024 S32x78x1 S32x78x16x1024 where
  offsetDims := [2, 3]
  collapsedSliceDims := [0]
  operandBatchingDims := []
  startIndicesBatchingDims := []
  startIndexMap := [0]
  indexVectorDim := 2
  sliceSizes := ![1, 16, 1024]
  wf := gather_S2062x16x1024_S32x78x1_S32x78x16x1024_23_0_n_n_0_2_1161024_wf
def dot_S1024x1024_S1024x240_S1024x240_1_0_0_1_n_n : DotDims S1024x1024 S1024x240 S1024x240 where
  lhsContracting := [1]
  rhsContracting := [0]
  lhsNonContracting := [0]
  rhsNonContracting := [1]
  lhsBatch := []
  rhsBatch := []
  wf := dot_S1024x1024_S1024x240_S1024x240_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v16) S1x78x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x240.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S240.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S64x16x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2048x16x1024 : Shape := ⟨3, ![2048, 16, 1024]⟩
abbrev S240x1024 : Shape := ⟨2, ![240, 1024]⟩
abbrev S240 : Shape := ⟨1, ![240]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S2048x16x240 : Shape := ⟨3, ![2048, 16, 240]⟩
abbrev S1x1x240 : Shape := ⟨3, ![1, 1, 240]⟩
abbrev S2048x16x16x15 : Shape := ⟨4, ![2048, 16, 16, 15]⟩
abbrev S_ : Shape := ⟨0, ![]⟩
abbrev S2048x16x16 : Shape := ⟨3, ![2048, 16, 16]⟩
abbrev S2048x16x16x1 : Shape := ⟨4, ![2048, 16, 16, 1]⟩
abbrev S2048x16x16x64 : Shape := ⟨4, ![2048, 16, 16, 64]⟩
abbrev S2062x16x16x64 : Shape := ⟨4, ![2062, 16, 16, 64]⟩
abbrev S2048x16 : Shape := ⟨2, ![2048, 16]⟩
abbrev S2048x16x1 : Shape := ⟨3, ![2048, 16, 1]⟩
abbrev S1x1x1024 : Shape := ⟨3, ![1, 1, 1024]⟩
abbrev S2048x16x4096 : Shape := ⟨3, ![2048, 16, 4096]⟩
abbrev S1x1x4096 : Shape := ⟨3, ![1, 1, 4096]⟩

abbrev nBuf : Space → Nat
  | .hbm => 181
  | .vmem => 0
  | .smem => 0
  | _ => 0

abbrev hbmTy0_0 (i : Nat) : BufTy := match i % 128 with
  | 0 => ⟨S2048x16x1024, .f32⟩
  | 1 => ⟨S240x1024, .f32⟩
  | 2 => ⟨S240, .f32⟩
  | 3 => ⟨S1024, .f32⟩
  | 4 => ⟨S1024, .f32⟩
  | 5 => ⟨S4096x1024, .f32⟩
  | 6 => ⟨S4096, .f32⟩
  | 7 => ⟨S1024x4096, .f32⟩
  | 8 => ⟨S1024, .f32⟩
  | 9 => ⟨S2048x16x240, .f32⟩
  | 10 => ⟨S1x1x240, .f32⟩
  | 11 => ⟨S2048x16x240, .f32⟩
  | 12 => ⟨S2048x16x240, .f32⟩
  | 13 => ⟨S2048x16x16x15, .f32⟩
  | 14 => ⟨S_, .f32⟩
  | 15 => ⟨S2048x16x16, .f32⟩
  | 16 => ⟨S_, .f32⟩
  | 17 => ⟨S2048x16x16, .f32⟩
  | 18 => ⟨S2048x16x16, .f32⟩
  | 19 => ⟨S2048x16x16x1, .f32⟩
  | 20 => ⟨S2048x16x16x15, .f32⟩
  | 21 => ⟨S2048x16x16x15, .f32⟩
  | 22 => ⟨S2048x16x16x15, .f32⟩
  | 23 => ⟨S_, .f32⟩
  | 24 => ⟨S2048x16x16, .f32⟩
  | 25 => ⟨S2048x16x16x1, .f32⟩
  | 26 => ⟨S2048x16x16x15, .f32⟩
  | 27 => ⟨S2048x16x16x15, .f32⟩
  | 28 => ⟨S2048x16x16x64, .f32⟩
  | 29 => ⟨S_, .i32⟩
  | 30 => ⟨S_, .f32⟩
  | 31 => ⟨S2062x16x16x64, .f32⟩
  | 32 => ⟨S_, .f32⟩
  | 33 => ⟨S2048x16x16x64, .f32⟩
  | 34 => ⟨S2048x16x16x1, .f32⟩
  | 35 => ⟨S2048x16x16, .f32⟩
  | 36 => ⟨S2048x16x16x1, .f32⟩
  | 37 => ⟨S2048x16x16x64, .f32⟩
  | 38 => ⟨S2048x16x16x64, .f32⟩
  | 39 => ⟨S2048x16x16x64, .f32⟩
  | 40 => ⟨S2048x16x16x64, .f32⟩
  | 41 => ⟨S2048x16x16x1, .f32⟩
  | 42 => ⟨S2048x16x16, .f32⟩
  | 43 => ⟨S2048x16x16x1, .f32⟩
  | 44 => ⟨S2048x16x16x64, .f32⟩
  | 45 => ⟨S2048x16x16x64, .f32⟩
  | 46 => ⟨S2048x16x16x64, .f32⟩
  | 47 => ⟨S2048x16x16x64, .f32⟩
  | 48 => ⟨S2048x16x16x1, .f32⟩
  | 49 => ⟨S2048x16x16, .f32⟩
  | 50 => ⟨S2048x16x16x1, .f32⟩
  | 51 => ⟨S2048x16x16x64, .f32⟩
  | 52 => ⟨S2048x16x16x64, .f32⟩
  | 53 => ⟨S2048x16x16x64, .f32⟩
  | 54 => ⟨S2048x16x16x64, .f32⟩
  | 55 => ⟨S2048x16x16x1, .f32⟩
  | 56 => ⟨S2048x16x16, .f32⟩
  | 57 => ⟨S2048x16x16x1, .f32⟩
  | 58 => ⟨S2048x16x16x64, .f32⟩
  | 59 => ⟨S2048x16x16x64, .f32⟩
  | 60 => ⟨S2048x16x16x64, .f32⟩
  | 61 => ⟨S2048x16x16x64, .f32⟩
  | 62 => ⟨S2048x16x16x1, .f32⟩
  | 63 => ⟨S2048x16x16, .f32⟩
  | 64 => ⟨S2048x16x16x1, .f32⟩
  | 65 => ⟨S2048x16x16x64, .f32⟩
  | 66 => ⟨S2048x16x16x64, .f32⟩
  | 67 => ⟨S2048x16x16x64, .f32⟩
  | 68 => ⟨S2048x16x16x64, .f32⟩
  | 69 => ⟨S2048x16x16x1, .f32⟩
  | 70 => ⟨S2048x16x16, .f32⟩
  | 71 => ⟨S2048x16x16x1, .f32⟩
  | 72 => ⟨S2048x16x16x64, .f32⟩
  | 73 => ⟨S2048x16x16x64, .f32⟩
  | 74 => ⟨S2048x16x16x64, .f32⟩
  | 75 => ⟨S2048x16x16x64, .f32⟩
  | 76 => ⟨S2048x16x16x1, .f32⟩
  | 77 => ⟨S2048x16x16, .f32⟩
  | 78 => ⟨S2048x16x16x1, .f32⟩
  | 79 => ⟨S2048x16x16x64, .f32⟩
  | 80 => ⟨S2048x16x16x64, .f32⟩
  | 81 => ⟨S2048x16x16x64, .f32⟩
  | 82 => ⟨S2048x16x16x64, .f32⟩
  | 83 => ⟨S2048x16x16x1, .f32⟩
  | 84 => ⟨S2048x16x16, .f32⟩
  | 85 => ⟨S2048x16x16x1, .f32⟩
  | 86 => ⟨S2048x16x16x64, .f32⟩
  | 87 => ⟨S2048x16x16x64, .f32⟩
  | 88 => ⟨S2048x16x16x64, .f32⟩
  | 89 => ⟨S2048x16x16x64, .f32⟩
  | 90 => ⟨S2048x16x16x1, .f32⟩
  | 91 => ⟨S2048x16x16, .f32⟩
  | 92 => ⟨S2048x16x16x1, .f32⟩
  | 93 => ⟨S2048x16x16x64, .f32⟩
  | 94 => ⟨S2048x16x16x64, .f32⟩
  | 95 => ⟨S2048x16x16x64, .f32⟩
  | 96 => ⟨S2048x16x16x64, .f32⟩
  | 97 => ⟨S2048x16x16x1, .f32⟩
  | 98 => ⟨S2048x16x16, .f32⟩
  | 99 => ⟨S2048x16x16x1, .f32⟩
  | 100 => ⟨S2048x16x16x64, .f32⟩
  | 101 => ⟨S2048x16x16x64, .f32⟩
  | 102 => ⟨S2048x16x16x64, .f32⟩
  | 103 => ⟨S2048x16x16x64, .f32⟩
  | 104 => ⟨S2048x16x16x1, .f32⟩
  | 105 => ⟨S2048x16x16, .f32⟩
  | 106 => ⟨S2048x16x16x1, .f32⟩
  | 107 => ⟨S2048x16x16x64, .f32⟩
  | 108 => ⟨S2048x16x16x64, .f32⟩
  | 109 => ⟨S2048x16x16x64, .f32⟩
  | 110 => ⟨S2048x16x16x64, .f32⟩
  | 111 => ⟨S2048x16x16x1, .f32⟩
  | 112 => ⟨S2048x16x16, .f32⟩
  | 113 => ⟨S2048x16x16x1, .f32⟩
  | 114 => ⟨S2048x16x16x64, .f32⟩
  | 115 => ⟨S2048x16x16x64, .f32⟩
  | 116 => ⟨S2048x16x16x64, .f32⟩
  | 117 => ⟨S2048x16x16x64, .f32⟩
  | 118 => ⟨S2048x16x16x1, .f32⟩
  | 119 => ⟨S2048x16x16, .f32⟩
  | 120 => ⟨S2048x16x16x1, .f32⟩
  | 121 => ⟨S2048x16x16x64, .f32⟩
  | 122 => ⟨S2048x16x16x64, .f32⟩
  | 123 => ⟨S2048x16x16x64, .f32⟩
  | 124 => ⟨S2048x16x16x64, .f32⟩
  | 125 => ⟨S2048x16x16x1, .f32⟩
  | 126 => ⟨S2048x16x16, .f32⟩
  | 127 => ⟨S2048x16x16x1, .f32⟩
  | _ => ⟨S2048x16x1024, .f32⟩

abbrev hbmTy0_1 (i : Nat) : BufTy := match i % 128 with
  | 0 => ⟨S2048x16x16x64, .f32⟩
  | 1 => ⟨S2048x16x16x64, .f32⟩
  | 2 => ⟨S2048x16x16x64, .f32⟩
  | 3 => ⟨S2048x16x16x64, .f32⟩
  | 4 => ⟨S2048x16x16x1, .f32⟩
  | 5 => ⟨S2048x16x16, .f32⟩
  | 6 => ⟨S2048x16x16x1, .f32⟩
  | 7 => ⟨S2048x16x16x64, .f32⟩
  | 8 => ⟨S2048x16x16x64, .f32⟩
  | 9 => ⟨S2048x16x16x64, .f32⟩
  | 10 => ⟨S2048x16x16x64, .f32⟩
  | 11 => ⟨S2048x16x1024, .f32⟩
  | 12 => ⟨S_, .f32⟩
  | 13 => ⟨S2048x16, .f32⟩
  | 14 => ⟨S2048x16x1, .f32⟩
  | 15 => ⟨S_, .f32⟩
  | 16 => ⟨S2048x16x1, .f32⟩
  | 17 => ⟨S2048x16x1, .f32⟩
  | 18 => ⟨S2048x16x1024, .f32⟩
  | 19 => ⟨S2048x16x1024, .f32⟩
  | 20 => ⟨S2048x16x1024, .f32⟩
  | 21 => ⟨S_, .f32⟩
  | 22 => ⟨S2048x16, .f32⟩
  | 23 => ⟨S2048x16x1, .f32⟩
  | 24 => ⟨S_, .f32⟩
  | 25 => ⟨S2048x16x1, .f32⟩
  | 26 => ⟨S2048x16x1, .f32⟩
  | 27 => ⟨S2048x16x1024, .f32⟩
  | 28 => ⟨S2048x16x1024, .f32⟩
  | 29 => ⟨S_, .f32⟩
  | 30 => ⟨S2048x16x1, .f32⟩
  | 31 => ⟨S2048x16x1, .f32⟩
  | 32 => ⟨S2048x16x1, .f32⟩
  | 33 => ⟨S2048x16x1024, .f32⟩
  | 34 => ⟨S2048x16x1024, .f32⟩
  | 35 => ⟨S1x1x1024, .f32⟩
  | 36 => ⟨S2048x16x1024, .f32⟩
  | 37 => ⟨S2048x16x1024, .f32⟩
  | 38 => ⟨S1x1x1024, .f32⟩
  | 39 => ⟨S2048x16x1024, .f32⟩
  | 40 => ⟨S2048x16x1024, .f32⟩
  | 41 => ⟨S2048x16x4096, .f32⟩
  | 42 => ⟨S1x1x4096, .f32⟩
  | 43 => ⟨S2048x16x4096, .f32⟩
  | 44 => ⟨S2048x16x4096, .f32⟩
  | 45 => ⟨S_, .f32⟩
  | 46 => ⟨S2048x16x4096, .f32⟩
  | 47 => ⟨S2048x16x4096, .f32⟩
  | 48 => ⟨S2048x16x1024, .f32⟩
  | 49 => ⟨S1x1x1024, .f32⟩
  | 50 => ⟨S2048x16x1024, .f32⟩
  | 51 => ⟨S2048x16x1024, .f32⟩
  | 52 => ⟨S2048x16x1024, .f32⟩
  | _ => ⟨S2048x16x1024, .f32⟩

abbrev hbmTy (i : Nat) : BufTy := match i / 128 with
  | 0 => hbmTy0_0 i
  | 1 => hbmTy0_1 i
  | _ => ⟨S2048x16x1024, .f32⟩

abbrev bufTy : (tb : Table) → Fin (tcTables nBuf tb) → BufTy
  | .hbm, ⟨i, _⟩ => hbmTy i
  | _, _ => ⟨S2048x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_call0_v0 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_cst_3 : Ref sig .tc := ⟨.hbm, 140, rfl⟩
abbrev main_v125 : Ref sig .tc := ⟨.hbm, 141, rfl⟩
abbrev main_v126 : Ref sig .tc := ⟨.hbm, 142, rfl⟩
abbrev main_cst_4 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_cst_5 : Ref sig .tc := ⟨.hbm, 149, rfl⟩
abbrev main_v132 : Ref sig .tc := ⟨.hbm, 150, rfl⟩
abbrev main_v133 : Ref sig .tc := ⟨.hbm, 151, rfl⟩
abbrev main_cst_6 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_cst_7 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_call1_cst : Ref sig .tc := ⟨.hbm, 173, rfl⟩
abbrev main_call1_v0 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩

abbrev nD : Nat := 1
abbrev τ : Topo := Topo.v7x

variable {F : FTy → Type} [FloatOps F]

class Facts₀ : Prop where
  bcast_S240_S1x1x240_2 : S240.BroadcastsInDim S1x1x240 (![2] : Fin 1 → Fin S1x1x240.rank)
  bcast_S1x1x240_S2048x16x240_0_1_2 : S1x1x240.BroadcastsInDim S2048x16x240 (![0, 1, 2] : Fin 3 → Fin S2048x16x240.rank)
  shapeCasts_S2048x16x240_S2048x16x16x15 : S2048x16x240.ShapeCasts S2048x16x16x15
  reducesTo_S2048x16x16x15_S2048x16x16_d3 : S2048x16x16x15.ReducesTo [3] S2048x16x16
  h_S_ : 0 < S_.numel
  bcast_S_S2048x16x16 : S_.BroadcastsInDim S2048x16x16 (![] : Fin 0 → Fin S2048x16x16.rank)
  bcast_S2048x16x16_S2048x16x16x1_0_1_2 : S2048x16x16.BroadcastsInDim S2048x16x16x1 (![0, 1, 2] : Fin 3 → Fin S2048x16x16x1.rank)
  bcast_S2048x16x16x1_S2048x16x16x15_0_1_2_3 : S2048x16x16x1.BroadcastsInDim S2048x16x16x15 (![0, 1, 2, 3] : Fin 4 → Fin S2048x16x16x15.rank)
  shapeCasts_S2048x16x1024_S2048x16x16x64 : S2048x16x1024.ShapeCasts S2048x16x16x64
  pads_S2048x16x16x64_S2062x16x16x64_1400_000_000_000 : S2048x16x16x64.Pads (![14, 0, 0, 0] : Fin 4 → Nat) ![0, 0, 0, 0] ![0, 0, 0, 0] S2062x16x16x64
  bcast_S_S2048x16x16x64 : S_.BroadcastsInDim S2048x16x16x64 (![] : Fin 0 → Fin S2048x16x16x64.rank)
  slices_S2048x16x16x15_S2048x16x16x1_0_0_0_0 : S2048x16x16x15.Slices ![0, 0, 0, 0] S2048x16x16x1
  shapeCasts_S2048x16x16x1_S2048x16x16 : S2048x16x16x1.ShapeCasts S2048x16x16
  slices_S2062x16x16x64_S2048x16x16x64_0_0_0_0 : S2062x16x16x64.Slices ![0, 0, 0, 0] S2048x16x16x64
  bcast_S2048x16x16x1_S2048x16x16x64_0_1_2_3 : S2048x16x16x1.BroadcastsInDim S2048x16x16x64 (![0, 1, 2, 3] : Fin 4 → Fin S2048x16x16x64.rank)
  slices_S2048x16x16x15_S2048x16x16x1_0_0_0_1 : S2048x16x16x15.Slices ![0, 0, 0, 1] S2048x16x16x1
  slices_S2062x16x16x64_S2048x16x16x64_1_0_0_0 : S2062x16x16x64.Slices ![1, 0, 0, 0] S2048x16x16x64
  slices_S2048x16x16x15_S2048x16x16x1_0_0_0_2 : S2048x16x16x15.Slices ![0, 0, 0, 2] S2048x16x16x1
  slices_S2062x16x16x64_S2048x16x16x64_2_0_0_0 : S2062x16x16x64.Slices ![2, 0, 0, 0] S2048x16x16x64
  slices_S2048x16x16x15_S2048x16x16x1_0_0_0_3 : S2048x16x16x15.Slices ![0, 0, 0, 3] S2048x16x16x1
  slices_S2062x16x16x64_S2048x16x16x64_3_0_0_0 : S2062x16x16x64.Slices ![3, 0, 0, 0] S2048x16x16x64
  slices_S2048x16x16x15_S2048x16x16x1_0_0_0_4 : S2048x16x16x15.Slices ![0, 0, 0, 4] S2048x16x16x1
  slices_S2062x16x16x64_S2048x16x16x64_4_0_0_0 : S2062x16x16x64.Slices ![4, 0, 0, 0] S2048x16x16x64
  slices_S2048x16x16x15_S2048x16x16x1_0_0_0_5 : S2048x16x16x15.Slices ![0, 0, 0, 5] S2048x16x16x1
  slices_S2062x16x16x64_S2048x16x16x64_5_0_0_0 : S2062x16x16x64.Slices ![5, 0, 0, 0] S2048x16x16x64
  slices_S2048x16x16x15_S2048x16x16x1_0_0_0_6 : S2048x16x16x15.Slices ![0, 0, 0, 6] S2048x16x16x1
  slices_S2062x16x16x64_S2048x16x16x64_6_0_0_0 : S2062x16x16x64.Slices ![6, 0, 0, 0] S2048x16x16x64
  slices_S2048x16x16x15_S2048x16x16x1_0_0_0_7 : S2048x16x16x15.Slices ![0, 0, 0, 7] S2048x16x16x1
  slices_S2062x16x16x64_S2048x16x16x64_7_0_0_0 : S2062x16x16x64.Slices ![7, 0, 0, 0] S2048x16x16x64
  slices_S2048x16x16x15_S2048x16x16x1_0_0_0_8 : S2048x16x16x15.Slices ![0, 0, 0, 8] S2048x16x16x1
  slices_S2062x16x16x64_S2048x16x16x64_8_0_0_0 : S2062x16x16x64.Slices ![8, 0, 0, 0] S2048x16x16x64
  slices_S2048x16x16x15_S2048x16x16x1_0_0_0_9 : S2048x16x16x15.Slices ![0, 0, 0, 9] S2048x16x16x1
  slices_S2062x16x16x64_S2048x16x16x64_9_0_0_0 : S2062x16x16x64.Slices ![9, 0, 0, 0] S2048x16x16x64
  slices_S2048x16x16x15_S2048x16x16x1_0_0_0_10 : S2048x16x16x15.Slices ![0, 0, 0, 10] S2048x16x16x1
  slices_S2062x16x16x64_S2048x16x16x64_10_0_0_0 : S2062x16x16x64.Slices ![10, 0, 0, 0] S2048x16x16x64
  slices_S2048x16x16x15_S2048x16x16x1_0_0_0_11 : S2048x16x16x15.Slices ![0, 0, 0, 11] S2048x16x16x1
  slices_S2062x16x16x64_S2048x16x16x64_11_0_0_0 : S2062x16x16x64.Slices ![11, 0, 0, 0] S2048x16x16x64
  slices_S2048x16x16x15_S2048x16x16x1_0_0_0_12 : S2048x16x16x15.Slices ![0, 0, 0, 12] S2048x16x16x1
  slices_S2062x16x16x64_S2048x16x16x64_12_0_0_0 : S2062x16x16x64.Slices ![12, 0, 0, 0] S2048x16x16x64
  slices_S2048x16x16x15_S2048x16x16x1_0_0_0_13 : S2048x16x16x15.Slices ![0, 0, 0, 13] S2048x16x16x1
  slices_S2062x16x16x64_S2048x16x16x64_13_0_0_0 : S2062x16x16x64.Slices ![13, 0, 0, 0] S2048x16x16x64
  slices_S2048x16x16x15_S2048x16x16x1_0_0_0_14 : S2048x16x16x15.Slices ![0, 0, 0, 14] S2048x16x16x1
  slices_S2062x16x16x64_S2048x16x16x64_14_0_0_0 : S2062x16x16x64.Slices ![14, 0, 0, 0] S2048x16x16x64
  shapeCasts_S2048x16x16x64_S2048x16x1024 : S2048x16x16x64.ShapeCasts S2048x16x1024
  reducesTo_S2048x16x1024_S2048x16_d2 : S2048x16x1024.ReducesTo [2] S2048x16
  bcast_S2048x16_S2048x16x1_0_1 : S2048x16.BroadcastsInDim S2048x16x1 (![0, 1] : Fin 2 → Fin S2048x16x1.rank)
  bcast_S_S2048x16x1 : S_.BroadcastsInDim S2048x16x1 (![] : Fin 0 → Fin S2048x16x1.rank)
  bcast_S2048x16x1_S2048x16x1024_0_1_2 : S2048x16x1.BroadcastsInDim S2048x16x1024 (![0, 1, 2] : Fin 3 → Fin S2048x16x1024.rank)
  bcast_S1024_S1x1x1024_2 : S1024.BroadcastsInDim S1x1x1024 (![2] : Fin 1 → Fin S1x1x1024.rank)
  bcast_S1x1x1024_S2048x16x1024_0_1_2 : S1x1x1024.BroadcastsInDim S2048x16x1024 (![0, 1, 2] : Fin 3 → Fin S2048x16x1024.rank)
  bcast_S4096_S1x1x4096_2 : S4096.BroadcastsInDim S1x1x4096 (![2] : Fin 1 → Fin S1x1x4096.rank)
  bcast_S1x1x4096_S2048x16x4096_0_1_2 : S1x1x4096.BroadcastsInDim S2048x16x4096 (![0, 1, 2] : Fin 3 → Fin S2048x16x4096.rank)
  bcast_S_S2048x16x4096 : S_.BroadcastsInDim S2048x16x4096 (![] : Fin 0 → Fin S2048x16x4096.rank)
  dot_S2048x16x1024_S240x1024_S2048x16x240_2_1_01_0_n_n_wf : DotDims.WF S2048x16x1024 S240x1024 S2048x16x240 [2] [1] [0, 1] [0] [] []
  dot_S2048x16x1024_S4096x1024_S2048x16x4096_2_1_01_0_n_n_wf : DotDims.WF S2048x16x1024 S4096x1024 S2048x16x4096 [2] [1] [0, 1] [0] [] []
  dot_S2048x16x4096_S1024x4096_S2048x16x1024_2_1_01_0_n_n_wf : DotDims.WF S2048x16x4096 S1024x4096 S2048x16x1024 [2] [1] [0, 1] [0] [] []

variable [Facts₀]

def dot_S2048x16x1024_S240x1024_S2048x16x240_2_1_01_0_n_n : DotDims S2048x16x1024 S240x1024 S2048x16x240 where
  lhsContracting := [2]
  rhsContracting := [1]
  lhsNonContracting := [0, 1]
  rhsNonContracting := [0]
  lhsBatch := []
  rhsBatch := []
  wf := dot_S2048x16x1024_S240x1024_S2048x16x240_2_1_01_0_n_n_wf
def dot_S2048x16x1024_S4096x1024_S2048x16x4096_2_1_01_0_n_n : DotDims S2048x16x1024 S4096x1024 S2048x16x4096 where
  lhsContracting := [2]
  rhsContracting := [1]
  lhsNonContracting := [0, 1]
  rhsNonContracting := [0]
  lhsBatch := []
  rhsBatch := []
  wf := dot_S2048x16x1024_S4096x1024_S2048x16x4096_2_1_01_0_n_n_wf
def dot_S2048x16x4096_S1024x4096_S2048x16x1024_2_1_01_0_n_n : DotDims S2048x16x4096 S1024x4096 S2048x16x1024 where
  lhsContracting := [2]
  rhsContracting := [1]
  lhsNonContracting := [0, 1]
  rhsNonContracting := [0]
  lhsBatch := []
  rhsBatch := []
  wf := dot_S2048x16x4096_S1024x4096_S2048x16x1024_2_1_01_0_n_n_wf

class Facts : Prop extends Facts₀ where

variable [Facts]
-- ==== Proof.Spec.lean ====
/-
  The mathematics of one position (t, b) of the layer, on the extended reals, over plain coordinate functions.

  A position sees the fifteen causal rows xr k = x_padded[t + k, b, ·] (k = 14 is x[t, b, ·] itself; rows before time 0 hold the
  padding value). From its own row it forms 16 × 15 logits  ℓ(h, k) = Σ_c xr 14 c · cw (15 h + k) c + cb (15 h + k),  takes a
  softmax over the taps k of each head h (maximum from −∞, exponentials of the differences, their sum, the quotients), and mixes
  the fifteen rows channel by channel with the weights of the channel's head (channel c belongs to head c / 64), summed left to
  right from zero. The mixed row is normalised (mean and variance over the 1024 channels, both as a sum divided by 1024), scaled by
  g and shifted by β; then the feed-forward block: 4096 hidden units  max(Σ_c y c · w1 f c + b1 f, 0), projected back with w2,
  plus b2, plus the normalised row again.

  The normalisation is written twice: with the reciprocal square root as a factor, and with the square root as a divisor. The
  two agree because the variance plus ε is positive on the extended reals whatever the row holds (a sum of squares is never
  negative there, even at the infinities), and for a positive v — +∞ included — d · rsqrt v = d / sqrt v.
-/
import Idealize.ShloMosaic.PureOps.Ideal
import Idealize.ShloMosaic.PureOps.Ideal.Laws
import Idealize.ShloMosaic.Lib.ValueIdx

noncomputable section

namespace Cert.ConvLnFfn

open Idealize.ShloMosaic

/-- The literals of both programs, kept as their words. -/
abbrev zeroW : EReal := Ideal.ofBits .f32 0x00000000#32
abbrev negInfW : EReal := Ideal.ofBits .f32 0xFF800000#32
abbrev nW : EReal := Ideal.ofBits .f32 0x44800000#32
abbrev epsW : EReal := Ideal.ofBits .f32 0x3727C5AC#32

/-- Head h, tap k as a row 15 h + k of the projection. -/
def hk (h : Fin 16) (k : Fin 15) : Fin 240 := ⟨h.val * 15 + k.val, by have := h.isLt; have := k.isLt; omega⟩
/-- The head of channel c. -/
def headOf (c : Fin 1024) : Fin 16 := ⟨c.val / 64, by have := c.isLt; omega⟩

section Softmax
variable (x14 : Fin 1024 → EReal) (cw : Fin 240 → Fin 1024 → EReal) (cb : Fin 240 → EReal)

def logit (h : Fin 16) (k : Fin 15) : EReal := (∑ c : Fin 1024, x14 c * cw (hk h k) c) + cb (hk h k)
def lmax (h : Fin 16) : EReal := (Finset.univ : Finset (Fin 15)).fold max negInfW (fun k => logit x14 cw cb h k)
def ex (h : Fin 16) (k : Fin 15) : EReal := Ideal.exp (logit x14 cw cb h k - lmax x14 cw cb h)
def esum (h : Fin 16) : EReal := ∑ k : Fin 15, ex x14 cw cb h k
def wsm (h : Fin 16) (k : Fin 15) : EReal := Ideal.div (ex x14 cw cb h k) (esum x14 cw cb h)
end Softmax

/-- The fifteen taps mixed from zero, left to right. -/
def mix (w : Fin 15 → EReal) (v : Fin 15 → EReal) : EReal :=
  zeroW + w 0 * v 0 + w 1 * v 1 + w 2 * v 2 + w 3 * v 3 + w 4 * v 4 + w 5 * v 5 + w 6 * v 6 + w 7 * v 7 + w 8 * v 8
    + w 9 * v 9 + w 10 * v 10 + w 11 * v 11 + w 12 * v 12 + w 13 * v 13 + w 14 * v 14

/-- The mixed row of a position. -/
def convRow (xr : Fin 15 → Fin 1024 → EReal) (cw : Fin 240 → Fin 1024 → EReal) (cb : Fin 240 → EReal) (c : Fin 1024) : EReal :=
  mix (fun k => wsm (xr 14) cw cb (headOf c) k) (fun k => xr k c)

section Norm
variable (y : Fin 1024 → EReal) (g β : Fin 1024 → EReal)
def mean : EReal := Ideal.div (∑ c : Fin 1024, y c) nW
def dev (c : Fin 1024) : EReal := y c - mean y
def var : EReal := Ideal.div (∑ c : Fin 1024, dev y c * dev y c) nW
/-- Normalised with the reciprocal square root as a factor. -/
def normK (c : Fin 1024) : EReal := dev y c * Ideal.rsqrt (var y + epsW) * g c + β c
/-- Normalised with the square root as a divisor. -/
def normR (c : Fin 1024) : EReal := Ideal.div (dev y c) (Ideal.sqrt (var y + epsW)) * g c + β c
end Norm

section Ffn
variable (y : Fin 1024 → EReal) (w1 : Fin 4096 → Fin 1024 → EReal) (b1 : Fin 4096 → EReal)
  (w2 : Fin 1024 → Fin 4096 → EReal) (b2 : Fin 1024 → EReal)
def hid (f : Fin 4096) : EReal := max ((∑ c : Fin 1024, y c * w1 f c) + b1 f) zeroW
def ffn (c : Fin 1024) : EReal := (∑ f : Fin 4096, hid y w1 b1 f * w2 c f) + b2 c + y c
end Ffn

/-! ## The whole layer at a position, from the argument arrays read by coordinates -/

/-- The value both programs pad the time axis with: the integer zero, converted. -/
abbrev padW : EReal := FloatOps.sitofp (F := Ideal) .f32 (0#32 : BitVec 32)

/-- Row t' of a time column padded with fourteen rows in front (rows 0 … 13 hold the padding value, row t' ≥ 14 holds row t' − 14). -/
def padded (col : Fin 2048 → EReal) (t' : ℕ) : EReal :=
  if h : 14 ≤ t' ∧ t' < 2062 then col ⟨t' - 14, by omega⟩ else padW

/-- The fifteen causal rows of position (t, b): row k is padded row t + k. -/
def rowsAt (x : Fin 2048 → Fin 16 → Fin 1024 → EReal) (t : Fin 2048) (b : Fin 16) (k : Fin 15) (c : Fin 1024) : EReal :=
  padded (fun t' => x t' b c) (t.val + k.val)

abbrev arr1 {n : ℕ} (a : (⟨1, ![n]⟩ : Shape).Idx → EReal) : Fin n → EReal := fun i => a (ValueIdx.ix1 i)
abbrev arr2 {n0 n1 : ℕ} (a : (⟨2, ![n0, n1]⟩ : Shape).Idx → EReal) : Fin n0 → Fin n1 → EReal := fun i j => a (ValueIdx.ix2 i j)
abbrev arr3 {n0 n1 n2 : ℕ} (a : (⟨3, ![n0, n1, n2]⟩ : Shape).Idx → EReal) : Fin n0 → Fin n1 → Fin n2 → EReal :=
  fun i j k => a (ValueIdx.ix3 i j k)

section Layer
variable (x : Fin 2048 → Fin 16 → Fin 1024 → EReal) (cw : Fin 240 → Fin 1024 → EReal) (cb : Fin 240 → EReal)
  (g β : Fin 1024 → EReal) (w1 : Fin 4096 → Fin 1024 → EReal) (b1 : Fin 4096 → EReal)
  (w2 : Fin 1024 → Fin 4096 → EReal) (b2 : Fin 1024 → EReal)
/-- The normalised row of position (t, b), reciprocal square root as a factor. -/
def yK (t : Fin 2048) (b : Fin 16) : Fin 1024 → EReal := normK (convRow (rowsAt x t b) cw cb) g β
/-- The normalised row of position (t, b), square root as a divisor. -/
def yR (t : Fin 2048) (b : Fin 16) : Fin 1024 → EReal := normR (convRow (rowsAt x t b) cw cb) g β
def layerK (t : Fin 2048) (b : Fin 16) (c : Fin 1024) : EReal := ffn (yK x cw cb g β t b) w1 b1 w2 b2 c
def layerR (t : Fin 2048) (b : Fin 16) (c : Fin 1024) : EReal := ffn (yR x cw cb g β t b) w1 b1 w2 b2 c
end Layer

/-! ## The two spellings of the normalisation agree -/

theorem nW_eq : nW = ((1024 : ℝ) : EReal) := by
  simp [nW, Ideal.ofBits, Ideal.ieee, -EReal.coe_mul]; norm_num
theorem epsW_pos : (0 : EReal) < epsW := by
  simp [epsW, Ideal.ofBits, Ideal.ieee, -EReal.coe_mul]

/-- A square is never negative on the extended reals: the infinities square to +∞. -/
theorem mul_self_nonneg (x : EReal) : 0 ≤ x * x := by
  induction x using EReal.rec with
  | bot => simp
  | coe r => exact_mod_cast _root_.mul_self_nonneg r
  | top => simp

/-- The variance is a nonnegative sum divided by 1024. -/
theorem var_nonneg (y : Fin 1024 → EReal) : 0 ≤ var y := by
  unfold var
  rw [nW_eq, Ideal.div_coe (by norm_num)]
  exact EReal.mul_nonneg (Finset.sum_nonneg fun c _ => mul_self_nonneg _) (by exact_mod_cast (by norm_num : (0 : ℝ) ≤ 1 / 1024))

theorem var_eps_pos (y : Fin 1024 → EReal) : 0 < var y + epsW :=
  lt_of_lt_of_le epsW_pos (le_add_of_nonneg_left (var_nonneg y))

/-- For a positive v, +∞ included, the reciprocal square root as a factor is the square root as a divisor. -/
theorem mul_rsqrt_eq_div_sqrt (d v : EReal) (hv : 0 < v) : d * Ideal.rsqrt v = Ideal.div d (Ideal.sqrt v) := by
  induction v using EReal.rec with
  | bot => exact absurd hv (by simp)
  | top =>
    show d * 0 = Ideal.div d ⊤
    rw [Ideal.div, if_neg (by simp)]; simp
  | coe r =>
    have hr : 0 < r := by exact_mod_cast hv
    have h1 : Ideal.rsqrt (r : EReal) = (((Real.sqrt r)⁻¹ : ℝ) : EReal) := by
      rw [Ideal.rsqrt_coe, if_neg (not_lt.2 hr.le), if_neg hr.ne']
    have h2 : Ideal.sqrt (r : EReal) = ((Real.sqrt r : ℝ) : EReal) := by
      show (if r < 0 then ⊥ else _) = _
      rw [if_neg (not_lt.2 hr.le)]
    rw [h1, h2, Ideal.div, if_neg (by exact_mod_cast (Real.sqrt_pos.2 hr).ne'), EReal.coe_inv]

theorem normK_eq_normR (y g β : Fin 1024 → EReal) : normK y g β = normR y g β := by
  funext c
  unfold normK normR
  rw [mul_rsqrt_eq_div_sqrt _ _ (var_eps_pos y)]

theorem layerK_eq_layerR (x : Fin 2048 → Fin 16 → Fin 1024 → EReal) (cw : Fin 240 → Fin 1024 → EReal) (cb : Fin 240 → EReal)
    (g β : Fin 1024 → EReal) (w1 : Fin 4096 → Fin 1024 → EReal) (b1 : Fin 4096 → EReal)
    (w2 : Fin 1024 → Fin 4096 → EReal) (b2 : Fin 1024 → EReal) (t : Fin 2048) (b : Fin 16) (c : Fin 1024) :
    layerK x cw cb g β w1 b1 w2 b2 t b c = layerR x cw cb g β w1 b1 w2 b2 t b c := by
  unfold layerK layerR yK yR
  rw [normK_eq_normR]

end Cert.ConvLnFfn

end
-- ==== Proof.KerGather.lean ====
import proofs.«151048_j12266426597625_1_alg».proof.Proof.Gen.KernelIdeal.Frame
import proofs.«151048_j12266426597625_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

set_option maxRecDepth 16384

noncomputable section

namespace Cert.KernelIdeal.KerValue

open Cert.KernelIdeal Cert.KernelIdeal.Gen Cert.ConvLnFfn Idealize.ShloMosaic Idealize.ShloMosaic.TcCoe Idealize.SL.Sem Idealize.ShloMosaic.ValueIdx

variable (m : (ℓ : Loc nD τ sig) → Buf (Elt Ideal) ℓ) (ρ : Dev nD → PrngReg)

/-- The gather of the first kernel's window read at (i, j, b, c'): the operand at the row the start index (i, j, 0) names, read
    signed and clamped into [0, 2061], and at (b, c') on the two axes the gather copies whole. -/
theorem gather_at {α : Type} (x : S2062x16x1024.Idx → α) (idx : IVec S32x78x1 32)
    (i : Fin 32) (j : Fin 78) (b : Fin 16) (c' : Fin 1024) (r : ℕ) (hr : r < 2062)
    (h : min (idx (ix3 i j (0 : Fin 1))).toInt.toNat 2061 = r) :
    Host.gather gather_S2062x16x1024_S32x78x1_S32x78x16x1024_23_0_n_n_0_2_1161024 x idx (ix4 i j b c')
      = x (ix3 ⟨r, hr⟩ b c') := by
  unfold Host.gather
  congr 1
  funext a
  refine Fin.ext ?_
  match a with
  | ⟨0, _⟩ =>
    show GatherDims.start _ (ix4 i j b c') idx 0 + GatherDims.batchCoord _ (ix4 i j b c') 0 + GatherDims.offCoord _ (ix4 i j b c') 0 = r
    have h2 : GatherDims.batchCoord gather_S2062x16x1024_S32x78x1_S32x78x16x1024_23_0_n_n_0_2_1161024 (ix4 i j b c') 0 = 0 := rfl
    have h3 : GatherDims.offCoord gather_S2062x16x1024_S32x78x1_S32x78x16x1024_23_0_n_n_0_2_1161024 (ix4 i j b c') 0 = 0 := rfl
    have hsi : GatherDims.siIdx gather_S2062x16x1024_S32x78x1_S32x78x16x1024_23_0_n_n_0_2_1161024 (ix4 i j b c') ⟨0, Nat.one_pos⟩
        = ix3 i j (0 : Fin 1) := by
      funext e; refine Fin.ext ?_
      match e with
      | ⟨0, _⟩ => rfl
      | ⟨1, _⟩ => rfl
      | ⟨2, _⟩ => rfl
    have h1 : GatherDims.start gather_S2062x16x1024_S32x78x1_S32x78x16x1024_23_0_n_n_0_2_1161024 (ix4 i j b c') idx 0
        = min (idx (GatherDims.siIdx gather_S2062x16x1024_S32x78x1_S32x78x16x1024_23_0_n_n_0_2_1161024 (ix4 i j b c') ⟨0, Nat.one_pos⟩)).toInt.toNat 2061 := rfl
    rw [h1, h2, h3, hsi, h]; omega
  | ⟨1, _⟩ =>
    show GatherDims.start _ (ix4 i j b c') idx 1 + GatherDims.batchCoord _ (ix4 i j b c') 1 + GatherDims.offCoord _ (ix4 i j b c') 1 = b.val
    have h1 : GatherDims.start gather_S2062x16x1024_S32x78x1_S32x78x16x1024_23_0_n_n_0_2_1161024 (ix4 i j b c') idx 1 = 0 := rfl
    have h2 : GatherDims.batchCoord gather_S2062x16x1024_S32x78x1_S32x78x16x1024_23_0_n_n_0_2_1161024 (ix4 i j b c') 1 = 0 := rfl
    have h3 : GatherDims.offCoord gather_S2062x16x1024_S32x78x1_S32x78x16x1024_23_0_n_n_0_2_1161024 (ix4 i j b c') 1 = b.val := rfl
    rw [h1, h2, h3]; omega
  | ⟨2, _⟩ =>
    show GatherDims.start _ (ix4 i j b c') idx 2 + GatherDims.batchCoord _ (ix4 i j b c') 2 + GatherDims.offCoord _ (ix4 i j b c') 2 = c'.val
    have h1 : GatherDims.start gather_S2062x16x1024_S32x78x1_S32x78x16x1024_23_0_n_n_0_2_1161024 (ix4 i j b c') idx 2 = 0 := rfl
    have h2 : GatherDims.batchCoord gather_S2062x16x1024_S32x78x1_S32x78x16x1024_23_0_n_n_0_2_1161024 (ix4 i j b c') 2 = 0 := rfl
    have h3 : GatherDims.offCoord gather_S2062x16x1024_S32x78x1_S32x78x16x1024_23_0_n_n_0_2_1161024 (ix4 i j b c') 2 = c'.val := rfl
    rw [h1, h2, h3]; omega

/-- The words 64 i + j as the host program computes them, an array [32, 78]. -/
def rowW : IVec S32x78 32 :=
  addi
    (broadcastInDim S32x78 ![0, 1] bcast_S32x1_S32x78_0_1
      (broadcastInDim S32x1 ![0] bcast_S32_S32x1_0
        (muli (iotaInDim S32 32 0) (broadcastInDim S32 ![] bcast_S_S32 (constantI S_ 32 64#32)))))
    (broadcastInDim S32x78 ![0, 1] bcast_S1x78_S32x78_0_1
      (broadcastInDim S1x78 ![1] bcast_S78_S1x78_1 (iotaInDim S78 32 0)))

/-- The start indices of the gather, an array [32, 78, 1]: the word 64 i + j, or that word plus 2062 where it reads negative. -/
def idxW : IVec S32x78x1 32 :=
  broadcastInDim S32x78x1 ![0, 1] bcast_S32x78_S32x78x1_0_1
    (select (cmpi .slt rowW (broadcastInDim S32x78 ![] bcast_S_S32x78 (constantI S_ 32 0#32)))
      (addi rowW (broadcastInDim S32x78 ![] bcast_S_S32x78 (constantI S_ 32 2062#32))) rowW)

/-- x padded with fourteen rows in front, as the host program computes it. -/
def padX (c : Dev nD) : S2062x16x1024.Idx → EReal :=
  pad S2062x16x1024 ![14, 0, 0] ![0, 0, 0] ![0, 0, 0] (m ((c : Thread nD τ).loc main_arg0) : S2048x16x1024.Idx → EReal)
    (sitofp (F := Ideal) .f32 (constantI S_ 32 0#32)) pads_S2048x16x1024_S2062x16x1024_1400_000_000 h_S_

set_option maxHeartbeats 4000000 in
/-- The gathered array as the host operations before the first kernel leave it. -/
theorem v16_term (c : Dev nD) :
    (V3 m ρ c main_v16 : S32x78x16x1024.Idx → EReal)
      = Host.gather gather_S2062x16x1024_S32x78x1_S32x78x16x1024_23_0_n_n_0_2_1161024 (padX m c) idxW := by
  show StableHlo.after hostOps0_2 (W2 m ρ c) (Proc.devRef .tc main_v16) = _
  after_results_simp
  rfl

/-- The host's word for row 64 i + j is that natural as a word. -/
theorem row_word (i : Fin 32) (j : Fin 78) :
    IntOp.addi (IntOp.muli (BitVec.ofNat 32 i.val) 64#32) (BitVec.ofNat 32 j.val) = BitVec.ofNat 32 (64 * i.val + j.val) := by
  have hi := i.isLt
  have hj := j.isLt
  apply BitVec.eq_of_toNat_eq
  simp only [IntOp.addi, IntOp.muli, BitVec.toNat_add, BitVec.toNat_mul, BitVec.toNat_ofNat]
  omega

/-- A word below 2062 reads, signed, as its natural. -/
theorem toInt_small (n : ℕ) (hn : n < 2062) : (BitVec.ofNat 32 n).toInt = (n : ℤ) := by
  rw [BitVec.toInt_eq_msb_cond, BitVec.msb_eq_false_iff_two_mul_lt.mpr (by simp only [BitVec.toNat_ofNat]; omega)]
  simp only [BitVec.toNat_ofNat, Bool.false_eq_true, if_false]
  omega

/-- Such a word is not below zero as a signed word. -/
theorem slt_zero_small (n : ℕ) (hn : n < 2062) : IntOp.cmpi .slt (BitVec.ofNat 32 n) 0#32 = 0#1 := by
  show BitVec.ofBool ((BitVec.ofNat 32 n).slt 0#32) = 0#1
  have h : (BitVec.ofNat 32 n).slt 0#32 = false := by
    rw [BitVec.slt, toInt_small n hn]
    simp
  rw [h]; rfl

/-- The start index at (i, j, 0), read signed and clamped to the padded column's rows, is the natural 64 i + j. -/
theorem idx_row (i : Fin 32) (j : Fin 78) : min (idxW (ix3 i j (0 : Fin 1))).toInt.toNat 2061 = 64 * i.val + j.val := by
  have hi := i.isLt
  have hj := j.isLt
  have hn : 64 * i.val + j.val < 2062 := by omega
  have e : idxW (ix3 i j (0 : Fin 1))
      = Scalar.select (IntOp.cmpi .slt (IntOp.addi (IntOp.muli (BitVec.ofNat 32 i.val) 64#32) (BitVec.ofNat 32 j.val)) 0#32)
          (IntOp.addi (IntOp.addi (IntOp.muli (BitVec.ofNat 32 i.val) 64#32) (BitVec.ofNat 32 j.val)) 2062#32)
          (IntOp.addi (IntOp.muli (BitVec.ofNat 32 i.val) 64#32) (BitVec.ofNat 32 j.val)) := rfl
  rw [e, row_word, slt_zero_small _ hn, select_zero, toInt_small _ hn, Int.toNat_natCast]
  omega

/-- The padded array at row r of column (b, c'): x at row r - 14 from row 14 on, the padding value before. -/
theorem padX_at (c : Dev nD) (r : ℕ) (hr : r < 2062) (b : Fin 16) (c' : Fin 1024) :
    padX m c (ix3 ⟨r, hr⟩ b c')
      = padded (fun t' => (m ((c : Thread nD τ).loc main_arg0) : S2048x16x1024.Idx → EReal) (ix3 t' b c')) r := by
  unfold padX padded
  by_cases h14 : 14 ≤ r
  · rw [dif_pos ⟨h14, hr⟩]
    refine pad_apply_of_inside _ _ _ _ _ _ _ (ix3 ⟨r, hr⟩ b c') (ix3 ⟨r - 14, by omega⟩ b c') ?_
    intro a
    match a with
    | ⟨0, _⟩ => show r = 14 + (r - 14) * (0 + 1); omega
    | ⟨1, _⟩ => show b.val = 0 + b.val * (0 + 1); omega
    | ⟨2, _⟩ => show c'.val = 0 + c'.val * (0 + 1); omega
  · rw [dif_neg (fun h => h14 h.1)]
    refine (pad_apply_of_not_inside _ _ _ _ _ _ _ (ix3 ⟨r, hr⟩ b c') (0 : Fin 3) ?_).trans rfl
    intro h
    exact h14 h.1

/-- The first kernel's windowed input as the region finds it: entry (i, j, b, c') of the gathered array is row 64 i + j of the time
    column (b, c') of x padded with fourteen rows in front. -/
theorem V3_v16 (c : Dev nD) (i : Fin 32) (j : Fin 78) (b : Fin 16) (c' : Fin 1024) :
    (V3 m ρ c main_v16 : S32x78x16x1024.Idx → EReal) (ix4 i j b c')
      = padded (fun t' => (m ((c : Thread nD τ).loc main_arg0) : S2048x16x1024.Idx → EReal) (ix3 t' b c')) (64 * i.val + j.val) := by
  have hi := i.isLt
  have hj := j.isLt
  have hr : 64 * i.val + j.val < 2062 := by omega
  refine (congrFun (v16_term m ρ c) (ix4 i j b c')).trans ?_
  rw [gather_at (padX m c) idxW i j b c' (64 * i.val + j.val) hr (idx_row i j)]
  exact padX_at m c (64 * i.val + j.val) hr b c'

end Cert.KernelIdeal.KerValue

end
-- ==== Proof.KerGlue.lean ====
import proofs.«151048_j12266426597625_1_alg».proof.Proof.Gen.KernelIdeal.Frame
import proofs.«151048_j12266426597625_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

set_option maxRecDepth 16384

noncomputable section

namespace Cert.KernelIdeal.KerValue

open Cert.KernelIdeal Cert.KernelIdeal.Gen Cert.ConvLnFfn Idealize.ShloMosaic Idealize.ShloMosaic.TcCoe Idealize.SL.Sem Idealize.ShloMosaic.ValueIdx

variable (m : (ℓ : Loc nD τ sig) → Buf (Elt Ideal) ℓ) (ρ : Dev nD → PrngReg)

/-! The host operations around the two kernels, read at coordinates: transposes of the weights, the reshapes between the
    [2048, 16, 1024] and [32768, 1024] views, and the argument arrays that no operation writes. -/

/-- A buffer that no operation of a stretch writes holds after the stretch what it held before. -/
local macro "unwritten" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## An argument that none of the three opening stretches writes is, at the first kernel's entry, the launch array -/

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by unwritten hostOps0_2
    _ = W1 m ρ c (Proc.devRef .tc main_arg2) := by unwritten hostOps0_1
    _ = W0 m ρ c (Proc.devRef .tc main_arg2) := by unwritten hostOps0
    _ = m ((c : Thread nD τ).loc main_arg2) := rfl

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0
    _ = m ((c : Thread nD τ).loc main_arg3) := rfl

theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl

theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by unwritten hostOps0_2
    _ = W1 m ρ c (Proc.devRef .tc main_arg6) := by unwritten hostOps0_1
    _ = W0 m ρ c (Proc.devRef .tc main_arg6) := by unwritten hostOps0
    _ = m ((c : Thread nD τ).loc main_arg6) := rfl

theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by unwritten hostOps0_2
    _ = W1 m ρ c (Proc.devRef .tc main_arg8) := by unwritten hostOps0_1
    _ = W0 m ρ c (Proc.devRef .tc main_arg8) := by unwritten hostOps0
    _ = m ((c : Thread nD τ).loc main_arg8) := rfl

/-! ## The first kernel's entry -/

/-- The transposed weight: entry (c', n) of the [1024, 240] array is entry (n, c') of the [240, 1024] argument; the
    narrowing that follows is the identity on the extended reals. -/
theorem V3_v18 (c : Dev nD) (c' : Fin 1024) (n : Fin 240) :
    (V3 m ρ c main_v18 : S1024x240.Idx → EReal) (ix2 c' n) = (m ((c : Thread nD τ).loc main_arg1) : S240x1024.Idx → EReal) (ix2 n c') := by
  show (StableHlo.after hostOps0_2 (W2 m ρ c) (Proc.devRef .tc main_v18) : S1024x240.Idx → EReal) (ix2 c' n) = _
  after_results
  exact transpose_ix2_apply (W0 m ρ c (Proc.devRef .tc main_arg1)) transposes_S240x1024_S1024x240_1_0 c' n
theorem V3_arg2 (c : Dev nD) : V3 m ρ c main_arg2 = m ((c : Thread nD τ).loc main_arg2) := by
  show W3 m ρ c (Proc.devRef .tc main_arg2) = _
  exact W3_arg2 m ρ c
theorem V3_arg3 (c : Dev nD) : V3 m ρ c main_arg3 = m ((c : Thread nD τ).loc main_arg3) := by
  show W3 m ρ c (Proc.devRef .tc main_arg3) = _
  exact W3_arg3 m ρ c
theorem V3_arg4 (c : Dev nD) : V3 m ρ c main_arg4 = m ((c : Thread nD τ).loc main_arg4) := by
  show W3 m ρ c (Proc.devRef .tc main_arg4) = _
  exact W3_arg4 m ρ c

/-! ## The second kernel's entry -/

/-- The [2048, 16, 1024] array viewed as [32768, 1024]: row t * 16 + b of the view is row (t, b) of the array, the two
    having the same row-major position (t * 16 + b) * 1024 + c'. -/
theorem V5_v20 (c : Dev nD) (t : Fin 2048) (b : Fin 16) (c' : Fin 1024) :
    (V5 m ρ c main_v20 : S32768x1024.Idx → EReal) (ix2 (⟨t.val * 16 + b.val, by have := t.isLt; have := b.isLt; omega⟩ : Fin 32768) c')
      = (V4 m ρ c main_v19 : S2048x16x1024.Idx → EReal) (ix3 t b c') := by
  show (StableHlo.after hostOps1 (W4 m ρ c) (Proc.devRef .tc main_v20) : S32768x1024.Idx → EReal) _ = _
  after_results
  exact shapeCast_apply (W4 m ρ c (Proc.devRef .tc main_v19)) shapeCasts_S2048x16x1024_S32768x1024 _ (ix3 t b c') (by
    show (S2048x16x1024.rowMajor (ix3 t b c')).val = (S32768x1024.rowMajor (ix2 (⟨t.val * 16 + b.val, by have := t.isLt; have := b.isLt; omega⟩ : Fin 32768) c')).val
    rw [Shape.rowMajor_val_three, Shape.rowMajor_val_two]
    rfl)
/-- The transposed first weight: entry (c', f) of the [1024, 4096] array is entry (f, c') of the [4096, 1024] argument. -/
theorem V5_v22 (c : Dev nD) (c' : Fin 1024) (f : Fin 4096) :
    (V5 m ρ c main_v22 : S1024x4096.Idx → EReal) (ix2 c' f) = (m ((c : Thread nD τ).loc main_arg5) : S4096x1024.Idx → EReal) (ix2 f c') := by
  show (StableHlo.after hostOps1 (W4 m ρ c) (Proc.devRef .tc main_v22) : S1024x4096.Idx → EReal) (ix2 c' f) = _
  after_results
  rw [W4_of_ne m ρ c main_arg5 (by decide)]
  after_results
  exact transpose_ix2_apply (W0 m ρ c (Proc.devRef .tc main_arg5)) transposes_S4096x1024_S1024x4096_1_0 c' f
/-- The transposed second weight: entry (f, c') of the [4096, 1024] array is entry (c', f) of the [1024, 4096] argument. -/
theorem V5_v24 (c : Dev nD) (f : Fin 4096) (c' : Fin 1024) :
    (V5 m ρ c main_v24 : S4096x1024.Idx → EReal) (ix2 f c') = (m ((c : Thread nD τ).loc main_arg7) : S1024x4096.Idx → EReal) (ix2 c' f) := by
  show (StableHlo.after hostOps1 (W4 m ρ c) (Proc.devRef .tc main_v24) : S4096x1024.Idx → EReal) (ix2 f c') = _
  after_results
  rw [W4_of_ne m ρ c main_arg7 (by decide)]
  after_results
  exact transpose_ix2_apply (W0 m ρ c (Proc.devRef .tc main_arg7)) transposes_S1024x4096_S4096x1024_1_0 f c'
theorem V5_arg6 (c : Dev nD) : V5 m ρ c main_arg6 = m ((c : Thread nD τ).loc main_arg6) := by
  show W5 m ρ c (Proc.devRef .tc main_arg6) = _
  calc W5 m ρ c (Proc.devRef .tc main_arg6)
    _ = W4 m ρ c (Proc.devRef .tc main_arg6) := by unwritten hostOps1
    _ = W3 m ρ c (Proc.devRef .tc main_arg6) := W4_of_ne m ρ c main_arg6 (by decide)
    _ = m ((c : Thread nD τ).loc main_arg6) := W3_arg6 m ρ c
theorem V5_arg8 (c : Dev nD) : V5 m ρ c main_arg8 = m ((c : Thread nD τ).loc main_arg8) := by
  show W5 m ρ c (Proc.devRef .tc main_arg8) = _
  calc W5 m ρ c (Proc.devRef .tc main_arg8)
    _ = W4 m ρ c (Proc.devRef .tc main_arg8) := by unwritten hostOps1
    _ = W3 m ρ c (Proc.devRef .tc main_arg8) := W4_of_ne m ρ c main_arg8 (by decide)
    _ = m ((c : Thread nD τ).loc main_arg8) := W3_arg8 m ρ c

/-! ## The return -/

/-- The [32768, 1024] array viewed back as [2048, 16, 1024]: row (t, b) of the view is row t * 16 + b of the array. -/
theorem W7_v26 (c : Dev nD) (t : Fin 2048) (b : Fin 16) (c' : Fin 1024) :
    (W7 m ρ c (Proc.devRef .tc main_v26) : S2048x16x1024.Idx → EReal) (ix3 t b c')
      = (V6 m ρ c main_v25 : S32768x1024.Idx → EReal) (ix2 (⟨t.val * 16 + b.val, by have := t.isLt; have := b.isLt; omega⟩ : Fin 32768) c') := by
  show (StableHlo.after hostOps2 (W6 m ρ c) (Proc.devRef .tc main_v26) : S2048x16x1024.Idx → EReal) _ = _
  after_results
  exact shapeCast_apply (W6 m ρ c (Proc.devRef .tc main_v25)) shapeCasts_S32768x1024_S2048x16x1024 _ (ix2 (⟨t.val * 16 + b.val, by have := t.isLt; have := b.isLt; omega⟩ : Fin 32768) c') (by
    show (S32768x1024.rowMajor (ix2 (⟨t.val * 16 + b.val, by have := t.isLt; have := b.isLt; omega⟩ : Fin 32768) c')).val = (S2048x16x1024.rowMajor (ix3 t b c')).val
    rw [Shape.rowMajor_val_three, Shape.rowMajor_val_two]
    rfl)

end Cert.KernelIdeal.KerValue

end
-- ==== Proof.KerSoftmax.lean ====
import proofs.«151048_j12266426597625_1_alg».proof.Proof.Gen.KernelIdeal.Skeleton
import proofs.«151048_j12266426597625_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerValue

open Cert.KernelIdeal Cert.KernelIdeal.Gen Cert.ConvLnFfn Idealize.ShloMosaic Idealize.ShloMosaic.ValueIdx

/-- Rows 14 … 77 of the block, flattened to 1024 rows: row s·16 + b is row s + 14 of the block at column b. -/
theorem sm_lhs_apply (v0 : Vec Ideal S1x78x16x1024 .f32)
    (h1 : S1x78x16x1024.ShapeCasts S78x16x1024) (h2 : S78x16x1024.Slices ![14, 0, 0] S64x16x1024)
    (h3 : S64x16x1024.ShapeCasts S1024x1024) (h4 : FTy.bits .bf16 < FTy.bits .f32)
    (s : Fin 64) (b : Fin 16) (c : Fin 1024) :
    (truncf .bf16 (shapeCast S1024x1024 (extractStridedSlice S64x16x1024 ![14, 0, 0] (shapeCast S78x16x1024 v0 h1) h2) h3) h4 : FVec Ideal S1024x1024 .bf16)
      (ix2 (⟨s.val * 16 + b.val, by have := s.isLt; have := b.isLt; omega⟩ : Fin 1024) c)
    = v0 (ix4 (0 : Fin 1) (⟨s.val + 14, by have := s.isLt; omega⟩ : Fin 78) b c) := by
  rw [truncf_apply]
  refine (shapeCast_apply _ h3 _ (ix3 s b c) ?_).trans ?_
  · rw [Shape.rowMajor_val_three, Shape.rowMajor_val_two]
    show (s.val * 16 + b.val) * 1024 + c.val = (s.val * 16 + b.val) * 1024 + c.val
    rfl
  refine (extractStridedSlice_apply _ _ h2 _ (ix3 (⟨s.val + 14, by have := s.isLt; omega⟩ : Fin 78) b c) ?_).trans ?_
  · intro a
    match a with
    | ⟨0, _⟩ => show s.val + 14 = 14 + s.val; omega
    | ⟨1, _⟩ => show b.val = 0 + b.val; omega
    | ⟨2, _⟩ => show c.val = 0 + c.val; omega
  refine shapeCast_apply _ h1 _ (ix4 (0 : Fin 1) (⟨s.val + 14, by have := s.isLt; omega⟩ : Fin 78) b c) ?_
  rw [Shape.rowMajor_val_four, Shape.rowMajor_val_three]
  show ((0 * 78 + (s.val + 14)) * 16 + b.val) * 1024 + c.val = ((s.val + 14) * 16 + b.val) * 1024 + c.val
  omega

/-- The product read back as [64,16,16,15]: (s, b, h, k) is row s·16 + b, column h·15 + k. -/
theorem sm_out_apply (y : FVec Ideal S1024x240 .f32) (h8 : S1024x240.ShapeCasts S64x16x16x15)
    (s : Fin 64) (b : Fin 16) (h : Fin 16) (k : Fin 15) :
    shapeCast S64x16x16x15 y h8 (ix4 s b h k)
      = y (ix2 (⟨s.val * 16 + b.val, by have := s.isLt; have := b.isLt; omega⟩ : Fin 1024) (hk h k)) := by
  refine shapeCast_apply _ h8 _ _ ?_
  rw [Shape.rowMajor_val_four, Shape.rowMajor_val_two]
  show (s.val * 16 + b.val) * 240 + (h.val * 15 + k.val) = ((s.val * 16 + b.val) * 16 + h.val) * 15 + k.val
  omega

/-- The bias reshaped to [1,1,16,15] and broadcast: (s, b, h, k) reads entry h·15 + k. -/
theorem sm_bias_apply (v9 : Vec Ideal S240 .f32) (h10 : S240.ShapeCasts S16x15) (h11 : S16x15.ShapeCasts S1x1x16x15)
    (h12 : S1x1x16x15.Broadcasts S64x16x16x15) (s : Fin 64) (b : Fin 16) (h : Fin 16) (k : Fin 15) :
    broadcastTo S64x16x16x15 (shapeCast S1x1x16x15 (shapeCast S16x15 v9 h10) h11) h12 (ix4 s b h k)
      = v9 (ix1 (hk h k)) := by
  refine (broadcastTo_apply _ h12 _ (ix4 (0 : Fin 1) (0 : Fin 1) h k) ?_).trans ?_
  · intro a
    match a with
    | ⟨0, _⟩ => show 0 = if (1 : Nat) = 1 then 0 else s.val; rw [if_pos rfl]
    | ⟨1, _⟩ => show 0 = if (1 : Nat) = 1 then 0 else b.val; rw [if_pos rfl]
    | ⟨2, _⟩ => show h.val = if (16 : Nat) = 1 then 0 else h.val; rw [if_neg (by decide)]
    | ⟨3, _⟩ => show k.val = if (15 : Nat) = 1 then 0 else k.val; rw [if_neg (by decide)]
  refine (shapeCast_apply _ h11 _ (ix2 h k) ?_).trans ?_
  · rw [Shape.rowMajor_val_two, Shape.rowMajor_val_four]
    show h.val * 15 + k.val = ((0 * 1 + 0) * 16 + h.val) * 15 + k.val
    omega
  refine shapeCast_apply _ h10 _ (ix1 (hk h k)) ?_
  rw [Shape.rowMajor_val_one, Shape.rowMajor_val_two]
  show h.val * 15 + k.val = h.val * 15 + k.val
  rfl

/-- The operand indices of the product at an output index and a contraction index, axis by axis. -/
theorem sm_lhs_dot_0 (i : S1024x240.Idx) (q : dot_S1024x1024_S1024x240_S1024x240_1_0_0_1_n_n.contr.Idx) :
    (dot_S1024x1024_S1024x240_S1024x240_1_0_0_1_n_n.lhsIdx i q 0).val = (i 0).val := by
  unfold DotDims.lhsIdx
  rw [dif_neg (show ¬(0 : Fin S1024x1024.rank) ∈ dot_S1024x1024_S1024x240_S1024x240_1_0_0_1_n_n.lhsBatch by decide), dif_pos (show (0 : Fin S1024x1024.rank) ∈ dot_S1024x1024_S1024x240_S1024x240_1_0_0_1_n_n.lhsNonContracting by decide)]
  rfl
theorem sm_lhs_dot_1 (i : S1024x240.Idx) (q : dot_S1024x1024_S1024x240_S1024x240_1_0_0_1_n_n.contr.Idx) :
    (dot_S1024x1024_S1024x240_S1024x240_1_0_0_1_n_n.lhsIdx i q 1).val = (q ⟨0, by decide⟩).val :=
  dot_S1024x1024_S1024x240_S1024x240_1_0_0_1_n_n.lhsIdx_val_of_single rfl i q
theorem sm_rhs_dot_0 (i : S1024x240.Idx) (q : dot_S1024x1024_S1024x240_S1024x240_1_0_0_1_n_n.contr.Idx) :
    (dot_S1024x1024_S1024x240_S1024x240_1_0_0_1_n_n.rhsIdx i q 0).val = (q ⟨0, by decide⟩).val :=
  dot_S1024x1024_S1024x240_S1024x240_1_0_0_1_n_n.rhsIdx_val_of_single rfl i q
theorem sm_rhs_dot_1 (i : S1024x240.Idx) (q : dot_S1024x1024_S1024x240_S1024x240_1_0_0_1_n_n.contr.Idx) :
    (dot_S1024x1024_S1024x240_S1024x240_1_0_0_1_n_n.rhsIdx i q 1).val = (i 1).val := by
  unfold DotDims.rhsIdx
  rw [dif_neg (show ¬(1 : Fin S1024x240.rank) ∈ dot_S1024x1024_S1024x240_S1024x240_1_0_0_1_n_n.rhsBatch by decide), dif_pos (show (1 : Fin S1024x240.rank) ∈ dot_S1024x1024_S1024x240_S1024x240_1_0_0_1_n_n.rhsNonContracting by decide)]
  rfl

/-- The product into the zero splat at (r, n): the sum over the 1024 channels of row r times column n. -/
theorem sm_dot_apply (A : FVec Ideal S1024x1024 .bf16) (B : FVec Ideal S1024x240 .bf16) (r : Fin 1024) (n : Fin 240) :
    matmul dot_S1024x1024_S1024x240_S1024x240_1_0_0_1_n_n none A B (constant (F := Ideal) S1024x240 .f32 0x00000000#32) (ix2 r n)
      = ∑ c : Fin 1024, A (ix2 r c) * B (ix2 c n) := by
  simp only [matmul]
  rw [Ideal.matmul_constant_zero_apply, ← Equiv.sum_comp (ValueIdx.contrEquiv1 dot_S1024x1024_S1024x240_S1024x240_1_0_0_1_n_n 1024 rfl rfl).symm]
  refine Finset.sum_congr rfl fun c _ => ?_
  have hc := ValueIdx.contrEquiv1_symm_val dot_S1024x1024_S1024x240_S1024x240_1_0_0_1_n_n 1024 rfl rfl c
  have el : dot_S1024x1024_S1024x240_S1024x240_1_0_0_1_n_n.lhsIdx (ix2 r n) ((ValueIdx.contrEquiv1 dot_S1024x1024_S1024x240_S1024x240_1_0_0_1_n_n 1024 rfl rfl).symm c) = ix2 r c := funext fun a => Fin.ext (by
    match a with
    | ⟨0, _⟩ => exact sm_lhs_dot_0 _ _
    | ⟨1, _⟩ => exact (sm_lhs_dot_1 _ _).trans hc)
  have er : dot_S1024x1024_S1024x240_S1024x240_1_0_0_1_n_n.rhsIdx (ix2 r n) ((ValueIdx.contrEquiv1 dot_S1024x1024_S1024x240_S1024x240_1_0_0_1_n_n 1024 rfl rfl).symm c) = ix2 c n := funext fun a => Fin.ext (by
    match a with
    | ⟨0, _⟩ => exact (sm_rhs_dot_0 _ _).trans hc
    | ⟨1, _⟩ => exact sm_rhs_dot_1 _ _)
  rw [el, er]

/-- The index of (s, b, h) with the tap k inserted on the last axis. -/
theorem sm_lift_ix (hr : S64x16x16x15.Reduces [3] S64x16x16) (s : Fin 64) (b : Fin 16) (h : Fin 16) (k : Fin 15) :
    hr.lift (ix3 s b h) k = ix4 s b h k := funext fun a => Fin.ext (by
    match a with
    | ⟨0, _⟩ => rfl
    | ⟨1, _⟩ => rfl
    | ⟨2, _⟩ => rfl
    | ⟨3, _⟩ => rfl)

/-- The maximum over the taps at (s, b, h), folded from the −∞ word. -/
theorem sm_max_apply (L : FVec Ideal S64x16x16x15 .f32) (hr : S64x16x16x15.Reduces [3] S64x16x16)
    (hφ : FKind.Formats .f32) (hacc : (0xFF800000#32 : BitVec FTy.f32.bits) = FKind.maximumf.neutral .f32 hφ)
    (s : Fin 64) (b : Fin 16) (h : Fin 16) :
    multiReduction (F := Ideal) .maximumf [3] S64x16x16 L 0xFF800000#32 hr hφ hacc (ix3 s b h)
      = (Finset.univ : Finset (Fin 15)).fold max negInfW (fun k => L (ix4 s b h k)) := by
  rw [Ideal.multiReduction_maximumf_single]
  have e : (L ∘ hr.lift (ix3 s b h)) = fun k : Fin 15 => L (ix4 s b h k) := funext fun k => congrArg L (sm_lift_ix hr s b h k)
  rw [e]
  rfl

/-- The sum over the taps at (s, b, h). -/
theorem sm_sum_apply (E : FVec Ideal S64x16x16x15 .f32) (hr : S64x16x16x15.Reduces [3] S64x16x16)
    (hφ : FKind.Formats .f32) (hacc : (0x00000000#32 : BitVec FTy.f32.bits) = FKind.add.neutral .f32 hφ)
    (s : Fin 64) (b : Fin 16) (h : Fin 16) :
    multiReduction (F := Ideal) .add [3] S64x16x16 E 0x00000000#32 hr hφ hacc (ix3 s b h)
      = ∑ k : Fin 15, E (ix4 s b h k) := by
  rw [Ideal.multiReduction_add_single]
  exact Finset.sum_congr rfl fun k _ => congrArg E (sm_lift_ix hr s b h k)

/-- A reduced value given back its unit axis and broadcast along the taps: (s, b, h, k) reads (s, b, h). -/
theorem sm_keep_apply (M : FVec Ideal S64x16x16 .f32) (hc : S64x16x16.ShapeCasts S64x16x16x1) (hb : S64x16x16x1.Broadcasts S64x16x16x15)
    (s : Fin 64) (b : Fin 16) (h : Fin 16) (k : Fin 15) :
    broadcastTo S64x16x16x15 (shapeCast S64x16x16x1 M hc) hb (ix4 s b h k) = M (ix3 s b h) := by
  refine (broadcastTo_apply _ hb _ (ix4 s b h (0 : Fin 1)) ?_).trans ?_
  · intro a
    match a with
    | ⟨0, _⟩ => show s.val = if (64 : Nat) = 1 then 0 else s.val; rw [if_neg (by decide)]
    | ⟨1, _⟩ => show b.val = if (16 : Nat) = 1 then 0 else b.val; rw [if_neg (by decide)]
    | ⟨2, _⟩ => show h.val = if (16 : Nat) = 1 then 0 else h.val; rw [if_neg (by decide)]
    | ⟨3, _⟩ => show 0 = if (1 : Nat) = 1 then 0 else k.val; rw [if_pos rfl]
  refine shapeCast_apply _ hc _ (ix3 s b h) ?_
  rw [Shape.rowMajor_val_three, Shape.rowMajor_val_four]
  show (s.val * 16 + b.val) * 16 + h.val = ((s.val * 16 + b.val) * 16 + h.val) * 1 + 0
  omega

/-- The softmax over the taps of any [64,16,16,15] vector of logits, as the payload computes it, at (s, b, h, k). -/
theorem sm_softmax_of (L : FVec Ideal S64x16x16x15 .f32) (hr : S64x16x16x15.Reduces [3] S64x16x16)
    (hφ : FKind.Formats .f32) (hm : (0xFF800000#32 : BitVec FTy.f32.bits) = FKind.maximumf.neutral .f32 hφ)
    (hz : (0x00000000#32 : BitVec FTy.f32.bits) = FKind.add.neutral .f32 hφ)
    (hc : S64x16x16.ShapeCasts S64x16x16x1) (hb : S64x16x16x1.Broadcasts S64x16x16x15)
    (s : Fin 64) (b : Fin 16) (h : Fin 16) (k : Fin 15) :
    divf (exp (subf L (broadcastTo S64x16x16x15 (shapeCast S64x16x16x1 (multiReduction (F := Ideal) .maximumf [3] S64x16x16 L 0xFF800000#32 hr hφ hm) hc) hb)))
        (broadcastTo S64x16x16x15 (shapeCast S64x16x16x1 (multiReduction (F := Ideal) .add [3] S64x16x16
          (exp (subf L (broadcastTo S64x16x16x15 (shapeCast S64x16x16x1 (multiReduction (F := Ideal) .maximumf [3] S64x16x16 L 0xFF800000#32 hr hφ hm) hc) hb)))
          0x00000000#32 hr hφ hz) hc) hb) (ix4 s b h k)
      = Ideal.div (Ideal.exp (L (ix4 s b h k) - (Finset.univ : Finset (Fin 15)).fold max negInfW (fun k' => L (ix4 s b h k'))))
          (∑ k'' : Fin 15, Ideal.exp (L (ix4 s b h k'') - (Finset.univ : Finset (Fin 15)).fold max negInfW (fun k' => L (ix4 s b h k')))) := by
  have e : ∀ k' : Fin 15, exp (subf L (broadcastTo S64x16x16x15 (shapeCast S64x16x16x1 (multiReduction (F := Ideal) .maximumf [3] S64x16x16 L 0xFF800000#32 hr hφ hm) hc) hb)) (ix4 s b h k')
      = Ideal.exp (L (ix4 s b h k') - (Finset.univ : Finset (Fin 15)).fold max negInfW (fun k' => L (ix4 s b h k'))) := fun k' => by
    show FloatOps.exp (subf L _ (ix4 s b h k')) = _
    rw [Ideal.exp_def, subf_apply, sm_keep_apply, sm_max_apply]
  rw [divf_apply, sm_keep_apply, sm_sum_apply, e k]
  exact congrArg _ (Finset.sum_congr rfl fun k' _ => e k')

/-- The logits of the block: at (s, b, h, k), row s + 14 of the block against row h·15 + k of the projection, plus the bias. -/
theorem sm_logit_apply (v0 : Vec Ideal S1x78x16x1024 .f32) (v5 : Vec Ideal S1024x240 .bf16) (v9 : Vec Ideal S240 .f32)
    (h1 : S1x78x16x1024.ShapeCasts S78x16x1024) (h2 : S78x16x1024.Slices ![14, 0, 0] S64x16x1024)
    (h3 : S64x16x1024.ShapeCasts S1024x1024) (h4 : FTy.bits .bf16 < FTy.bits .f32) (h6 : S1024x240.ShapeCasts S1024x240)
    (h8 : S1024x240.ShapeCasts S64x16x16x15) (h10 : S240.ShapeCasts S16x15) (h11 : S16x15.ShapeCasts S1x1x16x15)
    (h12 : S1x1x16x15.Broadcasts S64x16x16x15) (s : Fin 64) (b : Fin 16) (h : Fin 16) (k : Fin 15) :
    addf (shapeCast S64x16x16x15 (matmul dot_S1024x1024_S1024x240_S1024x240_1_0_0_1_n_n none
            (truncf .bf16 (shapeCast S1024x1024 (extractStridedSlice S64x16x1024 ![14, 0, 0] (shapeCast S78x16x1024 v0 h1) h2) h3) h4 : FVec Ideal S1024x1024 .bf16)
            (shapeCast S1024x240 v5 h6 : FVec Ideal S1024x240 .bf16) (constant (F := Ideal) S1024x240 .f32 0x00000000#32)) h8)
        (broadcastTo S64x16x16x15 (shapeCast S1x1x16x15 (shapeCast S16x15 v9 h10) h11) h12) (ix4 s b h k)
      = logit (fun c => v0 (ix4 (0 : Fin 1) (⟨s.val + 14, by have := s.isLt; omega⟩ : Fin 78) b c)) (fun n c => v5 (ix2 c n)) (arr1 (n := 240) v9) h k := by
  rw [addf_apply, sm_out_apply, sm_dot_apply, sm_bias_apply, shapeCast_self]
  unfold logit
  exact congrArg (· + v9 (ix1 (hk h k))) (Finset.sum_congr rfl fun c _ => by rw [sm_lhs_apply])

/-- The first kernel's softmax weights at (s, b, h, k) of a block: the softmax over the taps of the logits of the block's row s + 14. -/
theorem softmax_apply (v0 : Vec Ideal S1x78x16x1024 .f32) (v5 : Vec Ideal S1024x240 .bf16) (v9 : Vec Ideal S240 .f32) (s : Fin 64) (b : Fin 16) (h : Fin 16) (k : Fin 15) :
    k0_pay3 (F := Ideal) v0 v5 v9 (ix4 s b h k)
      = wsm (fun c => v0 (ix4 (0 : Fin 1) (⟨s.val + 14, by have := s.isLt; omega⟩ : Fin 78) b c)) (fun n c => v5 (ix2 c n)) (arr1 (n := 240) v9) h k := by
  unfold k0_pay3 k0_pay2
  dsimp only
  refine (sm_softmax_of _ _ (.inl rfl) rfl rfl _ _ s b h k).trans ?_
  unfold wsm esum ex lmax
  simp only [sm_logit_apply]

end Cert.KernelIdeal.KerValue

end
-- ==== Proof.KerConv.lean ====
import proofs.«151048_j12266426597625_1_alg».proof.Proof.Gen.KernelIdeal.Skeleton
import proofs.«151048_j12266426597625_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerValue

open Cert.KernelIdeal Cert.KernelIdeal.Gen Cert.ConvLnFfn Idealize.ShloMosaic Idealize.ShloMosaic.ValueIdx

/-- A slice of one tap of a [64,16,16,15] array is inside it: the tap is below 15. -/
theorem tap_lt {j : Nat} (hs : S64x16x16x15.Slices ![0, 0, 0, j] S64x16x16x1) : j < 15 := by
  have h := hs.2 ⟨3, by decide⟩
  change j + 1 ≤ 15 at h
  omega

/-- A slice of 64 rows of a [78,16,1024] array from row j is inside it: j is at most 14. -/
theorem row_lt {j : Nat} (hs : S78x16x1024.Slices ![j, 0, 0] S64x16x1024) : j < 15 := by
  have h := hs.2 ⟨0, by decide⟩
  change j + 64 ≤ 78 at h
  omega

/-- A tap's weight column: the slice of tap j of a [64,16,16,15] array, its unit axis dropped and put back, reads at
    (s, b, h, u) the array at (s, b, h, j). -/
theorem tapFront_apply {α : Type} (W : S64x16x16x15.Idx → α) (j : Nat)
    (hs : S64x16x16x15.Slices ![0, 0, 0, j] S64x16x16x1) (h1 : S64x16x16x1.ShapeCasts S64x16x16)
    (h2 : S64x16x16.ShapeCasts S64x16x16x1) (s : Fin 64) (b : Fin 16) (h : Fin 16) (u : Fin 1) :
    shapeCast S64x16x16x1 (shapeCast S64x16x16 (extractStridedSlice S64x16x16x1 ![0, 0, 0, j] W hs) h1) h2 (ix4 s b h u)
      = W (ix4 s b h (⟨j, tap_lt hs⟩ : Fin 15)) := by
  refine (shapeCast_apply _ h2 _ (ix3 s b h) ?_).trans ?_
  · rw [Shape.rowMajor_val_three, Shape.rowMajor_val_four]
    show (s.val * 16 + b.val) * 16 + h.val = ((s.val * 16 + b.val) * 16 + h.val) * 1 + u.val
    omega
  refine (shapeCast_apply _ h1 _ (ix4 s b h (0 : Fin 1)) ?_).trans ?_
  · rw [Shape.rowMajor_val_three, Shape.rowMajor_val_four]
    show ((s.val * 16 + b.val) * 16 + h.val) * 1 + 0 = (s.val * 16 + b.val) * 16 + h.val
    omega
  exact extractStridedSlice_apply _ W hs _ _ fun a => match a with
    | ⟨0, _⟩ => by show s.val = 0 + s.val; omega
    | ⟨1, _⟩ => by show b.val = 0 + b.val; omega
    | ⟨2, _⟩ => by show h.val = 0 + h.val; omega
    | ⟨3, _⟩ => by show j = j + 0; omega

/-- A weight column spread over its head's 64 channels: a [64,16,16,1] array broadcast to [64,16,16,64] and flattened to
    [64,16,1024] reads at (s, b, c) the column at (s, b, c / 64, 0). -/
theorem tapBack_apply {α : Type} (X : S64x16x16x1.Idx → α) (h3 : S64x16x16x1.ShapeCasts S64x16x16x1)
    (hb : S64x16x16x1.Broadcasts S64x16x16x64) (h4 : S64x16x16x64.ShapeCasts S64x16x1024)
    (s : Fin 64) (b : Fin 16) (c : Fin 1024) :
    shapeCast S64x16x1024 (broadcastTo S64x16x16x64 (shapeCast S64x16x16x1 X h3) hb) h4 (ix3 s b c)
      = X (ix4 s b (headOf c) (0 : Fin 1)) := by
  have hc := c.isLt
  refine (shapeCast_apply _ h4 _ (ix4 s b (headOf c) (⟨c.val % 64, Nat.mod_lt _ (by omega)⟩ : Fin 64)) ?_).trans ?_
  · rw [Shape.rowMajor_val_three, Shape.rowMajor_val_four]
    show ((s.val * 16 + b.val) * 16 + c.val / 64) * 64 + c.val % 64 = (s.val * 16 + b.val) * 1024 + c.val
    omega
  refine (broadcastTo_apply _ hb _ (ix4 s b (headOf c) (0 : Fin 1)) fun a => match a with
    | ⟨0, _⟩ => rfl
    | ⟨1, _⟩ => rfl
    | ⟨2, _⟩ => rfl
    | ⟨3, _⟩ => rfl).trans ?_
  rw [shapeCast_self]

/-- The whole weight chain of tap j: at (s, b, c) it is the weight of c's head at tap j. -/
theorem tap_apply {α : Type} (W : S64x16x16x15.Idx → α) (j : Nat)
    (hs : S64x16x16x15.Slices ![0, 0, 0, j] S64x16x16x1) (h1 : S64x16x16x1.ShapeCasts S64x16x16)
    (h2 : S64x16x16.ShapeCasts S64x16x16x1) (h3 : S64x16x16x1.ShapeCasts S64x16x16x1)
    (hb : S64x16x16x1.Broadcasts S64x16x16x64) (h4 : S64x16x16x64.ShapeCasts S64x16x1024)
    (s : Fin 64) (b : Fin 16) (c : Fin 1024) :
    shapeCast S64x16x1024 (broadcastTo S64x16x16x64 (shapeCast S64x16x16x1
        (shapeCast S64x16x16x1 (shapeCast S64x16x16 (extractStridedSlice S64x16x16x1 ![0, 0, 0, j] W hs) h1) h2) h3) hb) h4 (ix3 s b c)
      = W (ix4 s b (headOf c) (⟨j, tap_lt hs⟩ : Fin 15)) :=
  (tapBack_apply _ h3 hb h4 s b c).trans (tapFront_apply W j hs h1 h2 s b (headOf c) 0)

/-- Rows j … j + 63 of the cast block: the slice at (s, b, c) is the block at (s + j, b, c). -/
theorem rowSlice_apply {α : Type} (v1 : S78x16x1024.Idx → α) (j : Nat)
    (hs : S78x16x1024.Slices ![j, 0, 0] S64x16x1024) (s : Fin 64) (b : Fin 16) (c : Fin 1024) :
    extractStridedSlice S64x16x1024 ![j, 0, 0] v1 hs (ix3 s b c)
      = v1 (ix3 (⟨s.val + j, by have := s.isLt; have := row_lt hs; omega⟩ : Fin 78) b c) :=
  extractStridedSlice_apply _ v1 hs _ _ fun a => match a with
    | ⟨0, _⟩ => by show s.val + j = j + s.val; omega
    | ⟨1, _⟩ => by show b.val = 0 + b.val; omega
    | ⟨2, _⟩ => by show c.val = 0 + c.val; omega

/-- The loaded block with its unit axis dropped reads at (j, b, c) the block at (0, j, b, c). -/
theorem pay2_apply (v0 : Vec Ideal S1x78x16x1024 .f32) (j : Fin 78) (b : Fin 16) (c : Fin 1024) :
    k0_pay2 (F := Ideal) v0 (ix3 j b c) = v0 (ix4 (0 : Fin 1) j b c) := by
  unfold k0_pay2
  exact shapeCast_1abc_abc_apply _ _ j b c

/-- Tap 2's weight, spread over the channels. -/
theorem pay5_apply (v0 : Vec Ideal S1x78x16x1024 .f32) (v5 : Vec Ideal S1024x240 .bf16) (v9 : Vec Ideal S240 .f32)
    (s : Fin 64) (b : Fin 16) (c : Fin 1024) :
    k0_pay5 (F := Ideal) v0 v5 v9 (ix3 s b c) = k0_pay3 (F := Ideal) v0 v5 v9 (ix4 s b (headOf c) (2 : Fin 15)) := by
  unfold k0_pay5
  exact tap_apply _ 2 _ _ _ _ _ _ s b c

/-- Tap 9's weight column. -/
theorem pay7_apply (v22 : FVec Ideal S64x16x16x15 .f32) (s : Fin 64) (b : Fin 16) (h : Fin 16) (u : Fin 1) :
    k0_pay7 (F := Ideal) v22 (ix4 s b h u) = v22 (ix4 s b h (9 : Fin 15)) := by
  unfold k0_pay7
  exact tapFront_apply _ 9 _ _ _ s b h u

/-- The accumulator after taps 0 and 1, from the zero word. -/
theorem pay4_apply (v0 : Vec Ideal S1x78x16x1024 .f32) (v5 : Vec Ideal S1024x240 .bf16) (v9 : Vec Ideal S240 .f32)
    (s : Fin 64) (b : Fin 16) (c : Fin 1024) :
    k0_pay4 (F := Ideal) v0 v5 v9 (ix3 s b c)
      = zeroW + k0_pay3 (F := Ideal) v0 v5 v9 (ix4 s b (headOf c) (0 : Fin 15)) * k0_pay2 (F := Ideal) v0 (ix3 (⟨s.val + 0, by have := s.isLt; omega⟩ : Fin 78) b c)
          + k0_pay3 (F := Ideal) v0 v5 v9 (ix4 s b (headOf c) (1 : Fin 15)) * k0_pay2 (F := Ideal) v0 (ix3 (⟨s.val + 1, by have := s.isLt; omega⟩ : Fin 78) b c) := by
  unfold k0_pay4
  simp only [addf_apply, mulf_apply, tap_apply, rowSlice_apply]
  rfl

/-- The accumulator after taps 2 … 8. -/
theorem pay6_apply (v1 : FVec Ideal S78x16x1024 .f32) (v22 : FVec Ideal S64x16x16x15 .f32) (v41 v47 : FVec Ideal S64x16x1024 .f32)
    (s : Fin 64) (b : Fin 16) (c : Fin 1024) :
    k0_pay6 (F := Ideal) v1 v22 v41 v47 (ix3 s b c)
      = v41 (ix3 s b c) + v47 (ix3 s b c) * v1 (ix3 (⟨s.val + 2, by have := s.isLt; omega⟩ : Fin 78) b c)
          + v22 (ix4 s b (headOf c) (3 : Fin 15)) * v1 (ix3 (⟨s.val + 3, by have := s.isLt; omega⟩ : Fin 78) b c)
          + v22 (ix4 s b (headOf c) (4 : Fin 15)) * v1 (ix3 (⟨s.val + 4, by have := s.isLt; omega⟩ : Fin 78) b c)
          + v22 (ix4 s b (headOf c) (5 : Fin 15)) * v1 (ix3 (⟨s.val + 5, by have := s.isLt; omega⟩ : Fin 78) b c)
          + v22 (ix4 s b (headOf c) (6 : Fin 15)) * v1 (ix3 (⟨s.val + 6, by have := s.isLt; omega⟩ : Fin 78) b c)
          + v22 (ix4 s b (headOf c) (7 : Fin 15)) * v1 (ix3 (⟨s.val + 7, by have := s.isLt; omega⟩ : Fin 78) b c)
          + v22 (ix4 s b (headOf c) (8 : Fin 15)) * v1 (ix3 (⟨s.val + 8, by have := s.isLt; omega⟩ : Fin 78) b c) := by
  unfold k0_pay6
  simp only [addf_apply, mulf_apply, tap_apply, rowSlice_apply]
  rfl

/-- The accumulator after taps 9 … 14. -/
theorem pay8_apply (v1 : FVec Ideal S78x16x1024 .f32) (v22 : FVec Ideal S64x16x16x15 .f32) (v104 : FVec Ideal S64x16x1024 .f32)
    (v107 : FVec Ideal S64x16x16x1 .f32) (s : Fin 64) (b : Fin 16) (c : Fin 1024) :
    k0_pay8 (F := Ideal) v1 v22 v104 v107 (ix3 s b c)
      = v104 (ix3 s b c) + v107 (ix4 s b (headOf c) (0 : Fin 1)) * v1 (ix3 (⟨s.val + 9, by have := s.isLt; omega⟩ : Fin 78) b c)
          + v22 (ix4 s b (headOf c) (10 : Fin 15)) * v1 (ix3 (⟨s.val + 10, by have := s.isLt; omega⟩ : Fin 78) b c)
          + v22 (ix4 s b (headOf c) (11 : Fin 15)) * v1 (ix3 (⟨s.val + 11, by have := s.isLt; omega⟩ : Fin 78) b c)
          + v22 (ix4 s b (headOf c) (12 : Fin 15)) * v1 (ix3 (⟨s.val + 12, by have := s.isLt; omega⟩ : Fin 78) b c)
          + v22 (ix4 s b (headOf c) (13 : Fin 15)) * v1 (ix3 (⟨s.val + 13, by have := s.isLt; omega⟩ : Fin 78) b c)
          + v22 (ix4 s b (headOf c) (14 : Fin 15)) * v1 (ix3 (⟨s.val + 14, by have := s.isLt; omega⟩ : Fin 78) b c) := by
  unfold k0_pay8
  simp only [addf_apply, mulf_apply, tapBack_apply, tapFront_apply, rowSlice_apply]
  rfl

/-- The first kernel's mixed row at (s, b, c) of a block: the fifteen taps of the channel's head against the block's rows s … s + 14. -/
theorem conv_apply (v0 : Vec Ideal S1x78x16x1024 .f32) (v5 : Vec Ideal S1024x240 .bf16) (v9 : Vec Ideal S240 .f32) (s : Fin 64) (b : Fin 16) (c : Fin 1024) :
    k0_pay8 (F := Ideal) (k0_pay2 v0) (k0_pay3 v0 v5 v9)
        (k0_pay6 (k0_pay2 v0) (k0_pay3 v0 v5 v9) (k0_pay4 v0 v5 v9) (k0_pay5 v0 v5 v9)) (k0_pay7 (k0_pay3 v0 v5 v9)) (ix3 s b c)
      = mix (fun k => k0_pay3 (F := Ideal) v0 v5 v9 (ix4 s b (headOf c) k))
          (fun k => v0 (ix4 (0 : Fin 1) (⟨s.val + k.val, by have := s.isLt; have := k.isLt; omega⟩ : Fin 78) b c)) := by
  rw [pay8_apply, pay6_apply, pay4_apply, pay5_apply, pay7_apply]
  simp only [pay2_apply]
  rfl

end Cert.KernelIdeal.KerValue

end
-- ==== Proof.KerNorm.lean ====
import proofs.«151048_j12266426597625_1_alg».proof.Proof.Gen.KernelIdeal.Skeleton
import proofs.«151048_j12266426597625_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerValue

open Cert.KernelIdeal Cert.KernelIdeal.Gen Cert.ConvLnFfn Idealize.ShloMosaic Idealize.ShloMosaic.ValueIdx

variable {α : Type}

/-- The sum over the lanes of a [64,16,1024] block, started from the neutral word, read at (s, b): the sum over k of the
    block at (s, b, k). -/
theorem laneSum_apply (X : FVec Ideal S64x16x1024 .f32) (acc : BitVec FTy.f32.bits) (h : S64x16x1024.Reduces [2] S64x16)
    (hφ : FKind.Formats FTy.f32) (hacc : acc = FKind.add.neutral .f32 hφ) (s : Fin 64) (b : Fin 16) :
    multiReduction (F := Ideal) .add [2] S64x16 X acc h hφ hacc (ix2 s b) = ∑ k : Fin 1024, X (ix3 s b k) :=
  (Ideal.multiReduction_add_single X acc h hφ hacc (ix2 s b)).trans
    (Finset.sum_congr rfl fun k _ => congrArg X (funext fun ax => Fin.ext (by
      match ax with
      | ⟨0, _⟩ => rfl
      | ⟨1, _⟩ => rfl
      | ⟨2, _⟩ => rfl)))

/-- A [64,16] array viewed as [64,16,1] reads, at (s, b, u), the array at (s, b), whatever the unit coordinate u. -/
theorem castKeep_apply (x : S64x16.Idx → α) (h : S64x16.ShapeCasts S64x16x1) (s : Fin 64) (b : Fin 16) (u : Fin 1) :
    shapeCast S64x16x1 x h (ix3 s b u) = x (ix2 s b) :=
  shapeCast_apply x h _ _ (by
    have hu : u.val = 0 := by omega
    rw [Shape.rowMajor_val_two, Shape.rowMajor_val_three]
    show s.val * 16 + b.val = (s.val * 16 + b.val) * 1 + u.val
    omega)

/-- A [64,16,1] column broadcast along the lanes reads, at (s, b, c), the column at (s, b, 0). -/
theorem bcastKeep_apply (x : S64x16x1.Idx → α) (h : S64x16x1.Broadcasts S64x16x1024) (s : Fin 64) (b : Fin 16) (c : Fin 1024) :
    broadcastTo S64x16x1024 x h (ix3 s b c) = x (ix3 s b (0 : Fin 1)) := by
  refine broadcastTo_apply x h (ix3 s b c) (ix3 s b (0 : Fin 1)) fun ax => ?_
  match ax with
  | ⟨0, _⟩ => rfl
  | ⟨1, _⟩ => rfl
  | ⟨2, _⟩ => rfl

/-- A [1024] vector viewed as [1,1,1024] reads, at (p, q, c), the vector at c. -/
theorem castLane_apply (x : S1024.Idx → α) (h : S1024.ShapeCasts S1x1x1024) (p q : Fin 1) (c : Fin 1024) :
    shapeCast S1x1x1024 x h (ix3 p q c) = x (ix1 c) :=
  shapeCast_apply x h _ _ (by
    have hp : p.val = 0 := by omega
    have hq : q.val = 0 := by omega
    rw [Shape.rowMajor_val_one, Shape.rowMajor_val_three]
    show c.val = (p.val * 1 + q.val) * 1024 + c.val
    omega)

/-- A [1,1,1024] row broadcast over the positions reads, at (s, b, c), the row at (0, 0, c). -/
theorem bcastLane_apply (x : S1x1x1024.Idx → α) (h : S1x1x1024.Broadcasts S64x16x1024) (s : Fin 64) (b : Fin 16) (c : Fin 1024) :
    broadcastTo S64x16x1024 x h (ix3 s b c) = x (ix3 (0 : Fin 1) (0 : Fin 1) c) := by
  refine broadcastTo_apply x h (ix3 s b c) (ix3 (0 : Fin 1) (0 : Fin 1) c) fun ax => ?_
  match ax with
  | ⟨0, _⟩ => rfl
  | ⟨1, _⟩ => rfl
  | ⟨2, _⟩ => rfl

/-- The reciprocal square root of a block, read at an index, is the reciprocal square root of the entry. -/
theorem rsqrt_apply {sh : Shape} {φ : FTy} (a : FVec Ideal sh φ) (i : sh.Idx) : rsqrt a i = Ideal.rsqrt (a i) := rfl

/-- The first kernel's stored value at (s, b, c): the mixed row of (s, b), normalised with the reciprocal square root as a factor. -/
theorem norm_apply (v1 : FVec Ideal S78x16x1024 .f32) (v22 : FVec Ideal S64x16x16x15 .f32) (v104 : FVec Ideal S64x16x1024 .f32)
    (v107 : FVec Ideal S64x16x16x1 .f32) (g β : Vec Ideal S1024 .f32) (s : Fin 64) (b : Fin 16) (c : Fin 1024) :
    k0_pay1 (F := Ideal) (k0_pay8 v1 v22 v104 v107) (k0_pay9 v1 v22 v104 v107) (k0_pay10 v1 v22 v104 v107) g β (ix3 s b c)
      = normK (fun c' => k0_pay8 (F := Ideal) v1 v22 v104 v107 (ix3 s b c')) (arr1 (n := 1024) g) (arr1 (n := 1024) β) c := by
  -- Open the three payloads down to the mixed block Y, which stays closed.
  unfold k0_pay1 k0_pay10 k0_pay9
  generalize k0_pay8 (F := Ideal) v1 v22 v104 v107 = Y
  dsimp only
  -- Read every elementwise operation, cast and broadcast at (s, b, c): the mean and the variance columns are read at (s, b, 0),
  -- the scale and the shift at c.
  simp only [truncf_apply, addf_apply, mulf_apply, subf_apply, bcastKeep_apply, bcastLane_apply, castLane_apply, divf_apply,
    rsqrt_apply, castKeep_apply, broadcast_apply]
  -- The two lane sums at (s, b): of Y, and of the squared deviations.
  erw [laneSum_apply, laneSum_apply]
  -- Inside the second sum, the deviation at (s, b, k) is Y there less the mean of the row.
  simp only [mulf_apply, subf_apply, bcastKeep_apply, divf_apply, castKeep_apply, broadcast_apply]
  erw [laneSum_apply]
  -- Both sides are now (y c − mean) · rsqrt (var + ε) · g c + β c over the row y = Y (s, b, ·).
  rfl

end Cert.KernelIdeal.KerValue

end
-- ==== Proof.KerFfn.lean ====
import proofs.«151048_j12266426597625_1_alg».proof.Proof.Gen.KernelIdeal.Skeleton
import proofs.«151048_j12266426597625_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerValue

open Cert.KernelIdeal Cert.KernelIdeal.Gen Cert.ConvLnFfn Idealize.ShloMosaic Idealize.ShloMosaic.ValueIdx

/-! ## The operand indices of the first product (channels to hidden units), axis by axis -/

theorem lhs_up_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_up_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_up_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_up_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- The first product into the zero splat, at (p, q): the sum over the 1024 channels of row p of the left operand times column q of the right. -/
theorem mm_up_apply (a : FVec Ideal S256x1024 .bf16) (b : FVec Ideal S1024x4096 .bf16) (p : Fin 256) (q : Fin 4096) :
    matmul dot_S256x1024_S1024x4096_S256x4096_1_0_0_1_n_n none a b (constant (F := Ideal) S256x4096 .f32 0x00000000#32) (ix2 p q)
      = ∑ k : Fin 1024, a (ix2 p k) * b (ix2 k q) := by
  refine (Ideal.matmul_constant_zero_apply dot_S256x1024_S1024x4096_S256x4096_1_0_0_1_n_n none a b (ix2 p q)).trans ?_
  rw [← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p q) ((ValueIdx.contrEquiv1 dot_S256x1024_S1024x4096_S256x4096_1_0_0_1_n_n 1024 rfl rfl).symm k) = ix2 p k := funext fun a => Fin.ext (by
    match a with
    | ⟨0, _⟩ => exact lhs_up_0 _ _
    | ⟨1, _⟩ => exact (lhs_up_1 _ _).trans hk)
  have er : dot_S256x1024_S1024x4096_S256x4096_1_0_0_1_n_n.rhsIdx (ix2 p q) ((ValueIdx.contrEquiv1 dot_S256x1024_S1024x4096_S256x4096_1_0_0_1_n_n 1024 rfl rfl).symm k) = ix2 k q := funext fun a => Fin.ext (by
    match a with
    | ⟨0, _⟩ => exact (rhs_up_0 _ _).trans hk
    | ⟨1, _⟩ => exact rhs_up_1 _ _)
  rw [el, er]

/-! ## The operand indices of the second product (hidden units back to channels), axis by axis -/

theorem lhs_down_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs_down_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhs_down_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhs_down_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The second product into the zero splat, at (p, q): the sum over the 4096 hidden units of row p of the left operand times column q of the right. -/
theorem mm_down_apply (a : FVec Ideal S256x4096 .bf16) (b : FVec Ideal S4096x1024 .bf16) (p : Fin 256) (q : Fin 1024) :
    matmul dot_S256x4096_S4096x1024_S256x1024_1_0_0_1_n_n none a b (constant (F := Ideal) S256x1024 .f32 0x00000000#32) (ix2 p q)
      = ∑ k : Fin 4096, a (ix2 p k) * b (ix2 k q) := by
  refine (Ideal.matmul_constant_zero_apply dot_S256x4096_S4096x1024_S256x1024_1_0_0_1_n_n none a b (ix2 p q)).trans ?_
  rw [← Equiv.sum_comp (ValueIdx.contrEquiv1 dot_S256x4096_S4096x1024_S256x1024_1_0_0_1_n_n 4096 rfl rfl).symm]
  refine Finset.sum_congr rfl fun k _ => ?_
  have hk := ValueIdx.contrEquiv1_symm_val dot_S256x4096_S4096x1024_S256x1024_1_0_0_1_n_n 4096 rfl rfl k
  have el : dot_S256x4096_S4096x1024_S256x1024_1_0_0_1_n_n.lhsIdx (ix2 p q) ((ValueIdx.contrEquiv1 dot_S256x4096_S4096x1024_S256x1024_1_0_0_1_n_n 4096 rfl rfl).symm k) = ix2 p k := funext fun a => Fin.ext (by
    match a with
    | ⟨0, _⟩ => exact lhs_down_0 _ _
    | ⟨1, _⟩ => exact (lhs_down_1 _ _).trans hk)
  have er : dot_S256x4096_S4096x1024_S256x1024_1_0_0_1_n_n.rhsIdx (ix2 p q) ((ValueIdx.contrEquiv1 dot_S256x4096_S4096x1024_S256x1024_1_0_0_1_n_n 4096 rfl rfl).symm k) = ix2 k q := funext fun a => Fin.ext (by
    match a with
    | ⟨0, _⟩ => exact (rhs_down_0 _ _).trans hk
    | ⟨1, _⟩ => exact rhs_down_1 _ _)
  rw [el, er]

/-! ## The hidden layer and the block at coordinates -/

/-- The hidden value at (r, f): the first product plus the bias row, clamped below at the zero word; the narrowing is the identity. -/
theorem hid_apply (v0 : FVec Ideal S256x1024 .bf16) (v2 : FVec Ideal S1024x4096 .bf16) (v5 : FVec Ideal S4096 .f32) (r : Fin 256) (f : Fin 4096) :
    (truncf .bf16
        (maximumf
          (addf (matmul dot_S256x1024_S1024x4096_S256x4096_1_0_0_1_n_n none v0 v2 (constant (F := Ideal) S256x4096 .f32 0x00000000#32))
            (broadcastTo S256x4096 (shapeCast S1x4096 v5 shapeCasts_S4096_S1x4096) broadcasts_S1x4096_S256x4096))
          (broadcast S256x4096 (FloatOps.ofBits (F := Ideal) .f32 0x00000000#32)))
        bitsLt_bf16_f32 : FVec Ideal S256x4096 .bf16) (ix2 r f)
      = hid (fun c' => v0 (ix2 r c')) (fun f c' => v2 (ix2 c' f)) (arr1 (n := 4096) v5) f := by
  rw [truncf_apply, maximumf_apply, addf_apply, mm_up_apply, broadcastTo_1b_ab_apply, shapeCast_a_1a_apply]
  rfl

/-- The second kernel's stored value at (r, c) of a block: the feed-forward block of the block's row r. -/
theorem ffn_apply (v0 : Vec Ideal S256x1024 .bf16) (v2 : Vec Ideal S1024x4096 .bf16) (v5 : Vec Ideal S4096 .f32)
    (v12 : Vec Ideal S4096x1024 .bf16) (v15 : Vec Ideal S1024 .f32) (r : Fin 256) (c : Fin 1024) :
    k1_pay1 (F := Ideal) v0 v2 v5 v12 v15 (ix2 r c)
      = ffn (fun c' => v0 (ix2 r c')) (fun f c' => v2 (ix2 c' f)) (arr1 (n := 4096) v5) (fun c' f => v12 (ix2 f c')) (arr1 (n := 1024) v15) c := by
  unfold k1_pay1
  simp only [shapeCast_self]
  rw [addf_apply, addf_apply, extf_apply, mm_down_apply, broadcastTo_1b_ab_apply, shapeCast_a_1a_apply]
  unfold ffn
  simp only [hid_apply]

end Cert.KernelIdeal.KerValue

end
-- ==== Proof.KerBlocks.lean ====
import proofs.«151048_j12266426597625_1_alg».proof.Proof.Gen.KernelIdeal.Frame
import proofs.«151048_j12266426597625_1_alg».proof.Proof.KerSoftmax
import proofs.«151048_j12266426597625_1_alg».proof.Proof.KerConv
import proofs.«151048_j12266426597625_1_alg».proof.Proof.KerNorm
import proofs.«151048_j12266426597625_1_alg».proof.Proof.KerFfn
import proofs.«151048_j12266426597625_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerValue

open Cert.KernelIdeal Cert.KernelIdeal.Gen Cert.ConvLnFfn Idealize.ShloMosaic Idealize.ShloMosaic.ValueIdx

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The first kernel's one store writes its whole output block from whole loaded blocks, so the block it leaves is the stored value itself. -/
theorem out0_eq (x0 : Vec Ideal S1x78x16x1024 .f32) (x1 : Vec Ideal S1024x240 .bf16) (x2 : Vec Ideal S240 .f32) (x3 x4 : Vec Ideal S1024 .f32) :
    out0_5 (F := Ideal) x0 x1 x2 x3 x4
      = k0_pay1 (k0_pay8 (k0_pay2 x0) (k0_pay3 x0 x1 x2) (k0_pay6 (k0_pay2 x0) (k0_pay3 x0 x1 x2) (k0_pay4 x0 x1 x2) (k0_pay5 x0 x1 x2)) (k0_pay7 (k0_pay3 x0 x1 x2)))
          (k0_pay9 (k0_pay2 x0) (k0_pay3 x0 x1 x2) (k0_pay6 (k0_pay2 x0) (k0_pay3 x0 x1 x2) (k0_pay4 x0 x1 x2) (k0_pay5 x0 x1 x2)) (k0_pay7 (k0_pay3 x0 x1 x2)))
          (k0_pay10 (k0_pay2 x0) (k0_pay3 x0 x1 x2) (k0_pay6 (k0_pay2 x0) (k0_pay3 x0 x1 x2) (k0_pay4 x0 x1 x2) (k0_pay5 x0 x1 x2)) (k0_pay7 (k0_pay3 x0 x1 x2))) x3 x4 := by
  unfold out0_5
  rw [View.canon_unit_zero hz3]
  simp only [View.ld_unit_zero (S := S1x78x16x1024) hz4, View.ld_unit_zero (S := S1024x240) hz2, View.ld_unit_zero (S := S240) hz1,
    View.ld_unit_zero (S := S1024) hz1]

/-- What the first kernel leaves in its output block at (s, b, c), from its input blocks: the normalised mixed row of the block's rows s … s + 14. -/
theorem out0_apply (x0 : Vec Ideal S1x78x16x1024 .f32) (x1 : Vec Ideal S1024x240 .bf16) (x2 : Vec Ideal S240 .f32) (x3 x4 : Vec Ideal S1024 .f32)
    (s : Fin 64) (b : Fin 16) (c : Fin 1024) :
    out0_5 (F := Ideal) x0 x1 x2 x3 x4 (ix3 s b c)
      = normK (convRow (fun k c' => x0 (ix4 (0 : Fin 1) (⟨s.val + k.val, by have := s.isLt; have := k.isLt; omega⟩ : Fin 78) b c')) (fun n c' => x1 (ix2 c' n)) (arr1 (n := 240) x2))
          (arr1 (n := 1024) x3) (arr1 (n := 1024) x4) c := by
  rw [out0_eq, norm_apply]
  refine congrArg (fun y => normK y (arr1 (n := 1024) x3) (arr1 (n := 1024) x4) c) (funext fun c' => ?_)
  rw [conv_apply]
  unfold convRow
  refine congrArg (fun w => mix w _) (funext fun k => ?_)
  rw [softmax_apply]
  rfl

/-- The second kernel's one store likewise. -/
theorem out1_eq (x0 : Vec Ideal S256x1024 .bf16) (x1 : Vec Ideal S1024x4096 .bf16) (x2 : Vec Ideal S4096 .f32) (x3 : Vec Ideal S4096x1024 .bf16)
    (x4 : Vec Ideal S1024 .f32) : out1_5 (F := Ideal) x0 x1 x2 x3 x4 = k1_pay1 x0 x1 x2 x3 x4 := by
  unfold out1_5
  rw [View.canon_unit_zero hz2]
  simp only [View.ld_unit_zero (S := S256x1024) hz2, View.ld_unit_zero (S := S1024x4096) hz2, View.ld_unit_zero (S := S4096) hz1,
    View.ld_unit_zero (S := S4096x1024) hz2, View.ld_unit_zero (S := S1024) hz1]

/-- What the second kernel leaves in its output block at (r, c), from its input blocks: the feed-forward block of row r. -/
theorem out1_apply (x0 : Vec Ideal S256x1024 .bf16) (x1 : Vec Ideal S1024x4096 .bf16) (x2 : Vec Ideal S4096 .f32) (x3 : Vec Ideal S4096x1024 .bf16)
    (x4 : Vec Ideal S1024 .f32) (r : Fin 256) (c : Fin 1024) :
    out1_5 (F := Ideal) x0 x1 x2 x3 x4 (ix2 r c)
      = ffn (fun c' => x0 (ix2 r c')) (fun f c' => x1 (ix2 c' f)) (arr1 (n := 4096) x2) (fun c' f => x3 (ix2 f c')) (arr1 (n := 1024) x4) c := by
  rw [out1_eq, ffn_apply]

end Cert.KernelIdeal.KerValue

end
-- ==== Proof.KerArrays.lean ====
import proofs.«151048_j12266426597625_1_alg».proof.Proof.Gen.KernelIdeal.Frame
import proofs.«151048_j12266426597625_1_alg».proof.Proof.KerBlocks
import proofs.«151048_j12266426597625_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

set_option maxRecDepth 16384

noncomputable section

namespace Cert.KernelIdeal.KerValue

open Cert.KernelIdeal Cert.KernelIdeal.Gen Cert.ConvLnFfn Idealize.ShloMosaic Idealize.ShloMosaic.TcCoe Idealize.SL.Sem Idealize.ShloMosaic.ValueIdx

variable (m : (ℓ : Loc nD τ sig) → Buf (Elt Ideal) ℓ) (ρ : Dev nD → PrngReg)

/-! From blocks to arrays: what each kernel's run leaves in its whole output array, read at coordinates, from the arrays the
    region found at entry. Each output array is one function of its index; every point of the grid writes back the block of
    that function at its own block index, and the blocks cover the array. -/

/-! ## The first kernel: from its blocks to its output array -/

/-- The first kernel's index maps over its 32 points: the windowed input and the output move with the point, the weights stay. -/
theorem idxmaps0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 1) = 0
    ∧ win0_3.index t (0 : Fin 1) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

section Blocks0
variable (V : (c : Dev nD) → (b : Ref sig .tc) → Buf (Elt Ideal) ((c : Thread nD τ).loc b))

/-- Point t's block of the windowed input is slab t of the array. -/
theorem iblk0_0_apply (c : Dev nD) (t : Fin cfg0.N) (j : Fin 78) (b : Fin 16) (c'' : Fin 1024) (q : Fin 32) (j' : Fin 78)
    (hq : q.val = t.val) (hj : j'.val = j.val) :
    (iblk0 V c 0 t : Vec Ideal S1x78x16x1024 .f32) (ix4 (0 : Fin 1) j b c'') = (V c main_v16 : S32x78x16x1024.Idx → EReal) (ix4 q j' b c'') := by
  obtain ⟨e0, e1, e2, e3, -⟩ := idxmaps0 t
  show (V c main_v16 : S32x78x16x1024.Idx → EReal) (((cfg0.win 0).blk t).view.emb (ix4 (0 : Fin 1) j b c'')) = _
  refine congrArg _ (funext fun a => Fin.ext ?_)
  match a with
  | ⟨0, _⟩ => show win0_0.index t (0 : Fin 4) * 1 + 1 * 0 = q.val; omega
  | ⟨1, _⟩ => show win0_0.index t (1 : Fin 4) * 78 + 1 * j.val = j'.val; omega
  | ⟨2, _⟩ => show win0_0.index t (2 : Fin 4) * 16 + 1 * b.val = b.val; omega
  | ⟨3, _⟩ => show win0_0.index t (3 : Fin 4) * 1024 + 1 * c''.val = c''.val; omega

/-- The projection's block is the whole array. -/
theorem iblk0_1_apply (c : Dev nD) (t : Fin cfg0.N) (a : Fin 1024) (b : Fin 240) :
    (iblk0 V c 1 t : Vec Ideal S1024x240 .bf16) (ix2 a b) = (V c main_v18 : S1024x240.Idx → EReal) (ix2 a b) := by
  obtain ⟨-, -, -, -, e0, e1, -⟩ := idxmaps0 t
  show (V c main_v18 : S1024x240.Idx → EReal) (((cfg0.win 1).blk t).view.emb (ix2 a b)) = _
  refine congrArg _ (funext fun d => Fin.ext ?_)
  match d with
  | ⟨0, _⟩ => show win0_1.index t (0 : Fin 2) * 1024 + 1 * a.val = a.val; omega
  | ⟨1, _⟩ => show win0_1.index t (1 : Fin 2) * 240 + 1 * b.val = b.val; omega

/-- The projection bias's block is the whole array. -/
theorem iblk0_2_apply (c : Dev nD) (t : Fin cfg0.N) (a : Fin 240) :
    (iblk0 V c 2 t : Vec Ideal S240 .f32) (ix1 a) = (V c main_arg2 : S240.Idx → EReal) (ix1 a) := by
  obtain ⟨-, -, -, -, -, -, e0, -⟩ := idxmaps0 t
  show (V c main_arg2 : S240.Idx → EReal) (((cfg0.win 2).blk t).view.emb (ix1 a)) = _
  refine congrArg _ (funext fun d => Fin.ext ?_)
  match d with
  | ⟨0, _⟩ => show win0_2.index t (0 : Fin 1) * 240 + 1 * a.val = a.val; omega

/-- The scale's block is the whole array. -/
theorem iblk0_3_apply (c : Dev nD) (t : Fin cfg0.N) (a : Fin 1024) :
    (iblk0 V c 3 t : Vec Ideal S1024 .f32) (ix1 a) = (V c main_arg3 : S1024.Idx → EReal) (ix1 a) := by
  obtain ⟨-, -, -, -, -, -, -, e0, -⟩ := idxmaps0 t
  show (V c main_arg3 : S1024.Idx → EReal) (((cfg0.win 3).blk t).view.emb (ix1 a)) = _
  refine congrArg _ (funext fun d => Fin.ext ?_)
  match d with
  | ⟨0, _⟩ => show win0_3.index t (0 : Fin 1) * 1024 + 1 * a.val = a.val; omega

/-- The shift's block is the whole array. -/
theorem iblk0_4_apply (c : Dev nD) (t : Fin cfg0.N) (a : Fin 1024) :
    (iblk0 V c 4 t : Vec Ideal S1024 .f32) (ix1 a) = (V c main_arg4 : S1024.Idx → EReal) (ix1 a) := by
  obtain ⟨-, -, -, -, -, -, -, -, e0, -⟩ := idxmaps0 t
  show (V c main_arg4 : S1024.Idx → EReal) (((cfg0.win 4).blk t).view.emb (ix1 a)) = _
  refine congrArg _ (funext fun d => Fin.ext ?_)
  match d with
  | ⟨0, _⟩ => show win0_4.index t (0 : Fin 1) * 1024 + 1 * a.val = a.val; omega

/-- Where an element of point t's output block sits in the output array. -/
theorem oblk0_emb (t : Fin cfg0.N) (s : Fin 64) (b : Fin 16) (c' : Fin 1024) (r : Fin 2048) (hr : r.val = 64 * t.val + s.val) :
    (((cfg0.win 5).blk t).view.emb (ix3 s b c') : S2048x16x1024.Idx) = ix3 r b c' := by
  obtain ⟨-, -, -, -, -, -, -, -, -, e0, e1, e2⟩ := idxmaps0 t
  refine funext fun a => Fin.ext ?_
  match a with
  | ⟨0, _⟩ => show win0_5.index t (0 : Fin 3) * 64 + 1 * s.val = r.val; omega
  | ⟨1, _⟩ => show win0_5.index t (1 : Fin 3) * 16 + 1 * b.val = b.val; omega
  | ⟨2, _⟩ => show win0_5.index t (2 : Fin 3) * 1024 + 1 * c'.val = c'.val; omega

end Blocks0

/-- The normalised mixed row depends only on the values of its five arguments. -/
theorem normK_convRow_congr_args {xr xr' : Fin 15 → Fin 1024 → EReal} {cw cw' : Fin 240 → Fin 1024 → EReal} {cb cb' : Fin 240 → EReal}
    {g g' β β' : Fin 1024 → EReal}
    (hx : xr = xr') (hw : cw = cw') (hb : cb = cb') (hg : g = g') (hβ : β = β') (c : Fin 1024) :
    normK (convRow xr cw cb) g β c = normK (convRow xr' cw' cb') g' β' c := by
  subst hx hw hb hg hβ; rfl

/-- The normalised mixed row of position (t, b) of the first kernel's output, from the arrays the region found at entry. -/
def convLnAt (c : Dev nD) (t : Fin 2048) (b : Fin 16) (c' : Fin 1024) : EReal :=
  normK (convRow (fun k c'' => (V3 m ρ c main_v16 : S32x78x16x1024.Idx → EReal) (ix4 (⟨t.val / 64, by have := t.isLt; omega⟩ : Fin 32) (⟨t.val % 64 + k.val, by have := t.isLt; have := k.isLt; omega⟩ : Fin 78) b c''))
        (fun n c'' => (V3 m ρ c main_v18 : S1024x240.Idx → EReal) (ix2 c'' n)) (arr1 (n := 240) (V3 m ρ c main_arg2)))
      (arr1 (n := 1024) (V3 m ρ c main_arg3)) (arr1 (n := 1024) (V3 m ρ c main_arg4)) c'

/-- The same as one function of the output array's index. -/
def convLnArr (c : Dev nD) : S2048x16x1024.Idx → EReal :=
  fun i => convLnAt m ρ c ⟨(i 0).val, (i 0).isLt⟩ ⟨(i 1).val, (i 1).isLt⟩ ⟨(i 2).val, (i 2).isLt⟩

theorem convLnArr_ix (c : Dev nD) (t : Fin 2048) (b : Fin 16) (c' : Fin 1024) : convLnArr m ρ c (ix3 t b c') = convLnAt m ρ c t b c' := rfl

/-- What point t writes back is block t of that function. -/
theorem flushed_v19_eq (c : Dev nD) (t : Fin cfg0.N) :
    (dat0 (V3 m ρ) c).flushed 5 t = ((cfg0.win 5).blk t).view.read (Elt Ideal) (convLnArr m ρ c) := by
  show (cfg0.win 5).cut (grid0.coords t) ((dat0 (V3 m ρ) c).after 5 t) = _
  rw [after0_5]
  funext y
  obtain ⟨s, b, c', rfl⟩ : ∃ (s : Fin 64) (b : Fin 16) (c' : Fin 1024), y = ix3 s b c' := ⟨y 0, y 1, y 2, eq_ix3 y⟩
  have hN : cfg0.N = 32 := N_0
  have ht : t.val < cfg0.N := t.isLt
  have hs : s.val < 64 := s.isLt
  have hr : 64 * t.val + s.val < 2048 := by omega
  show out0_5 (F := Ideal) _ _ _ _ _ (ix3 s b c') = convLnArr m ρ c (((cfg0.win 5).blk t).view.emb (ix3 s b c'))
  rw [oblk0_emb t s b c' ⟨64 * t.val + s.val, hr⟩ rfl, convLnArr_ix]
  refine (out0_apply _ _ _ _ _ s b c').trans ?_
  exact normK_convRow_congr_args
    (funext fun k => funext fun c'' => iblk0_0_apply _ c t _ b c'' _ _
      (show (64 * t.val + s.val) / 64 = t.val by omega) (show (64 * t.val + s.val) % 64 + k.val = s.val + k.val by omega))
    (funext fun n => funext fun c'' => iblk0_1_apply _ c t c'' n)
    (funext fun n => iblk0_2_apply _ c t n)
    (funext fun c'' => iblk0_3_apply _ c t c'')
    (funext fun c'' => iblk0_4_apply _ c t c'') c'

/-- An index of the output array is in point t's block iff each coordinate is in the block's range on its axis. -/
theorem mem_blk_v19 (t : Fin cfg0.N) (i : S2048x16x1024.Idx) :
    i ∈ ((cfg0.win 5).blk t).view.set ↔ ∀ a : Fin 3, win0_5.index t a * S64x16x1024.size a ≤ (i a).val ∧ (i a).val < win0_5.index t a * S64x16x1024.size a + S64x16x1024.size a := by
  show i ∈ ((View.whole main_v19).slice (win0_5.rect t)).set ↔ _
  rw [View.set_slice_whole, Rect.mem_set_unit]
  exact Iff.rfl

/-- Row t of the output array is in the block of point t / 64. -/
theorem cover_v19 (i : S2048x16x1024.Idx) : ∃ t : Fin cfg0.N, (cfg0.win 5).flush t = true ∧ i ∈ ((cfg0.win 5).blk t).view.set := by
  have hN : cfg0.N = 32 := N_0
  have hi0 : (i 0).val < 2048 := (i 0).isLt
  have hi1 : (i 1).val < 16 := (i 1).isLt
  have hi2 : (i 2).val < 1024 := (i 2).isLt
  obtain ⟨t, htv⟩ : ∃ t : Fin cfg0.N, t.val = (i 0).val / 64 := ⟨⟨(i 0).val / 64, by omega⟩, rfl⟩
  obtain ⟨-, -, -, -, -, -, -, -, -, e0, e1, e2⟩ := idxmaps0 t
  refine ⟨t, flush0_5 t, ?_⟩
  rw [mem_blk_v19]
  intro a
  match a with
  | ⟨0, _⟩ => show win0_5.index t (0 : Fin 3) * 64 ≤ (i 0).val ∧ (i 0).val < win0_5.index t (0 : Fin 3) * 64 + 64; omega
  | ⟨1, _⟩ => show win0_5.index t (1 : Fin 3) * 16 ≤ (i 1).val ∧ (i 1).val < win0_5.index t (1 : Fin 3) * 16 + 16; omega
  | ⟨2, _⟩ => show win0_5.index t (2 : Fin 3) * 1024 ≤ (i 2).val ∧ (i 2).val < win0_5.index t (2 : Fin 3) * 1024 + 1024; omega

/-- The first kernel's output array after its run is that function. -/
theorem V4_v19_eq (c : Dev nD) : (V4 m ρ c main_v19 : S2048x16x1024.Idx → EReal) = convLnArr m ρ c :=
  (W4_arr m ρ c 5).trans
    ((dat0 (V3 m ρ) c).arrAt_eq_of_cover 5 (convLnArr m ρ c) (fun t _ => flushed_v19_eq m ρ c t) cover_v19)

/-- The first kernel's output array at (t, b, c'): the normalised mixed row of block t / 64 of the windowed input at rows t % 64 + k. -/
theorem V4_v19 (c : Dev nD) (t : Fin 2048) (b : Fin 16) (c' : Fin 1024) :
    (V4 m ρ c main_v19 : S2048x16x1024.Idx → EReal) (ix3 t b c')
      = normK (convRow (fun k c'' => (V3 m ρ c main_v16 : S32x78x16x1024.Idx → EReal) (ix4 (⟨t.val / 64, by have := t.isLt; omega⟩ : Fin 32) (⟨t.val % 64 + k.val, by have := t.isLt; have := k.isLt; omega⟩ : Fin 78) b c''))
            (fun n c'' => (V3 m ρ c main_v18 : S1024x240.Idx → EReal) (ix2 c'' n)) (arr1 (n := 240) (V3 m ρ c main_arg2)))
          (arr1 (n := 1024) (V3 m ρ c main_arg3)) (arr1 (n := 1024) (V3 m ρ c main_arg4)) c' :=
  (congrFun (V4_v19_eq m ρ c) (ix3 t b c')).trans (convLnArr_ix m ρ c t b c')

/-! ## The second kernel: from its blocks to its output array -/

/-- The second kernel's index maps over its 128 points: the row blocks move with the point, the weights stay. -/
theorem idxmaps1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

section Blocks1
variable (V : (c : Dev nD) → (b : Ref sig .tc) → Buf (Elt Ideal) ((c : Thread nD τ).loc b))

/-- Point t's block of the input rows is rows 256 t … 256 t + 255 of the array. -/
theorem iblk1_0_apply (c : Dev nD) (t : Fin cfg1.N) (s : Fin 256) (c'' : Fin 1024) (r : Fin 32768) (hr : r.val = 256 * t.val + s.val) :
    (iblk1 V c 0 t : Vec Ideal S256x1024 .bf16) (ix2 s c'') = (V c main_v20 : S32768x1024.Idx → EReal) (ix2 r c'') := by
  obtain ⟨e0, e1, -⟩ := idxmaps1 t
  show (V c main_v20 : S32768x1024.Idx → EReal) (((cfg1.win 0).blk t).view.emb (ix2 s c'')) = _
  refine congrArg _ (funext fun a => Fin.ext ?_)
  match a with
  | ⟨0, _⟩ => show win1_0.index t (0 : Fin 2) * 256 + 1 * s.val = r.val; omega
  | ⟨1, _⟩ => show win1_0.index t (1 : Fin 2) * 1024 + 1 * c''.val = c''.val; omega

/-- The first weight matrix's block is the whole array. -/
theorem iblk1_1_apply (c : Dev nD) (t : Fin cfg1.N) (a : Fin 1024) (b : Fin 4096) :
    (iblk1 V c 1 t : Vec Ideal S1024x4096 .bf16) (ix2 a b) = (V c main_v22 : S1024x4096.Idx → EReal) (ix2 a b) := by
  obtain ⟨-, -, e0, e1, -⟩ := idxmaps1 t
  show (V c main_v22 : S1024x4096.Idx → EReal) (((cfg1.win 1).blk t).view.emb (ix2 a b)) = _
  refine congrArg _ (funext fun d => Fin.ext ?_)
  match d with
  | ⟨0, _⟩ => show win1_1.index t (0 : Fin 2) * 1024 + 1 * a.val = a.val; omega
  | ⟨1, _⟩ => show win1_1.index t (1 : Fin 2) * 4096 + 1 * b.val = b.val; omega

/-- The first bias's block is the whole array. -/
theorem iblk1_2_apply (c : Dev nD) (t : Fin cfg1.N) (a : Fin 4096) :
    (iblk1 V c 2 t : Vec Ideal S4096 .f32) (ix1 a) = (V c main_arg6 : S4096.Idx → EReal) (ix1 a) := by
  obtain ⟨-, -, -, -, e0, -⟩ := idxmaps1 t
  show (V c main_arg6 : S4096.Idx → EReal) (((cfg1.win 2).blk t).view.emb (ix1 a)) = _
  refine congrArg _ (funext fun d => Fin.ext ?_)
  match d with
  | ⟨0, _⟩ => show win1_2.index t (0 : Fin 1) * 4096 + 1 * a.val = a.val; omega

/-- The second weight matrix's block is the whole array. -/
theorem iblk1_3_apply (c : Dev nD) (t : Fin cfg1.N) (a : Fin 4096) (b : Fin 1024) :
    (iblk1 V c 3 t : Vec Ideal S4096x1024 .bf16) (ix2 a b) = (V c main_v24 : S4096x1024.Idx → EReal) (ix2 a b) := by
  obtain ⟨-, -, -, -, -, e0, e1, -⟩ := idxmaps1 t
  show (V c main_v24 : S4096x1024.Idx → EReal) (((cfg1.win 3).blk t).view.emb (ix2 a b)) = _
  refine congrArg _ (funext fun d => Fin.ext ?_)
  match d with
  | ⟨0, _⟩ => show win1_3.index t (0 : Fin 2) * 4096 + 1 * a.val = a.val; omega
  | ⟨1, _⟩ => show win1_3.index t (1 : Fin 2) * 1024 + 1 * b.val = b.val; omega

/-- The second bias's block is the whole array. -/
theorem iblk1_4_apply (c : Dev nD) (t : Fin cfg1.N) (a : Fin 1024) :
    (iblk1 V c 4 t : Vec Ideal S1024 .f32) (ix1 a) = (V c main_arg8 : S1024.Idx → EReal) (ix1 a) := by
  obtain ⟨-, -, -, -, -, -, -, e0, -⟩ := idxmaps1 t
  show (V c main_arg8 : S1024.Idx → EReal) (((cfg1.win 4).blk t).view.emb (ix1 a)) = _
  refine congrArg _ (funext fun d => Fin.ext ?_)
  match d with
  | ⟨0, _⟩ => show win1_4.index t (0 : Fin 1) * 1024 + 1 * a.val = a.val; omega

/-- Where an element of point t's output block sits in the output array. -/
theorem oblk1_emb (t : Fin cfg1.N) (s : Fin 256) (c' : Fin 1024) (r : Fin 32768) (hr : r.val = 256 * t.val + s.val) :
    (((cfg1.win 5).blk t).view.emb (ix2 s c') : S32768x1024.Idx) = ix2 r c' := by
  obtain ⟨-, -, -, -, -, -, -, -, e0, e1⟩ := idxmaps1 t
  refine funext fun a => Fin.ext ?_
  match a with
  | ⟨0, _⟩ => show win1_5.index t (0 : Fin 2) * 256 + 1 * s.val = r.val; omega
  | ⟨1, _⟩ => show win1_5.index t (1 : Fin 2) * 1024 + 1 * c'.val = c'.val; omega

end Blocks1

/-- The feed-forward block depends only on the values of its five arguments. -/
theorem ffn_congr_args {y y' : Fin 1024 → EReal} {w1 w1' : Fin 4096 → Fin 1024 → EReal} {b1 b1' : Fin 4096 → EReal}
    {w2 w2' : Fin 1024 → Fin 4096 → EReal} {b2 b2' : Fin 1024 → EReal}
    (hy : y = y') (h1 : w1 = w1') (hb1 : b1 = b1') (h2 : w2 = w2') (hb2 : b2 = b2') (c : Fin 1024) :
    ffn y w1 b1 w2 b2 c = ffn y' w1' b1' w2' b2' c := by
  subst hy h1 hb1 h2 hb2; rfl

/-- The feed-forward block of row r of the second kernel's input array, from the arrays the region found at entry. -/
def ffnAt (c : Dev nD) (r : Fin 32768) (c' : Fin 1024) : EReal :=
  ffn (fun c'' => (V5 m ρ c main_v20 : S32768x1024.Idx → EReal) (ix2 r c''))
    (fun f c'' => (V5 m ρ c main_v22 : S1024x4096.Idx → EReal) (ix2 c'' f)) (arr1 (n := 4096) (V5 m ρ c main_arg6))
    (fun c'' f => (V5 m ρ c main_v24 : S4096x1024.Idx → EReal) (ix2 f c'')) (arr1 (n := 1024) (V5 m ρ c main_arg8)) c'

/-- The same as one function of the output array's index. -/
def ffnArr (c : Dev nD) : S32768x1024.Idx → EReal := fun i => ffnAt m ρ c ⟨(i 0).val, (i 0).isLt⟩ ⟨(i 1).val, (i 1).isLt⟩

theorem ffnArr_ix (c : Dev nD) (r : Fin 32768) (c' : Fin 1024) : ffnArr m ρ c (ix2 r c') = ffnAt m ρ c r c' := rfl

/-- What point t writes back is block t of that function. -/
theorem flushed_v25_eq (c : Dev nD) (t : Fin cfg1.N) :
    (dat1 (V5 m ρ) c).flushed 5 t = ((cfg1.win 5).blk t).view.read (Elt Ideal) (ffnArr m ρ c) := by
  show (cfg1.win 5).cut (grid1.coords t) ((dat1 (V5 m ρ) c).after 5 t) = _
  rw [after1_5]
  funext y
  obtain ⟨s, c', rfl⟩ : ∃ (s : Fin 256) (c' : Fin 1024), y = ix2 s c' := ⟨y 0, y 1, eq_ix2 y⟩
  have hN : cfg1.N = 128 := N_1
  have ht : t.val < cfg1.N := t.isLt
  have hr : 256 * t.val + s.val < 32768 := by have := s.isLt; omega
  show out1_5 (F := Ideal) _ _ _ _ _ (ix2 s c') = ffnArr m ρ c (((cfg1.win 5).blk t).view.emb (ix2 s c'))
  rw [oblk1_emb t s c' ⟨256 * t.val + s.val, hr⟩ rfl, ffnArr_ix]
  refine (out1_apply _ _ _ _ _ s c').trans ?_
  exact ffn_congr_args (funext fun c'' => iblk1_0_apply _ c t s c'' _ rfl)
    (funext fun f => funext fun c'' => iblk1_1_apply _ c t c'' f)
    (funext fun f => iblk1_2_apply _ c t f)
    (funext fun c'' => funext fun f => iblk1_3_apply _ c t f c'')
    (funext fun c'' => iblk1_4_apply _ c t c'') c'

/-- An index of the output array is in point t's block iff each coordinate is in the block's range on its axis. -/
theorem mem_blk_v25 (t : Fin cfg1.N) (i : S32768x1024.Idx) :
    i ∈ ((cfg1.win 5).blk t).view.set ↔ ∀ a : Fin 2, win1_5.index t a * S256x1024.size a ≤ (i a).val ∧ (i a).val < win1_5.index t a * S256x1024.size a + S256x1024.size a := by
  show i ∈ ((View.whole main_v25).slice (win1_5.rect t)).set ↔ _
  rw [View.set_slice_whole, Rect.mem_set_unit]
  exact Iff.rfl

/-- Row r of the output array is in the block of point r / 256. -/
theorem cover_v25 (i : S32768x1024.Idx) : ∃ t : Fin cfg1.N, (cfg1.win 5).flush t = true ∧ i ∈ ((cfg1.win 5).blk t).view.set := by
  have hN : cfg1.N = 128 := N_1
  have hi0 : (i 0).val < 32768 := (i 0).isLt
  have hi1 : (i 1).val < 1024 := (i 1).isLt
  obtain ⟨t, htv⟩ : ∃ t : Fin cfg1.N, t.val = (i 0).val / 256 := ⟨⟨(i 0).val / 256, by omega⟩, rfl⟩
  obtain ⟨-, -, -, -, -, -, -, -, e0, e1⟩ := idxmaps1 t
  refine ⟨t, flush1_5 t, ?_⟩
  rw [mem_blk_v25]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 1024 ≤ (i 1).val ∧ (i 1).val < win1_5.index t (1 : Fin 2) * 1024 + 1024; omega

/-- The second kernel's output array after its run is that function. -/
theorem V6_v25_eq (c : Dev nD) : (V6 m ρ c main_v25 : S32768x1024.Idx → EReal) = ffnArr m ρ c :=
  (W6_arr m ρ c 5).trans
    ((dat1 (V5 m ρ) c).arrAt_eq_of_cover 5 (ffnArr m ρ c) (fun t _ => flushed_v25_eq m ρ c t) cover_v25)

/-- The second kernel's output array at (r, c'): the feed-forward block of row r of its input array. -/
theorem V6_v25 (c : Dev nD) (r : Fin 32768) (c' : Fin 1024) :
    (V6 m ρ c main_v25 : S32768x1024.Idx → EReal) (ix2 r c')
      = ffn (fun c'' => (V5 m ρ c main_v20 : S32768x1024.Idx → EReal) (ix2 r c''))
          (fun f c'' => (V5 m ρ c main_v22 : S1024x4096.Idx → EReal) (ix2 c'' f)) (arr1 (n := 4096) (V5 m ρ c main_arg6))
          (fun c'' f => (V5 m ρ c main_v24 : S4096x1024.Idx → EReal) (ix2 f c'')) (arr1 (n := 1024) (V5 m ρ c main_arg8)) c' :=
  (congrFun (V6_v25_eq m ρ c) (ix2 r c')).trans (ffnArr_ix m ρ c r c')

end Cert.KernelIdeal.KerValue

end
-- ==== Proof.KerFinal.lean ====
import proofs.«151048_j12266426597625_1_alg».proof.Proof.Gen.KernelIdeal.Frame
import proofs.«151048_j12266426597625_1_alg».proof.Proof.KerGather
import proofs.«151048_j12266426597625_1_alg».proof.Proof.KerGlue
import proofs.«151048_j12266426597625_1_alg».proof.Proof.KerArrays
import proofs.«151048_j12266426597625_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

set_option maxRecDepth 16384

noncomputable section

namespace Cert.KernelIdeal.KerValue

open Cert.KernelIdeal Cert.KernelIdeal.Gen Cert.ConvLnFfn Idealize.ShloMosaic Idealize.ShloMosaic.TcCoe Idealize.SL.Sem Idealize.ShloMosaic.ValueIdx

variable (m : (ℓ : Loc nD τ sig) → Buf (Elt Ideal) ℓ) (ρ : Dev nD → PrngReg)

/-- The kernel program's result at (t, b, c') is the layer of Spec (reciprocal square root as a factor) of the argument arrays: the last
    reshape reads row 16 t + b of the second kernel's output, which is the feed-forward block of that row of its input, the first kernel's
    output at (t, b, ·); that is the normalised mixed row of block t / 64 of the windowed input at rows t % 64 + k, which are the padded rows
    t + k of x; the weights reach the kernels transposed. -/
theorem result_apply (c : Dev nD) (t : Fin 2048) (b : Fin 16) (c' : Fin 1024) :
    (W7 m ρ c (Proc.devRef .tc main_v26) : S2048x16x1024.Idx → EReal) (ix3 t b c')
      = layerK (arr3 (n0 := 2048) (n1 := 16) (n2 := 1024) (m ((c : Thread nD τ).loc main_arg0))) (arr2 (n0 := 240) (n1 := 1024) (m ((c : Thread nD τ).loc main_arg1))) (arr1 (n := 240) (m ((c : Thread nD τ).loc main_arg2)))
          (arr1 (n := 1024) (m ((c : Thread nD τ).loc main_arg3))) (arr1 (n := 1024) (m ((c : Thread nD τ).loc main_arg4))) (arr2 (n0 := 4096) (n1 := 1024) (m ((c : Thread nD τ).loc main_arg5))) (arr1 (n := 4096) (m ((c : Thread nD τ).loc main_arg6)))
          (arr2 (n0 := 1024) (n1 := 4096) (m ((c : Thread nD τ).loc main_arg7))) (arr1 (n := 1024) (m ((c : Thread nD τ).loc main_arg8))) t b c' := by
  rw [W7_v26, V6_v25]
  unfold layerK
  have e1 : (fun c'' => (V5 m ρ c main_v20 : S32768x1024.Idx → EReal) (ix2 (⟨t.val * 16 + b.val, by have := t.isLt; have := b.isLt; omega⟩ : Fin 32768) c''))
      = yK (arr3 (n0 := 2048) (n1 := 16) (n2 := 1024) (m ((c : Thread nD τ).loc main_arg0))) (arr2 (n0 := 240) (n1 := 1024) (m ((c : Thread nD τ).loc main_arg1))) (arr1 (n := 240) (m ((c : Thread nD τ).loc main_arg2)))
          (arr1 (n := 1024) (m ((c : Thread nD τ).loc main_arg3))) (arr1 (n := 1024) (m ((c : Thread nD τ).loc main_arg4))) t b := by
    funext c''
    rw [V5_v20, V4_v19]
    unfold yK
    rw [V3_arg2, V3_arg3, V3_arg4]
    refine congrArg (fun y => normK y _ _ c'') ?_
    refine congrArg₂ (fun xr cw => convRow xr cw _) (funext fun k => funext fun c3 => ?_) (funext fun n => funext fun c3 => ?_)
    · rw [V3_v16]
      unfold rowsAt
      refine congrArg (padded _) ?_
      show 64 * (t.val / 64) + (t.val % 64 + k.val) = t.val + k.val
      omega
    · exact V3_v18 m ρ c c3 n
  have e2 : (fun f c'' => (V5 m ρ c main_v22 : S1024x4096.Idx → EReal) (ix2 c'' f)) = arr2 (n0 := 4096) (n1 := 1024) (m ((c : Thread nD τ).loc main_arg5)) :=
    funext fun f => funext fun c'' => V5_v22 m ρ c c'' f
  have e4 : (fun c'' f => (V5 m ρ c main_v24 : S4096x1024.Idx → EReal) (ix2 f c'')) = arr2 (n0 := 1024) (n1 := 4096) (m ((c : Thread nD τ).loc main_arg7)) :=
    funext fun c'' => funext fun f => V5_v24 m ρ c f c''
  rw [e1, e2, e4, V5_arg6, V5_arg8]

end Cert.KernelIdeal.KerValue

end
-- ==== Proof.RefRun.lean ====
import proofs.«151048_j12266426597625_1_alg».proof.Proof.ReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The reference's operations in seven consecutive stretches, cut where a value is read more than once, so
    that the fold of each stretch is a short term over the contents it starts from; then the run. -/

/-- A property of every operation of two lines holds of every operation of the two in a row. -/
theorem forall_append {α : Type _} {P : α → Prop} {l₁ l₂ : List α} (h₁ : l₁.Forall P) (h₂ : l₂.Forall P) : (l₁ ++ l₂).Forall P :=
  List.forall_iff_forall_mem.mpr fun x hx =>
    (List.mem_append.mp hx).elim (List.forall_iff_forall_mem.mp h₁ x) (List.forall_iff_forall_mem.mp h₂ x)

set_option maxRecDepth 8192 in
set_option maxHeartbeats 4000000 in
/-- Operations 1 … 19: the logits and their softmax over the taps, `main_v15`. -/
abbrev opsA : List (HloOp τ sig (Elt F)) :=
  [ binary main_arg0 main_arg1 main_v0 ((fun l r => Host.dotGeneral dot_S2048x16x1024_S240x1024_S2048x16x240_2_1_01_0_n_n none l r) : (⟨S2048x16x1024, .f32⟩ : BufTy).Contents (Elt F) → (⟨S240x1024, .f32⟩ : BufTy).Contents (Elt F) → (⟨S2048x16x240, .f32⟩ : BufTy).Contents (Elt F)),
    unary main_arg2 main_v1 (broadcastInDim S1x1x240 ![2] bcast_S240_S1x1x240_2 : (⟨S240, .f32⟩ : BufTy).Contents (Elt F) → (⟨S1x1x240, .f32⟩ : BufTy).Contents (Elt F)),
    unary main_v1 main_v2 (broadcastInDim S2048x16x240 ![0, 1, 2] bcast_S1x1x240_S2048x16x240_0_1_2 : (⟨S1x1x240, .f32⟩ : BufTy).Contents (Elt F) → (⟨S2048x16x240, .f32⟩ : BufTy).Contents (Elt F)),
    binary main_v0 main_v2 main_v3 (addf : (⟨S2048x16x240, .f32⟩ : BufTy).Contents (Elt F) → (⟨S2048x16x240, .f32⟩ : BufTy).Contents (Elt F) → (⟨S2048x16x240, .f32⟩ : BufTy).Contents (Elt F)),
    reshape main_v3 main_v4 rfl shapeCasts_S2048x16x240_S2048x16x16x15,
    nullary main_cst (constant S_ .f32 0xFF800000#32),
    binary main_v4 main_cst main_v5 ((fun x v => Host.reduce FloatOps.maximumf x v reducesTo_S2048x16x16x15_S2048x16x16_d3 h_S_) : (⟨S2048x16x16x15, .f32⟩ : BufTy).Contents (Elt F) → (⟨S_, .f32⟩ : BufTy).Contents (Elt F) → (⟨S2048x16x16, .f32⟩ : BufTy).Contents (Elt F)),
    nullary main_cst_0 (constant S_ .f32 0xFF800000#32),
    unary main_cst_0 main_v6 (broadcastInDim S2048x16x16 ![] bcast_S_S2048x16x16 : (⟨S_, .f32⟩ : BufTy).Contents (Elt F) → (⟨S2048x16x16, .f32⟩ : BufTy).Contents (Elt F)),
    binary main_v6 main_v5 main_v7 (maximumf : (⟨S2048x16x16, .f32⟩ : BufTy).Contents (Elt F) → (⟨S2048x16x16, .f32⟩ : BufTy).Contents (Elt F) → (⟨S2048x16x16, .f32⟩ : BufTy).Contents (Elt F)),
    unary main_v7 main_v8 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v8 main_v9 (broadcastInDim S2048x16x16x15 ![0, 1, 2, 3] bcast_S2048x16x16x1_S2048x16x16x15_0_1_2_3 : (⟨S2048x16x16x1, .f32⟩ : BufTy).Contents (Elt F) → (⟨S2048x16x16x15, .f32⟩ : BufTy).Contents (Elt F)),
    binary main_v4 main_v9 main_v10 (subf : (⟨S2048x16x16x15, .f32⟩ : BufTy).Contents (Elt F) → (⟨S2048x16x16x15, .f32⟩ : BufTy).Contents (Elt F) → (⟨S2048x16x16x15, .f32⟩ : BufTy).Contents (Elt F)),
    unary main_v10 main_v11 (Host.exp : (⟨S2048x16x16x15, .f32⟩ : BufTy).Contents (Elt F) → (⟨S2048x16x16x15, .f32⟩ : BufTy).Contents (Elt F)),
    nullary main_cst_1 (constant S_ .f32 0x00000000#32),
    binary main_v11 main_cst_1 main_v12 ((fun x v => Host.reduceAdd x v reducesTo_S2048x16x16x15_S2048x16x16_d3 h_S_) : (⟨S2048x16x16x15, .f32⟩ : BufTy).Contents (Elt F) → (⟨S_, .f32⟩ : BufTy).Contents (Elt F) → (⟨S2048x16x16, .f32⟩ : BufTy).Contents (Elt F)),
    unary main_v12 main_v13 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v13 main_v14 (broadcastInDim S2048x16x16x15 ![0, 1, 2, 3] bcast_S2048x16x16x1_S2048x16x16x15_0_1_2_3 : (⟨S2048x16x16x1, .f32⟩ : BufTy).Contents (Elt F) → (⟨S2048x16x16x15, .f32⟩ : BufTy).Contents (Elt F)),
    binary main_v11 main_v14 main_v15 (Host.divf : (⟨S2048x16x16x15, .f32⟩ : BufTy).Contents (Elt F) → (⟨S2048x16x16x15, .f32⟩ : BufTy).Contents (Elt F) → (⟨S2048x16x16x15, .f32⟩ : BufTy).Contents (Elt F)) ]

theorem opsA_sub : (opsA : List (HloOp τ sig (Elt F))).Forall fun op => op.bufs ⊆ tcRefs τ sig :=
  ⟨binary_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The buffers that these operations write. -/
abbrev opsA_W : List (Ref sig .tc) := [main_v0, main_v1, main_v2, main_v3, main_v4, main_cst, main_v5, main_cst_0, main_v6, main_v7, main_v8, main_v9, main_v10, main_v11, main_cst_1, main_v12, main_v13, main_v14, main_v15]

theorem opsA_writes : (opsA : List (HloOp τ sig (Elt F))).Forall fun op => op.writes ⊆ (opsA_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer these operations do not write keeps its contents through them. -/
theorem opsA_keep (W : Valuation τ sig (Elt F)) (r : Ref sig .tc) (h : r ∉ opsA_W) :
    after opsA W (Proc.devRef .tc r) = W (Proc.devRef .tc r) :=
  after_of_writes_sub opsA W opsA_writes h

set_option maxRecDepth 8192 in
set_option maxHeartbeats 4000000 in
/-- Operations 20 … 23: the rows as heads, padded in front, `main_v17`. -/
abbrev opsB : List (HloOp τ sig (Elt F)) :=
  [ reshape main_arg0 main_v16 rfl shapeCasts_S2048x16x1024_S2048x16x16x64,
    nullary main_c (constantI S_ 32 0#32),
    TRef.unary (TRef.of (T := ⟨S_, .i32⟩) main_c) (TRef.of (T := ⟨S_, .f32⟩) main_call0_v0) (sitofp .f32),
    TRef.binary (TRef.of (T := ⟨S2048x16x16x64, .f32⟩) main_v16) (TRef.of (T := ⟨S_, .f32⟩) main_call0_v0) (TRef.of (T := ⟨S2062x16x16x64, .f32⟩) main_v17) (fun x v => pad S2062x16x16x64 ![14, 0, 0, 0] ![0, 0, 0, 0] ![0, 0, 0, 0] x v pads_S2048x16x16x64_S2062x16x16x64_1400_000_000_000 h_S_) ]

theorem opsB_sub : (opsB : List (HloOp τ sig (Elt F))).Forall fun op => op.bufs ⊆ tcRefs τ sig :=
  ⟨reshape_bufs_sub .., nullary_bufs_sub .., unary_bufs_sub .., binary_bufs_sub ..⟩

theorem opsB_fresh : (opsB : List (HloOp τ sig (Elt F))).Forall fun op => op.fresh = ∅ :=
  ⟨rfl, rfl, rfl, rfl⟩

/-- The buffers that these operations write. -/
abbrev opsB_W : List (Ref sig .tc) := [main_v16, main_c, main_call0_v0, main_v17]

theorem opsB_writes : (opsB : List (HloOp τ sig (Elt F))).Forall fun op => op.writes ⊆ (opsB_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer these operations do not write keeps its contents through them. -/
theorem opsB_keep (W : Valuation τ sig (Elt F)) (r : Ref sig .tc) (h : r ∉ opsB_W) :
    after opsB W (Proc.devRef .tc r) = W (Proc.devRef .tc r) :=
  after_of_writes_sub opsB W opsB_writes h

set_option maxRecDepth 8192 in
set_option maxHeartbeats 4000000 in
/-- Operations 24 … 61: the zero start and taps 0 … 4 of the mix, and tap 5's weights. -/
abbrev opsC0 : List (HloOp τ sig (Elt F)) :=
  [ nullary main_cst_2 (constant S_ .f32 0x00000000#32),
    unary main_cst_2 main_v18 (broadcastInDim S2048x16x16x64 ![] bcast_S_S2048x16x16x64 : (⟨S_, .f32⟩ : BufTy).Contents (Elt F) → (⟨S2048x16x16x64, .f32⟩ : BufTy).Contents (Elt F)),
    unary main_v15 main_v19 ((extractStridedSlice S2048x16x16x1 ![0, 0, 0, 0] · slices_S2048x16x16x15_S2048x16x16x1_0_0_0_0) : (⟨S2048x16x16x15, .f32⟩ : BufTy).Contents (Elt F) → (⟨S2048x16x16x1, .f32⟩ : BufTy).Contents (Elt F)),
    reshape main_v19 main_v20 rfl shapeCasts_S2048x16x16x1_S2048x16x16,
    unary main_v20 main_v21 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v17 main_v22 ((extractStridedSlice S2048x16x16x64 ![0, 0, 0, 0] · slices_S2062x16x16x64_S2048x16x16x64_0_0_0_0) : (⟨S2062x16x16x64, .f32⟩ : BufTy).Contents (Elt F) → (⟨S2048x16x16x64, .f32⟩ : BufTy).Contents (Elt F)),
    unary main_v21 main_v23 (broadcastInDim S2048x16x16x64 ![0, 1, 2, 3] bcast_S2048x16x16x1_S2048x16x16x64_0_1_2_3 : (⟨S2048x16x16x1, .f32⟩ : BufTy).Contents (Elt F) → (⟨S2048x16x16x64, .f32⟩ : BufTy).Contents (Elt F)),
    binary main_v23 main_v22 main_v24 (mulf : (⟨S2048x16x16x64, .f32⟩ : BufTy).Contents (Elt F) → (⟨S2048x16x16x64, .f32⟩ : BufTy).Contents (Elt F) → (⟨S2048x16x16x64, .f32⟩ : BufTy).Contents (Elt F)),
    binary main_v18 main_v24 main_v25 (addf : (⟨S2048x16x16x64, .f32⟩ : BufTy).Contents (Elt F) → (⟨S2048x16x16x64, .f32⟩ : BufTy).Contents (Elt F) → (⟨S2048x16x16x64, .f32⟩ : BufTy).Contents (Elt F)),
    unary main_v15 main_v26 ((extractStridedSlice S2048x16x16x1 ![0, 0, 0, 1] · slices_S2048x16x16x15_S2048x16x16x1_0_0_0_1) : (⟨S2048x16x16x15, .f32⟩ : BufTy).Contents (Elt F) → (⟨S2048x16x16x1, .f32⟩ : BufTy).Contents (Elt F)),
    reshape main_v26 main_v27 rfl shapeCasts_S2048x16x16x1_S2048x16x16,
    unary main_v27 main_v28 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v17 main_v29 ((extractStridedSlice S2048x16x16x64 ![1, 0, 0, 0] · slices_S2062x16x16x64_S2048x16x16x64_1_0_0_0) : (⟨S2062x16x16x64, .f32⟩ : BufTy).Contents (Elt F) → (⟨S2048x16x16x64, .f32⟩ : BufTy).Contents (Elt F)),
    unary main_v28 main_v30 (broadcastInDim S2048x16x16x64 ![0, 1, 2, 3] bcast_S2048x16x16x1_S2048x16x16x64_0_1_2_3 : (⟨S2048x16x16x1, .f32⟩ : BufTy).Contents (Elt F) → (⟨S2048x16x16x64, .f32⟩ : BufTy).Contents (Elt F)),
    binary main_v30 main_v29 main_v31 (mulf : (⟨S2048x16x16x64, .f32⟩ : BufTy).Contents (Elt F) → (⟨S2048x16x16x64, .f32⟩ : BufTy).Contents (Elt F) → (⟨S2048x16x16x64, .f32⟩ : BufTy).Contents (Elt F)),
    binary main_v25 main_v31 main_v32 (addf : (⟨S2048x16x16x64, .f32⟩ : BufTy).Contents (Elt F) → (⟨S2048x16x16x64, .f32⟩ : BufTy).Contents (Elt F) → (⟨S2048x16x16x64, .f32⟩ : BufTy).Contents (Elt F)),
    unary main_v15 main_v33 ((extractStridedSlice S2048x16x16x1 ![0, 0, 0, 2] · slices_S2048x16x16x15_S2048x16x16x1_0_0_0_2) : (⟨S2048x16x16x15, .f32⟩ : BufTy).Contents (Elt F) → (⟨S2048x16x16x1, .f32⟩ : BufTy).Contents (Elt F)),
    reshape main_v33 main_v34 rfl shapeCasts_S2048x16x16x1_S2048x16x16,
    unary main_v34 main_v35 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v17 main_v36 ((extractStridedSlice S2048x16x16x64 ![2, 0, 0, 0] · slices_S2062x16x16x64_S2048x16x16x64_2_0_0_0) : (⟨S2062x16x16x64, .f32⟩ : BufTy).Contents (Elt F) → (⟨S2048x16x16x64, .f32⟩ : BufTy).Contents (Elt F)),
    unary main_v35 main_v37 (broadcastInDim S2048x16x16x64 ![0, 1, 2, 3] bcast_S2048x16x16x1_S2048x16x16x64_0_1_2_3 : (⟨S2048x16x16x1, .f32⟩ : BufTy).Contents (Elt F) → (⟨S2048x16x16x64, .f32⟩ : BufTy).Contents (Elt F)),
    binary main_v37 main_v36 main_v38 (mulf : (⟨S2048x16x16x64, .f32⟩ : BufTy).Contents (Elt F) → (⟨S2048x16x16x64, .f32⟩ : BufTy).Contents (Elt F) → (⟨S2048x16x16x64, .f32⟩ : BufTy).Contents (Elt F)),
    binary main_v32 main_v38 main_v39 (addf : (⟨S2048x16x16x64, .f32⟩ : BufTy).Contents (Elt F) → (⟨S2048x16x16x64, .f32⟩ : BufTy).Contents (Elt F) → (⟨S2048x16x16x64, .f32⟩ : BufTy).Contents (Elt F)),
    unary main_v15 main_v40 ((extractStridedSlice S2048x16x16x1 ![0, 0, 0, 3] · slices_S2048x16x16x15_S2048x16x16x1_0_0_0_3) : (⟨S2048x16x16x15, .f32⟩ : BufTy).Contents (Elt F) → (⟨S2048x16x16x1, .f32⟩ : BufTy).Contents (Elt F)),
    reshape main_v40 main_v41 rfl shapeCasts_S2048x16x16x1_S2048x16x16,
    unary main_v41 main_v42 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v17 main_v43 ((extractStridedSlice S2048x16x16x64 ![3, 0, 0, 0] · slices_S2062x16x16x64_S2048x16x16x64_3_0_0_0) : (⟨S2062x16x16x64, .f32⟩ : BufTy).Contents (Elt F) → (⟨S2048x16x16x64, .f32⟩ : BufTy).Contents (Elt F)),
    unary main_v42 main_v44 (broadcastInDim S2048x16x16x64 ![0, 1, 2, 3] bcast_S2048x16x16x1_S2048x16x16x64_0_1_2_3 : (⟨S2048x16x16x1, .f32⟩ : BufTy).Contents (Elt F) → (⟨S2048x16x16x64, .f32⟩ : BufTy).Contents (Elt F)),
    binary main_v44 main_v43 main_v45 (mulf : (⟨S2048x16x16x64, .f32⟩ : BufTy).Contents (Elt F) → (⟨S2048x16x16x64, .f32⟩ : BufTy).Contents (Elt F) → (⟨S2048x16x16x64, .f32⟩ : BufTy).Contents (Elt F)),
    binary main_v39 main_v45 main_v46 (addf : (⟨S2048x16x16x64, .f32⟩ : BufTy).Contents (Elt F) → (⟨S2048x16x16x64, .f32⟩ : BufTy).Contents (Elt F) → (⟨S2048x16x16x64, .f32⟩ : BufTy).Contents (Elt F)),
    unary main_v15 main_v47 ((extractStridedSlice S2048x16x16x1 ![0, 0, 0, 4] · slices_S2048x16x16x15_S2048x16x16x1_0_0_0_4) : (⟨S2048x16x16x15, .f32⟩ : BufTy).Contents (Elt F) → (⟨S2048x16x16x1, .f32⟩ : BufTy).Contents (Elt F)),
    reshape main_v47 main_v48 rfl shapeCasts_S2048x16x16x1_S2048x16x16,
    unary main_v48 main_v49 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v17 main_v50 ((extractStridedSlice S2048x16x16x64 ![4, 0, 0, 0] · slices_S2062x16x16x64_S2048x16x16x64_4_0_0_0) : (⟨S2062x16x16x64, .f32⟩ : BufTy).Contents (Elt F) → (⟨S2048x16x16x64, .f32⟩ : BufTy).Contents (Elt F)),
    unary main_v49 main_v51 (broadcastInDim S2048x16x16x64 ![0, 1, 2, 3] bcast_S2048x16x16x1_S2048x16x16x64_0_1_2_3 : (⟨S2048x16x16x1, .f32⟩ : BufTy).Contents (Elt F) → (⟨S2048x16x16x64, .f32⟩ : BufTy).Contents (Elt F)),
    binary main_v51 main_v50 main_v52 (mulf : (⟨S2048x16x16x64, .f32⟩ : BufTy).Contents (Elt F) → (⟨S2048x16x16x64, .f32⟩ : BufTy).Contents (Elt F) → (⟨S2048x16x16x64, .f32⟩ : BufTy).Contents (Elt F)),
    binary main_v46 main_v52 main_v53 (addf : (⟨S2048x16x16x64, .f32⟩ : BufTy).Contents (Elt F) → (⟨S2048x16x16x64, .f32⟩ : BufTy).Contents (Elt F) → (⟨S2048x16x16x64, .f32⟩ : BufTy).Contents (Elt F)),
    unary main_v15 main_v54 ((extractStridedSlice S2048x16x16x1 ![0, 0, 0, 5] · slices_S2048x16x16x15_S2048x16x16x1_0_0_0_5) : (⟨S2048x16x16x15, .f32⟩ : BufTy).Contents (Elt F) → (⟨S2048x16x16x1, .f32⟩ : BufTy).Contents (Elt F)) ]

theorem opsC0_sub : (opsC0 : List (HloOp τ sig (Elt F))).Forall fun op => op.bufs ⊆ tcRefs τ sig :=
  ⟨nullary_bufs_sub .., unary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub ..⟩

theorem opsC0_fresh : (opsC0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers that these operations write. -/
abbrev opsC0_W : List (Ref sig .tc) := [main_cst_2, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54]

theorem opsC0_writes : (opsC0 : List (HloOp τ sig (Elt F))).Forall fun op => op.writes ⊆ (opsC0_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer these operations do not write keeps its contents through them. -/
theorem opsC0_keep (W : Valuation τ sig (Elt F)) (r : Ref sig .tc) (h : r ∉ opsC0_W) :
    after opsC0 W (Proc.devRef .tc r) = W (Proc.devRef .tc r) :=
  after_of_writes_sub opsC0 W opsC0_writes h

set_option maxRecDepth 8192 in
set_option maxHeartbeats 4000000 in
/-- Operations 62 … 121: taps 5 … 12 of the mix, and tap 13's two factors. -/
abbrev opsC1 : List (HloOp τ sig (Elt F)) :=
  [ reshape main_v54 main_v55 rfl shapeCasts_S2048x16x16x1_S2048x16x16,
    unary main_v55 main_v56 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v17 main_v57 ((extractStridedSlice S2048x16x16x64 ![5, 0, 0, 0] · slices_S2062x16x16x64_S2048x16x16x64_5_0_0_0) : (⟨S2062x16x16x64, .f32⟩ : BufTy).Contents (Elt F) → (⟨S2048x16x16x64, .f32⟩ : BufTy).Contents (Elt F)),
    unary main_v56 main_v58 (broadcastInDim S2048x16x16x64 ![0, 1, 2, 3] bcast_S2048x16x16x1_S2048x16x16x64_0_1_2_3 : (⟨S2048x16x16x1, .f32⟩ : BufTy).Contents (Elt F) → (⟨S2048x16x16x64, .f32⟩ : BufTy).Contents (Elt F)),
    binary main_v58 main_v57 main_v59 (mulf : (⟨S2048x16x16x64, .f32⟩ : BufTy).Contents (Elt F) → (⟨S2048x16x16x64, .f32⟩ : BufTy).Contents (Elt F) → (⟨S2048x16x16x64, .f32⟩ : BufTy).Contents (Elt F)),
    binary main_v53 main_v59 main_v60 (addf : (⟨S2048x16x16x64, .f32⟩ : BufTy).Contents (Elt F) → (⟨S2048x16x16x64, .f32⟩ : BufTy).Contents (Elt F) → (⟨S2048x16x16x64, .f32⟩ : BufTy).Contents (Elt F)),
    unary main_v15 main_v61 ((extractStridedSlice S2048x16x16x1 ![0, 0, 0, 6] · slices_S2048x16x16x15_S2048x16x16x1_0_0_0_6) : (⟨S2048x16x16x15, .f32⟩ : BufTy).Contents (Elt F) → (⟨S2048x16x16x1, .f32⟩ : BufTy).Contents (Elt F)),
    reshape main_v61 main_v62 rfl shapeCasts_S2048x16x16x1_S2048x16x16,
    unary main_v62 main_v63 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v17 main_v64 ((extractStridedSlice S2048x16x16x64 ![6, 0, 0, 0] · slices_S2062x16x16x64_S2048x16x16x64_6_0_0_0) : (⟨S2062x16x16x64, .f32⟩ : BufTy).Contents (Elt F) → (⟨S2048x16x16x64, .f32⟩ : BufTy).Contents (Elt F)),
    unary main_v63 main_v65 (broadcastInDim S2048x16x16x64 ![0, 1, 2, 3] bcast_S2048x16x16x1_S2048x16x16x64_0_1_2_3 : (⟨S2048x16x16x1, .f32⟩ : BufTy).Contents (Elt F) → (⟨S2048x16x16x64, .f32⟩ : BufTy).Contents (Elt F)),
    binary main_v65 main_v64 main_v66 (mulf : (⟨S2048x16x16x64, .f32⟩ : BufTy).Contents (Elt F) → (⟨S2048x16x16x64, .f32⟩ : BufTy).Contents (Elt F) → (⟨S2048x16x16x64, .f32⟩ : BufTy).Contents (Elt F)),
    binary main_v60 main_v66 main_v67 (addf : (⟨S2048x16x16x64, .f32⟩ : BufTy).Contents (Elt F) → (⟨S2048x16x16x64, .f32⟩ : BufTy).Contents (Elt F) → (⟨S2048x16x16x64, .f32⟩ : BufTy).Contents (Elt F)),
    unary main_v15 main_v68 ((extractStridedSlice S2048x16x16x1 ![0, 0, 0, 7] · slices_S2048x16x16x15_S2048x16x16x1_0_0_0_7) : (⟨S2048x16x16x15, .f32⟩ : BufTy).Contents (Elt F) → (⟨S2048x16x16x1, .f32⟩ : BufTy).Contents (Elt F)),
    reshape main_v68 main_v69 rfl shapeCasts_S2048x16x16x1_S2048x16x16,
    unary main_v69 main_v70 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v17 main_v71 ((extractStridedSlice S2048x16x16x64 ![7, 0, 0, 0] · slices_S2062x16x16x64_S2048x16x16x64_7_0_0_0) : (⟨S2062x16x16x64, .f32⟩ : BufTy).Contents (Elt F) → (⟨S2048x16x16x64, .f32⟩ : BufTy).Contents (Elt F)),
    unary main_v70 main_v72 (broadcastInDim S2048x16x16x64 ![0, 1, 2, 3] bcast_S2048x16x16x1_S2048x16x16x64_0_1_2_3 : (⟨S2048x16x16x1, .f32⟩ : BufTy).Contents (Elt F) → (⟨S2048x16x16x64, .f32⟩ : BufTy).Contents (Elt F)),
    binary main_v72 main_v71 main_v73 (mulf : (⟨S2048x16x16x64, .f32⟩ : BufTy).Contents (Elt F) → (⟨S2048x16x16x64, .f32⟩ : BufTy).Contents (Elt F) → (⟨S2048x16x16x64, .f32⟩ : BufTy).Contents (Elt F)),
    binary main_v67 main_v73 main_v74 (addf : (⟨S2048x16x16x64, .f32⟩ : BufTy).Contents (Elt F) → (⟨S2048x16x16x64, .f32⟩ : BufTy).Contents (Elt F) → (⟨S2048x16x16x64, .f32⟩ : BufTy).Contents (Elt F)),
    unary main_v15 main_v75 ((extractStridedSlice S2048x16x16x1 ![0, 0, 0, 8] · slices_S2048x16x16x15_S2048x16x16x1_0_0_0_8) : (⟨S2048x16x16x15, .f32⟩ : BufTy).Contents (Elt F) → (⟨S2048x16x16x1, .f32⟩ : BufTy).Contents (Elt F)),
    reshape main_v75 main_v76 rfl shapeCasts_S2048x16x16x1_S2048x16x16,
    unary main_v76 main_v77 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v17 main_v78 ((extractStridedSlice S2048x16x16x64 ![8, 0, 0, 0] · slices_S2062x16x16x64_S2048x16x16x64_8_0_0_0) : (⟨S2062x16x16x64, .f32⟩ : BufTy).Contents (Elt F) → (⟨S2048x16x16x64, .f32⟩ : BufTy).Contents (Elt F)),
    unary main_v77 main_v79 (broadcastInDim S2048x16x16x64 ![0, 1, 2, 3] bcast_S2048x16x16x1_S2048x16x16x64_0_1_2_3 : (⟨S2048x16x16x1, .f32⟩ : BufTy).Contents (Elt F) → (⟨S2048x16x16x64, .f32⟩ : BufTy).Contents (Elt F)),
    binary main_v79 main_v78 main_v80 (mulf : (⟨S2048x16x16x64, .f32⟩ : BufTy).Contents (Elt F) → (⟨S2048x16x16x64, .f32⟩ : BufTy).Contents (Elt F) → (⟨S2048x16x16x64, .f32⟩ : BufTy).Contents (Elt F)),
    binary main_v74 main_v80 main_v81 (addf : (⟨S2048x16x16x64, .f32⟩ : BufTy).Contents (Elt F) → (⟨S2048x16x16x64, .f32⟩ : BufTy).Contents (Elt F) → (⟨S2048x16x16x64, .f32⟩ : BufTy).Contents (Elt F)),
    unary main_v15 main_v82 ((extractStridedSlice S2048x16x16x1 ![0, 0, 0, 9] · slices_S2048x16x16x15_S2048x16x16x1_0_0_0_9) : (⟨S2048x16x16x15, .f32⟩ : BufTy).Contents (Elt F) → (⟨S2048x16x16x1, .f32⟩ : BufTy).Contents (Elt F)),
    reshape main_v82 main_v83 rfl shapeCasts_S2048x16x16x1_S2048x16x16,
    unary main_v83 main_v84 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v17 main_v85 ((extractStridedSlice S2048x16x16x64 ![9, 0, 0, 0] · slices_S2062x16x16x64_S2048x16x16x64_9_0_0_0) : (⟨S2062x16x16x64, .f32⟩ : BufTy).Contents (Elt F) → (⟨S2048x16x16x64, .f32⟩ : BufTy).Contents (Elt F)),
    unary main_v84 main_v86 (broadcastInDim S2048x16x16x64 ![0, 1, 2, 3] bcast_S2048x16x16x1_S2048x16x16x64_0_1_2_3 : (⟨S2048x16x16x1, .f32⟩ : BufTy).Contents (Elt F) → (⟨S2048x16x16x64, .f32⟩ : BufTy).Contents (Elt F)),
    binary main_v86 main_v85 main_v87 (mulf : (⟨S2048x16x16x64, .f32⟩ : BufTy).Contents (Elt F) → (⟨S2048x16x16x64, .f32⟩ : BufTy).Contents (Elt F) → (⟨S2048x16x16x64, .f32⟩ : BufTy).Contents (Elt F)),
    binary main_v81 main_v87 main_v88 (addf : (⟨S2048x16x16x64, .f32⟩ : BufTy).Contents (Elt F) → (⟨S2048x16x16x64, .f32⟩ : BufTy).Contents (Elt F) → (⟨S2048x16x16x64, .f32⟩ : BufTy).Contents (Elt F)),
    unary main_v15 main_v89 ((extractStridedSlice S2048x16x16x1 ![0, 0, 0, 10] · slices_S2048x16x16x15_S2048x16x16x1_0_0_0_10) : (⟨S2048x16x16x15, .f32⟩ : BufTy).Contents (Elt F) → (⟨S2048x16x16x1, .f32⟩ : BufTy).Contents (Elt F)),
    reshape main_v89 main_v90 rfl shapeCasts_S2048x16x16x1_S2048x16x16,
    unary main_v90 main_v91 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v17 main_v92 ((extractStridedSlice S2048x16x16x64 ![10, 0, 0, 0] · slices_S2062x16x16x64_S2048x16x16x64_10_0_0_0) : (⟨S2062x16x16x64, .f32⟩ : BufTy).Contents (Elt F) → (⟨S2048x16x16x64, .f32⟩ : BufTy).Contents (Elt F)),
    unary main_v91 main_v93 (broadcastInDim S2048x16x16x64 ![0, 1, 2, 3] bcast_S2048x16x16x1_S2048x16x16x64_0_1_2_3 : (⟨S2048x16x16x1, .f32⟩ : BufTy).Contents (Elt F) → (⟨S2048x16x16x64, .f32⟩ : BufTy).Contents (Elt F)),
    binary main_v93 main_v92 main_v94 (mulf : (⟨S2048x16x16x64, .f32⟩ : BufTy).Contents (Elt F) → (⟨S2048x16x16x64, .f32⟩ : BufTy).Contents (Elt F) → (⟨S2048x16x16x64, .f32⟩ : BufTy).Contents (Elt F)),
    binary main_v88 main_v94 main_v95 (addf : (⟨S2048x16x16x64, .f32⟩ : BufTy).Contents (Elt F) → (⟨S2048x16x16x64, .f32⟩ : BufTy).Contents (Elt F) → (⟨S2048x16x16x64, .f32⟩ : BufTy).Contents (Elt F)),
    unary main_v15 main_v96 ((extractStridedSlice S2048x16x16x1 ![0, 0, 0, 11] · slices_S2048x16x16x15_S2048x16x16x1_0_0_0_11) : (⟨S2048x16x16x15, .f32⟩ : BufTy).Contents (Elt F) → (⟨S2048x16x16x1, .f32⟩ : BufTy).Contents (Elt F)),
    reshape main_v96 main_v97 rfl shapeCasts_S2048x16x16x1_S2048x16x16,
    unary main_v97 main_v98 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v17 main_v99 ((extractStridedSlice S2048x16x16x64 ![11, 0, 0, 0] · slices_S2062x16x16x64_S2048x16x16x64_11_0_0_0) : (⟨S2062x16x16x64, .f32⟩ : BufTy).Contents (Elt F) → (⟨S2048x16x16x64, .f32⟩ : BufTy).Contents (Elt F)),
    unary main_v98 main_v100 (broadcastInDim S2048x16x16x64 ![0, 1, 2, 3] bcast_S2048x16x16x1_S2048x16x16x64_0_1_2_3 : (⟨S2048x16x16x1, .f32⟩ : BufTy).Contents (Elt F) → (⟨S2048x16x16x64, .f32⟩ : BufTy).Contents (Elt F)),
    binary main_v100 main_v99 main_v101 (mulf : (⟨S2048x16x16x64, .f32⟩ : BufTy).Contents (Elt F) → (⟨S2048x16x16x64, .f32⟩ : BufTy).Contents (Elt F) → (⟨S2048x16x16x64, .f32⟩ : BufTy).Contents (Elt F)),
    binary main_v95 main_v101 main_v102 (addf : (⟨S2048x16x16x64, .f32⟩ : BufTy).Contents (Elt F) → (⟨S2048x16x16x64, .f32⟩ : BufTy).Contents (Elt F) → (⟨S2048x16x16x64, .f32⟩ : BufTy).Contents (Elt F)),
    unary main_v15 main_v103 ((extractStridedSlice S2048x16x16x1 ![0, 0, 0, 12] · slices_S2048x16x16x15_S2048x16x16x1_0_0_0_12) : (⟨S2048x16x16x15, .f32⟩ : BufTy).Contents (Elt F) → (⟨S2048x16x16x1, .f32⟩ : BufTy).Contents (Elt F)),
    reshape main_v103 main_v104 rfl shapeCasts_S2048x16x16x1_S2048x16x16,
    unary main_v104 main_v105 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v17 main_v106 ((extractStridedSlice S2048x16x16x64 ![12, 0, 0, 0] · slices_S2062x16x16x64_S2048x16x16x64_12_0_0_0) : (⟨S2062x16x16x64, .f32⟩ : BufTy).Contents (Elt F) → (⟨S2048x16x16x64, .f32⟩ : BufTy).Contents (Elt F)),
    unary main_v105 main_v107 (broadcastInDim S2048x16x16x64 ![0, 1, 2, 3] bcast_S2048x16x16x1_S2048x16x16x64_0_1_2_3 : (⟨S2048x16x16x1, .f32⟩ : BufTy).Contents (Elt F) → (⟨S2048x16x16x64, .f32⟩ : BufTy).Contents (Elt F)),
    binary main_v107 main_v106 main_v108 (mulf : (⟨S2048x16x16x64, .f32⟩ : BufTy).Contents (Elt F) → (⟨S2048x16x16x64, .f32⟩ : BufTy).Contents (Elt F) → (⟨S2048x16x16x64, .f32⟩ : BufTy).Contents (Elt F)),
    binary main_v102 main_v108 main_v109 (addf : (⟨S2048x16x16x64, .f32⟩ : BufTy).Contents (Elt F) → (⟨S2048x16x16x64, .f32⟩ : BufTy).Contents (Elt F) → (⟨S2048x16x16x64, .f32⟩ : BufTy).Contents (Elt F)),
    unary main_v15 main_v110 ((extractStridedSlice S2048x16x16x1 ![0, 0, 0, 13] · slices_S2048x16x16x15_S2048x16x16x1_0_0_0_13) : (⟨S2048x16x16x15, .f32⟩ : BufTy).Contents (Elt F) → (⟨S2048x16x16x1, .f32⟩ : BufTy).Contents (Elt F)),
    reshape main_v110 main_v111 rfl shapeCasts_S2048x16x16x1_S2048x16x16,
    unary main_v111 main_v112 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v17 main_v113 ((extractStridedSlice S2048x16x16x64 ![13, 0, 0, 0] · slices_S2062x16x16x64_S2048x16x16x64_13_0_0_0) : (⟨S2062x16x16x64, .f32⟩ : BufTy).Contents (Elt F) → (⟨S2048x16x16x64, .f32⟩ : BufTy).Contents (Elt F)),
    unary main_v112 main_v114 (broadcastInDim S2048x16x16x64 ![0, 1, 2, 3] bcast_S2048x16x16x1_S2048x16x16x64_0_1_2_3 : (⟨S2048x16x16x1, .f32⟩ : BufTy).Contents (Elt F) → (⟨S2048x16x16x64, .f32⟩ : BufTy).Contents (Elt F)) ]

theorem opsC1_sub : (opsC1 : List (HloOp τ sig (Elt F))).Forall fun op => op.bufs ⊆ tcRefs τ sig :=
  ⟨reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub ..⟩

theorem opsC1_fresh : (opsC1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers that these operations write. -/
abbrev opsC1_W : List (Ref sig .tc) := [main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114]

theorem opsC1_writes : (opsC1 : List (HloOp τ sig (Elt F))).Forall fun op => op.writes ⊆ (opsC1_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer these operations do not write keeps its contents through them. -/
theorem opsC1_keep (W : Valuation τ sig (Elt F)) (r : Ref sig .tc) (h : r ∉ opsC1_W) :
    after opsC1 W (Proc.devRef .tc r) = W (Proc.devRef .tc r) :=
  after_of_writes_sub opsC1 W opsC1_writes h

set_option maxRecDepth 8192 in
set_option maxHeartbeats 4000000 in
/-- Operations 122 … 131: taps 13 and 14 of the mix, and the heads back as one row, `main_v124`. -/
abbrev opsC2 : List (HloOp τ sig (Elt F)) :=
  [ binary main_v114 main_v113 main_v115 (mulf : (⟨S2048x16x16x64, .f32⟩ : BufTy).Contents (Elt F) → (⟨S2048x16x16x64, .f32⟩ : BufTy).Contents (Elt F) → (⟨S2048x16x16x64, .f32⟩ : BufTy).Contents (Elt F)),
    binary main_v109 main_v115 main_v116 (addf : (⟨S2048x16x16x64, .f32⟩ : BufTy).Contents (Elt F) → (⟨S2048x16x16x64, .f32⟩ : BufTy).Contents (Elt F) → (⟨S2048x16x16x64, .f32⟩ : BufTy).Contents (Elt F)),
    unary main_v15 main_v117 ((extractStridedSlice S2048x16x16x1 ![0, 0, 0, 14] · slices_S2048x16x16x15_S2048x16x16x1_0_0_0_14) : (⟨S2048x16x16x15, .f32⟩ : BufTy).Contents (Elt F) → (⟨S2048x16x16x1, .f32⟩ : BufTy).Contents (Elt F)),
    reshape main_v117 main_v118 rfl shapeCasts_S2048x16x16x1_S2048x16x16,
    unary main_v118 main_v119 (broadcastInDim S2048x16x16x1 ![0, 1, 2] bcast_S2048x16x16_S2048x16x16x1_0_1_2 : (⟨S2048x16x16, .f32⟩ : BufTy).Contents (Elt F) → (⟨S2048x16x16x1, .f32⟩ : BufTy).Contents (Elt F)),
    unary main_v17 main_v120 ((extractStridedSlice S2048x16x16x64 ![14, 0, 0, 0] · slices_S2062x16x16x64_S2048x16x16x64_14_0_0_0) : (⟨S2062x16x16x64, .f32⟩ : BufTy).Contents (Elt F) → (⟨S2048x16x16x64, .f32⟩ : BufTy).Contents (Elt F)),
    unary main_v119 main_v121 (broadcastInDim S2048x16x16x64 ![0, 1, 2, 3] bcast_S2048x16x16x1_S2048x16x16x64_0_1_2_3 : (⟨S2048x16x16x1, .f32⟩ : BufTy).Contents (Elt F) → (⟨S2048x16x16x64, .f32⟩ : BufTy).Contents (Elt F)),
    binary main_v121 main_v120 main_v122 (mulf : (⟨S2048x16x16x64, .f32⟩ : BufTy).Contents (Elt F) → (⟨S2048x16x16x64, .f32⟩ : BufTy).Contents (Elt F) → (⟨S2048x16x16x64, .f32⟩ : BufTy).Contents (Elt F)),
    binary main_v116 main_v122 main_v123 (addf : (⟨S2048x16x16x64, .f32⟩ : BufTy).Contents (Elt F) → (⟨S2048x16x16x64, .f32⟩ : BufTy).Contents (Elt F) → (⟨S2048x16x16x64, .f32⟩ : BufTy).Contents (Elt F)),
    reshape main_v123 main_v124 rfl shapeCasts_S2048x16x16x64_S2048x16x1024 ]

theorem opsC2_sub : (opsC2 : List (HloOp τ sig (Elt F))).Forall fun op => op.bufs ⊆ tcRefs τ sig :=
  ⟨binary_bufs_sub .., binary_bufs_sub .., unary_bufs_sub .., reshape_bufs_sub .., unary_bufs_sub .., unary_bufs_sub .., unary_bufs_sub .., binary_bufs_sub .., binary_bufs_sub .., reshape_bufs_sub ..⟩

theorem opsC2_fresh : (opsC2 : List (HloOp τ sig (Elt F))).Forall fun op => op.fresh = ∅ :=
  ⟨rfl, rfl, rfl, rfl, rfl, rfl, rfl, rfl, rfl, rfl⟩

/-- The buffers that these operations write. -/
abbrev opsC2_W : List (Ref sig .tc) := [main_v115, main_v116, main_v117, main_v118, main_v119, main_v120, main_v121, main_v122, main_v123, main_v124]

theorem opsC2_writes : (opsC2 : List (HloOp τ sig (Elt F))).Forall fun op => op.writes ⊆ (opsC2_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer these operations do not write keeps its contents through them. -/
theorem opsC2_keep (W : Valuation τ sig (Elt F)) (r : Ref sig .tc) (h : r ∉ opsC2_W) :
    after opsC2 W (Proc.devRef .tc r) = W (Proc.devRef .tc r) :=
  after_of_writes_sub opsC2 W opsC2_writes h

set_option maxRecDepth 8192 in
set_option maxHeartbeats 4000000 in
/-- Operations 132 … 160: the normalization with scale and shift, `main_v148`. -/
abbrev opsD : List (HloOp τ sig (Elt F)) :=
  [ nullary main_cst_3 (constant S_ .f32 0x00000000#32),
    binary main_v124 main_cst_3 main_v125 ((fun x v => Host.reduceAdd x v reducesTo_S2048x16x1024_S2048x16_d2 h_S_) : (⟨S2048x16x1024, .f32⟩ : BufTy).Contents (Elt F) → (⟨S_, .f32⟩ : BufTy).Contents (Elt F) → (⟨S2048x16, .f32⟩ : BufTy).Contents (Elt F)),
    unary main_v125 main_v126 (broadcastInDim S2048x16x1 ![0, 1] bcast_S2048x16_S2048x16x1_0_1 : (⟨S2048x16, .f32⟩ : BufTy).Contents (Elt F) → (⟨S2048x16x1, .f32⟩ : BufTy).Contents (Elt F)),
    nullary main_cst_4 (constant S_ .f32 0x44800000#32),
    unary main_cst_4 main_v127 (broadcastInDim S2048x16x1 ![] bcast_S_S2048x16x1 : (⟨S_, .f32⟩ : BufTy).Contents (Elt F) → (⟨S2048x16x1, .f32⟩ : BufTy).Contents (Elt F)),
    binary main_v126 main_v127 main_v128 (Host.divf : (⟨S2048x16x1, .f32⟩ : BufTy).Contents (Elt F) → (⟨S2048x16x1, .f32⟩ : BufTy).Contents (Elt F) → (⟨S2048x16x1, .f32⟩ : BufTy).Contents (Elt F)),
    unary main_v128 main_v129 (broadcastInDim S2048x16x1024 ![0, 1, 2] bcast_S2048x16x1_S2048x16x1024_0_1_2 : (⟨S2048x16x1, .f32⟩ : BufTy).Contents (Elt F) → (⟨S2048x16x1024, .f32⟩ : BufTy).Contents (Elt F)),
    binary main_v124 main_v129 main_v130 (subf : (⟨S2048x16x1024, .f32⟩ : BufTy).Contents (Elt F) → (⟨S2048x16x1024, .f32⟩ : BufTy).Contents (Elt F) → (⟨S2048x16x1024, .f32⟩ : BufTy).Contents (Elt F)),
    binary main_v130 main_v130 main_v131 (mulf : (⟨S2048x16x1024, .f32⟩ : BufTy).Contents (Elt F) → (⟨S2048x16x1024, .f32⟩ : BufTy).Contents (Elt F) → (⟨S2048x16x1024, .f32⟩ : BufTy).Contents (Elt F)),
    nullary main_cst_5 (constant S_ .f32 0x00000000#32),
    binary main_v131 main_cst_5 main_v132 ((fun x v => Host.reduceAdd x v reducesTo_S2048x16x1024_S2048x16_d2 h_S_) : (⟨S2048x16x1024, .f32⟩ : BufTy).Contents (Elt F) → (⟨S_, .f32⟩ : BufTy).Contents (Elt F) → (⟨S2048x16, .f32⟩ : BufTy).Contents (Elt F)),
    unary main_v132 main_v133 (broadcastInDim S2048x16x1 ![0, 1] bcast_S2048x16_S2048x16x1_0_1 : (⟨S2048x16, .f32⟩ : BufTy).Contents (Elt F) → (⟨S2048x16x1, .f32⟩ : BufTy).Contents (Elt F)),
    nullary main_cst_6 (constant S_ .f32 0x44800000#32),
    unary main_cst_6 main_v134 (broadcastInDim S2048x16x1 ![] bcast_S_S2048x16x1 : (⟨S_, .f32⟩ : BufTy).Contents (Elt F) → (⟨S2048x16x1, .f32⟩ : BufTy).Contents (Elt F)),
    binary main_v133 main_v134 main_v135 (Host.divf : (⟨S2048x16x1, .f32⟩ : BufTy).Contents (Elt F) → (⟨S2048x16x1, .f32⟩ : BufTy).Contents (Elt F) → (⟨S2048x16x1, .f32⟩ : BufTy).Contents (Elt F)),
    unary main_v128 main_v136 (broadcastInDim S2048x16x1024 ![0, 1, 2] bcast_S2048x16x1_S2048x16x1024_0_1_2 : (⟨S2048x16x1, .f32⟩ : BufTy).Contents (Elt F) → (⟨S2048x16x1024, .f32⟩ : BufTy).Contents (Elt F)),
    binary main_v124 main_v136 main_v137 (subf : (⟨S2048x16x1024, .f32⟩ : BufTy).Contents (Elt F) → (⟨S2048x16x1024, .f32⟩ : BufTy).Contents (Elt F) → (⟨S2048x16x1024, .f32⟩ : BufTy).Contents (Elt F)),
    nullary main_cst_7 (constant S_ .f32 0x3727C5AC#32),
    unary main_cst_7 main_v138 (broadcastInDim S2048x16x1 ![] bcast_S_S2048x16x1 : (⟨S_, .f32⟩ : BufTy).Contents (Elt F) → (⟨S2048x16x1, .f32⟩ : BufTy).Contents (Elt F)),
    binary main_v135 main_v138 main_v139 (addf : (⟨S2048x16x1, .f32⟩ : BufTy).Contents (Elt F) → (⟨S2048x16x1, .f32⟩ : BufTy).Contents (Elt F) → (⟨S2048x16x1, .f32⟩ : BufTy).Contents (Elt F)),
    unary main_v139 main_v140 (Host.sqrt : (⟨S2048x16x1, .f32⟩ : BufTy).Contents (Elt F) → (⟨S2048x16x1, .f32⟩ : BufTy).Contents (Elt F)),
    unary main_v140 main_v141 (broadcastInDim S2048x16x1024 ![0, 1, 2] bcast_S2048x16x1_S2048x16x1024_0_1_2 : (⟨S2048x16x1, .f32⟩ : BufTy).Contents (Elt F) → (⟨S2048x16x1024, .f32⟩ : BufTy).Contents (Elt F)),
    binary main_v137 main_v141 main_v142 (Host.divf : (⟨S2048x16x1024, .f32⟩ : BufTy).Contents (Elt F) → (⟨S2048x16x1024, .f32⟩ : BufTy).Contents (Elt F) → (⟨S2048x16x1024, .f32⟩ : BufTy).Contents (Elt F)),
    unary main_arg3 main_v143 (broadcastInDim S1x1x1024 ![2] bcast_S1024_S1x1x1024_2 : (⟨S1024, .f32⟩ : BufTy).Contents (Elt F) → (⟨S1x1x1024, .f32⟩ : BufTy).Contents (Elt F)),
    unary main_v143 main_v144 (broadcastInDim S2048x16x1024 ![0, 1, 2] bcast_S1x1x1024_S2048x16x1024_0_1_2 : (⟨S1x1x1024, .f32⟩ : BufTy).Contents (Elt F) → (⟨S2048x16x1024, .f32⟩ : BufTy).Contents (Elt F)),
    binary main_v142 main_v144 main_v145 (mulf : (⟨S2048x16x1024, .f32⟩ : BufTy).Contents (Elt F) → (⟨S2048x16x1024, .f32⟩ : BufTy).Contents (Elt F) → (⟨S2048x16x1024, .f32⟩ : BufTy).Contents (Elt F)),
    unary main_arg4 main_v146 (broadcastInDim S1x1x1024 ![2] bcast_S1024_S1x1x1024_2 : (⟨S1024, .f32⟩ : BufTy).Contents (Elt F) → (⟨S1x1x1024, .f32⟩ : BufTy).Contents (Elt F)),
    unary main_v146 main_v147 (broadcastInDim S2048x16x1024 ![0, 1, 2] bcast_S1x1x1024_S2048x16x1024_0_1_2 : (⟨S1x1x1024, .f32⟩ : BufTy).Contents (Elt F) → (⟨S2048x16x1024, .f32⟩ : BufTy).Contents (Elt F)),
    binary main_v145 main_v147 main_v148 (addf : (⟨S2048x16x1024, .f32⟩ : BufTy).Contents (Elt F) → (⟨S2048x16x1024, .f32⟩ : BufTy).Contents (Elt F) → (⟨S2048x16x1024, .f32⟩ : BufTy).Contents (Elt F)) ]

theorem opsD_sub : (opsD : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers that these operations write. -/
abbrev opsD_W : List (Ref sig .tc) := [main_cst_3, main_v125, main_v126, main_cst_4, main_v127, main_v128, main_v129, main_v130, main_v131, main_cst_5, main_v132, main_v133, main_cst_6, main_v134, main_v135, main_v136, main_v137, main_cst_7, main_v138, main_v139, main_v140, main_v141, main_v142, main_v143, main_v144, main_v145, main_v146, main_v147, main_v148]

theorem opsD_writes : (opsD : List (HloOp τ sig (Elt F))).Forall fun op => op.writes ⊆ (opsD_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer these operations do not write keeps its contents through them. -/
theorem opsD_keep (W : Valuation τ sig (Elt F)) (r : Ref sig .tc) (h : r ∉ opsD_W) :
    after opsD W (Proc.devRef .tc r) = W (Proc.devRef .tc r) :=
  after_of_writes_sub opsD W opsD_writes h

set_option maxRecDepth 8192 in
set_option maxHeartbeats 4000000 in
/-- Operations 161 … 172: the two dense layers with the rectifier between, and the residual sum, `main_v158`. -/
abbrev opsE : List (HloOp τ sig (Elt F)) :=
  [ binary main_v148 main_arg5 main_v149 ((fun l r => Host.dotGeneral dot_S2048x16x1024_S4096x1024_S2048x16x4096_2_1_01_0_n_n none l r) : (⟨S2048x16x1024, .f32⟩ : BufTy).Contents (Elt F) → (⟨S4096x1024, .f32⟩ : BufTy).Contents (Elt F) → (⟨S2048x16x4096, .f32⟩ : BufTy).Contents (Elt F)),
    unary main_arg6 main_v150 (broadcastInDim S1x1x4096 ![2] bcast_S4096_S1x1x4096_2 : (⟨S4096, .f32⟩ : BufTy).Contents (Elt F) → (⟨S1x1x4096, .f32⟩ : BufTy).Contents (Elt F)),
    unary main_v150 main_v151 (broadcastInDim S2048x16x4096 ![0, 1, 2] bcast_S1x1x4096_S2048x16x4096_0_1_2 : (⟨S1x1x4096, .f32⟩ : BufTy).Contents (Elt F) → (⟨S2048x16x4096, .f32⟩ : BufTy).Contents (Elt F)),
    binary main_v149 main_v151 main_v152 (addf : (⟨S2048x16x4096, .f32⟩ : BufTy).Contents (Elt F) → (⟨S2048x16x4096, .f32⟩ : BufTy).Contents (Elt F) → (⟨S2048x16x4096, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S2048x16x4096, .f32⟩) main_call1_v0) (broadcastInDim S2048x16x4096 ![] bcast_S_S2048x16x4096),
    TRef.binary (TRef.of (T := ⟨S2048x16x4096, .f32⟩) main_v152) (TRef.of (T := ⟨S2048x16x4096, .f32⟩) main_call1_v0) (TRef.of (T := ⟨S2048x16x4096, .f32⟩) main_v153) maximumf,
    binary main_v153 main_arg7 main_v154 ((fun l r => Host.dotGeneral dot_S2048x16x4096_S1024x4096_S2048x16x1024_2_1_01_0_n_n none l r) : (⟨S2048x16x4096, .f32⟩ : BufTy).Contents (Elt F) → (⟨S1024x4096, .f32⟩ : BufTy).Contents (Elt F) → (⟨S2048x16x1024, .f32⟩ : BufTy).Contents (Elt F)),
    unary main_arg8 main_v155 (broadcastInDim S1x1x1024 ![2] bcast_S1024_S1x1x1024_2 : (⟨S1024, .f32⟩ : BufTy).Contents (Elt F) → (⟨S1x1x1024, .f32⟩ : BufTy).Contents (Elt F)),
    unary main_v155 main_v156 (broadcastInDim S2048x16x1024 ![0, 1, 2] bcast_S1x1x1024_S2048x16x1024_0_1_2 : (⟨S1x1x1024, .f32⟩ : BufTy).Contents (Elt F) → (⟨S2048x16x1024, .f32⟩ : BufTy).Contents (Elt F)),
    binary main_v154 main_v156 main_v157 (addf : (⟨S2048x16x1024, .f32⟩ : BufTy).Contents (Elt F) → (⟨S2048x16x1024, .f32⟩ : BufTy).Contents (Elt F) → (⟨S2048x16x1024, .f32⟩ : BufTy).Contents (Elt F)),
    binary main_v157 main_v148 main_v158 (addf : (⟨S2048x16x1024, .f32⟩ : BufTy).Contents (Elt F) → (⟨S2048x16x1024, .f32⟩ : BufTy).Contents (Elt F) → (⟨S2048x16x1024, .f32⟩ : BufTy).Contents (Elt F)) ]

theorem opsE_sub : (opsE : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩

theorem opsE_fresh : (opsE : List (HloOp τ sig (Elt F))).Forall fun op => op.fresh = ∅ :=
  ⟨rfl, rfl, rfl, rfl, rfl, rfl, rfl, rfl, rfl, rfl, rfl, rfl⟩

/-- The buffers that these operations write. -/
abbrev opsE_W : List (Ref sig .tc) := [main_v149, main_v150, main_v151, main_v152, main_call1_cst, main_call1_v0, main_v153, main_v154, main_v155, main_v156, main_v157, main_v158]

theorem opsE_writes : (opsE : List (HloOp τ sig (Elt F))).Forall fun op => op.writes ⊆ (opsE_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩

/-- A buffer these operations do not write keeps its contents through them. -/
theorem opsE_keep (W : Valuation τ sig (Elt F)) (r : Ref sig .tc) (h : r ∉ opsE_W) :
    after opsE W (Proc.devRef .tc r) = W (Proc.devRef .tc r) :=
  after_of_writes_sub opsE W opsE_writes h

set_option maxRecDepth 8192 in
set_option maxHeartbeats 2000000 in
/-- The first stretch leaves the softmax weights of the arguments it starts from. -/
theorem A_v15 (W : Valuation τ sig (Elt F)) :
    after opsA W (main_v15 : DevRef τ sig) = ReadP.val_main_v15 (F := F) (W (main_arg0 : DevRef τ sig)) (W (main_arg1 : DevRef τ sig)) (W (main_arg2 : DevRef τ sig)) := by
  simp only [opsA]
  after_results_simp
  rfl

set_option maxRecDepth 8192 in
set_option maxHeartbeats 2000000 in
/-- The second stretch leaves the padded heads of the argument it starts from. -/
theorem B_v17 (W : Valuation τ sig (Elt F)) :
    after opsB W (main_v17 : DevRef τ sig) = ReadP.val_main_v17 (F := F) (W (main_arg0 : DevRef τ sig)) := by
  simp only [opsB]
  after_results_simp
  rfl

set_option maxRecDepth 8192 in
set_option maxHeartbeats 2000000 in
/-- The third stretch, from the weights and the padded heads, leaves `main_v53`. -/
theorem C0_v53 (W : Valuation τ sig (Elt F)) (x0 : (⟨S2048x16x1024, .f32⟩ : BufTy).Contents (Elt F)) (x1 : (⟨S240x1024, .f32⟩ : BufTy).Contents (Elt F)) (x2 : (⟨S240, .f32⟩ : BufTy).Contents (Elt F))
    (h15 : W (main_v15 : DevRef τ sig) = ReadP.val_main_v15 (F := F) x0 x1 x2)
    (h17 : W (main_v17 : DevRef τ sig) = ReadP.val_main_v17 (F := F) x0) :
    after opsC0 W (main_v53 : DevRef τ sig) = ReadP.val_main_v53 (F := F) x0 x1 x2 := by
  simp only [opsC0]
  after_results_simp
  simp only [h15, h17]
  rfl

set_option maxRecDepth 8192 in
set_option maxHeartbeats 2000000 in
/-- The third stretch, from the weights and the padded heads, leaves `main_v54`. -/
theorem C0_v54 (W : Valuation τ sig (Elt F)) (x0 : (⟨S2048x16x1024, .f32⟩ : BufTy).Contents (Elt F)) (x1 : (⟨S240x1024, .f32⟩ : BufTy).Contents (Elt F)) (x2 : (⟨S240, .f32⟩ : BufTy).Contents (Elt F))
    (h15 : W (main_v15 : DevRef τ sig) = ReadP.val_main_v15 (F := F) x0 x1 x2)
    (h17 : W (main_v17 : DevRef τ sig) = ReadP.val_main_v17 (F := F) x0) :
    after opsC0 W (main_v54 : DevRef τ sig) = ReadP.val_main_v54 (F := F) x0 x1 x2 := by
  simp only [opsC0]
  after_results_simp
  simp only [h15, h17]
  rfl

set_option maxRecDepth 8192 in
set_option maxHeartbeats 2000000 in
/-- The fourth stretch, from the weights, the padded heads and the sum so far, leaves `main_v109`. -/
theorem C1_v109 (W : Valuation τ sig (Elt F)) (x0 : (⟨S2048x16x1024, .f32⟩ : BufTy).Contents (Elt F)) (x1 : (⟨S240x1024, .f32⟩ : BufTy).Contents (Elt F)) (x2 : (⟨S240, .f32⟩ : BufTy).Contents (Elt F))
    (h15 : W (main_v15 : DevRef τ sig) = ReadP.val_main_v15 (F := F) x0 x1 x2)
    (h17 : W (main_v17 : DevRef τ sig) = ReadP.val_main_v17 (F := F) x0)
    (h53 : W (main_v53 : DevRef τ sig) = ReadP.val_main_v53 (F := F) x0 x1 x2)
    (h54 : W (main_v54 : DevRef τ sig) = ReadP.val_main_v54 (F := F) x0 x1 x2) :
    after opsC1 W (main_v109 : DevRef τ sig) = ReadP.val_main_v109 (F := F) x0 x1 x2 := by
  simp only [opsC1]
  after_results_simp
  simp only [h15, h17, h53, h54]
  rfl

set_option maxRecDepth 8192 in
set_option maxHeartbeats 2000000 in
/-- The fourth stretch, from the weights, the padded heads and the sum so far, leaves `main_v113`. -/
theorem C1_v113 (W : Valuation τ sig (Elt F)) (x0 : (⟨S2048x16x1024, .f32⟩ : BufTy).Contents (Elt F)) (x1 : (⟨S240x1024, .f32⟩ : BufTy).Contents (Elt F)) (x2 : (⟨S240, .f32⟩ : BufTy).Contents (Elt F))
    (h15 : W (main_v15 : DevRef τ sig) = ReadP.val_main_v15 (F := F) x0 x1 x2)
    (h17 : W (main_v17 : DevRef τ sig) = ReadP.val_main_v17 (F := F) x0)
    (h53 : W (main_v53 : DevRef τ sig) = ReadP.val_main_v53 (F := F) x0 x1 x2)
    (h54 : W (main_v54 : DevRef τ sig) = ReadP.val_main_v54 (F := F) x0 x1 x2) :
    after opsC1 W (main_v113 : DevRef τ sig) = ReadP.val_main_v113 (F := F) x0 := by
  simp only [opsC1]
  after_results_simp
  simp only [h15, h17, h53, h54]
  rfl

set_option maxRecDepth 8192 in
set_option maxHeartbeats 2000000 in
/-- The fourth stretch, from the weights, the padded heads and the sum so far, leaves `main_v114`. -/
theorem C1_v114 (W : Valuation τ sig (Elt F)) (x0 : (⟨S2048x16x1024, .f32⟩ : BufTy).Contents (Elt F)) (x1 : (⟨S240x1024, .f32⟩ : BufTy).Contents (Elt F)) (x2 : (⟨S240, .f32⟩ : BufTy).Contents (Elt F))
    (h15 : W (main_v15 : DevRef τ sig) = ReadP.val_main_v15 (F := F) x0 x1 x2)
    (h17 : W (main_v17 : DevRef τ sig) = ReadP.val_main_v17 (F := F) x0)
    (h53 : W (main_v53 : DevRef τ sig) = ReadP.val_main_v53 (F := F) x0 x1 x2)
    (h54 : W (main_v54 : DevRef τ sig) = ReadP.val_main_v54 (F := F) x0 x1 x2) :
    after opsC1 W (main_v114 : DevRef τ sig) = ReadP.val_main_v114 (F := F) x0 x1 x2 := by
  simp only [opsC1]
  after_results_simp
  simp only [h15, h17, h53, h54]
  rfl

set_option maxRecDepth 8192 in
set_option maxHeartbeats 2000000 in
/-- The fifth stretch leaves the mixed rows. -/
theorem C2_v124 (W : Valuation τ sig (Elt F)) (x0 : (⟨S2048x16x1024, .f32⟩ : BufTy).Contents (Elt F)) (x1 : (⟨S240x1024, .f32⟩ : BufTy).Contents (Elt F)) (x2 : (⟨S240, .f32⟩ : BufTy).Contents (Elt F))
    (h15 : W (main_v15 : DevRef τ sig) = ReadP.val_main_v15 (F := F) x0 x1 x2)
    (h17 : W (main_v17 : DevRef τ sig) = ReadP.val_main_v17 (F := F) x0)
    (h109 : W (main_v109 : DevRef τ sig) = ReadP.val_main_v109 (F := F) x0 x1 x2)
    (h113 : W (main_v113 : DevRef τ sig) = ReadP.val_main_v113 (F := F) x0)
    (h114 : W (main_v114 : DevRef τ sig) = ReadP.val_main_v114 (F := F) x0 x1 x2) :
    after opsC2 W (main_v124 : DevRef τ sig) = ReadP.val_main_v124 (F := F) x0 x1 x2 := by
  simp only [opsC2]
  after_results_simp
  simp only [h15, h17, h109, h113, h114]
  rfl

set_option maxRecDepth 8192 in
set_option maxHeartbeats 2000000 in
/-- The sixth stretch, from the mixed rows, leaves the normalized rows. -/
theorem D_v148 (W : Valuation τ sig (Elt F)) (x0 : (⟨S2048x16x1024, .f32⟩ : BufTy).Contents (Elt F)) (x1 : (⟨S240x1024, .f32⟩ : BufTy).Contents (Elt F)) (x2 : (⟨S240, .f32⟩ : BufTy).Contents (Elt F))
    (h124 : W (main_v124 : DevRef τ sig) = ReadP.val_main_v124 (F := F) x0 x1 x2) :
    after opsD W (main_v148 : DevRef τ sig) = ReadP.val_main_v148 (F := F) x0 x1 x2 (W (main_arg3 : DevRef τ sig)) (W (main_arg4 : DevRef τ sig)) := by
  simp only [opsD]
  after_results_simp
  simp only [h124]
  rfl

set_option maxRecDepth 8192 in
set_option maxHeartbeats 2000000 in
/-- The last stretch, from the normalized rows, leaves the result. -/
theorem E_v158 (W : Valuation τ sig (Elt F)) (x0 : (⟨S2048x16x1024, .f32⟩ : BufTy).Contents (Elt F)) (x1 : (⟨S240x1024, .f32⟩ : BufTy).Contents (Elt F)) (x2 : (⟨S240, .f32⟩ : BufTy).Contents (Elt F)) (x3 : (⟨S1024, .f32⟩ : BufTy).Contents (Elt F)) (x4 : (⟨S1024, .f32⟩ : BufTy).Contents (Elt F))
    (h148 : W (main_v148 : DevRef τ sig) = ReadP.val_main_v148 (F := F) x0 x1 x2 x3 x4) :
    after opsE W (main_v158 : DevRef τ sig) = ReadP.val_main_v158 (F := F) x0 x1 x2 x3 x4 (W (main_arg5 : DevRef τ sig)) (W (main_arg6 : DevRef τ sig)) (W (main_arg7 : DevRef τ sig)) (W (main_arg8 : DevRef τ sig)) := by
  simp only [opsE]
  after_results_simp
  simp only [h148]
  rfl

/-! ## The whole line -/

/-- @main's first window of statements: the first three stretches. -/
abbrev ops0 : List (HloOp τ sig (Elt F)) := opsA ++ (opsB ++ opsC0)
/-- @main's last window of statements: the last three stretches. -/
abbrev ops2 : List (HloOp τ sig (Elt F)) := opsC2 ++ (opsD ++ opsE)
/-- @main's 172 operations, in order (a called function's operations stand in its call's place). -/
abbrev ops : List (HloOp τ sig (Elt F)) := ops0 ++ (opsC1 ++ ops2)

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq opsC1 := rfl
set_option maxRecDepth 8192 in
set_option maxHeartbeats 4000000 in
theorem main_part2_eq (c : Dev nD) : main_part2 (F := F) c = seq ops2 := rfl

/-- @main is that straight line: its three windows one after the other. -/
theorem main_eq (c : Dev nD) : main (F := F) c = seq ops := by
  show main (F := F) c = seq (ops0 ++ (opsC1 ++ ops2))
  rw [seq_append ops0, seq_append opsC1, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append opsA_sub (forall_append opsB_sub opsC0_sub))
    (forall_append opsC1_sub (forall_append opsC2_sub (forall_append opsD_sub opsE_sub)))

theorem ops_fresh : (ops : List (HloOp τ sig (Elt F))).Forall fun op => op.fresh = ∅ :=
  forall_append (forall_append opsA_fresh (forall_append opsB_fresh opsC0_fresh))
    (forall_append opsC1_fresh (forall_append opsC2_fresh (forall_append opsD_fresh opsE_fresh)))

/-! ## The contents after each stretch -/

/-- The buffers' contents after the first 1 stretch, from contents `V`. -/
def st1 (V : Valuation τ sig (Elt F)) : Valuation τ sig (Elt F) := after opsA (V)
/-- The buffers' contents after the first 2 stretches, from contents `V`. -/
def st2 (V : Valuation τ sig (Elt F)) : Valuation τ sig (Elt F) := after opsB (st1 V)
/-- The buffers' contents after the first 3 stretches, from contents `V`. -/
def st3 (V : Valuation τ sig (Elt F)) : Valuation τ sig (Elt F) := after opsC0 (st2 V)
/-- The buffers' contents after the first 4 stretches, from contents `V`. -/
def st4 (V : Valuation τ sig (Elt F)) : Valuation τ sig (Elt F) := after opsC1 (st3 V)
/-- The buffers' contents after the first 5 stretches, from contents `V`. -/
def st5 (V : Valuation τ sig (Elt F)) : Valuation τ sig (Elt F) := after opsC2 (st4 V)
/-- The buffers' contents after the first 6 stretches, from contents `V`. -/
def st6 (V : Valuation τ sig (Elt F)) : Valuation τ sig (Elt F) := after opsD (st5 V)
/-- The buffers' contents after the first 7 stretches, from contents `V`. -/
def st7 (V : Valuation τ sig (Elt F)) : Valuation τ sig (Elt F) := after opsE (st6 V)

/-- The whole line's fold is the last of them. -/
theorem after_ops (V : Valuation τ sig (Elt F)) : after ops V = st7 V := by
  show after ((opsA ++ (opsB ++ opsC0)) ++ (opsC1 ++ (opsC2 ++ (opsD ++ opsE)))) V = _
  simp only [after_append]
  rfl

/-- A buffer none of the first stretches writes still holds what it held. -/
theorem st1_keep (V : Valuation τ sig (Elt F)) (r : Ref sig .tc) (h : r ∉ opsA_W) : st1 V (Proc.devRef .tc r) = V (Proc.devRef .tc r) :=
  opsA_keep V r h
theorem st2_keep (V : Valuation τ sig (Elt F)) (r : Ref sig .tc) (h : (r ∉ opsA_W) ∧ r ∉ opsB_W) : st2 V (Proc.devRef .tc r) = V (Proc.devRef .tc r) :=
  (opsB_keep (st1 V) r h.2).trans (st1_keep V r h.1)
theorem st3_keep (V : Valuation τ sig (Elt F)) (r : Ref sig .tc) (h : ((r ∉ opsA_W) ∧ r ∉ opsB_W) ∧ r ∉ opsC0_W) : st3 V (Proc.devRef .tc r) = V (Proc.devRef .tc r) :=
  (opsC0_keep (st2 V) r h.2).trans (st2_keep V r h.1)
theorem st4_keep (V : Valuation τ sig (Elt F)) (r : Ref sig .tc) (h : (((r ∉ opsA_W) ∧ r ∉ opsB_W) ∧ r ∉ opsC0_W) ∧ r ∉ opsC1_W) : st4 V (Proc.devRef .tc r) = V (Proc.devRef .tc r) :=
  (opsC1_keep (st3 V) r h.2).trans (st3_keep V r h.1)
theorem st5_keep (V : Valuation τ sig (Elt F)) (r : Ref sig .tc) (h : ((((r ∉ opsA_W) ∧ r ∉ opsB_W) ∧ r ∉ opsC0_W) ∧ r ∉ opsC1_W) ∧ r ∉ opsC2_W) : st5 V (Proc.devRef .tc r) = V (Proc.devRef .tc r) :=
  (opsC2_keep (st4 V) r h.2).trans (st4_keep V r h.1)
theorem st6_keep (V : Valuation τ sig (Elt F)) (r : Ref sig .tc) (h : (((((r ∉ opsA_W) ∧ r ∉ opsB_W) ∧ r ∉ opsC0_W) ∧ r ∉ opsC1_W) ∧ r ∉ opsC2_W) ∧ r ∉ opsD_W) : st6 V (Proc.devRef .tc r) = V (Proc.devRef .tc r) :=
  (opsD_keep (st5 V) r h.2).trans (st5_keep V r h.1)
theorem st7_keep (V : Valuation τ sig (Elt F)) (r : Ref sig .tc) (h : ((((((r ∉ opsA_W) ∧ r ∉ opsB_W) ∧ r ∉ opsC0_W) ∧ r ∉ opsC1_W) ∧ r ∉ opsC2_W) ∧ r ∉ opsD_W) ∧ r ∉ opsE_W) : st7 V (Proc.devRef .tc r) = V (Proc.devRef .tc r) :=
  (opsE_keep (st6 V) r h.2).trans (st6_keep V r h.1)

/-! The values the stretches hand on, as the reference's stages of the ARGUMENTS' contents. -/

theorem st1_v15 (V : Valuation τ sig (Elt F)) : st1 V (main_v15 : DevRef τ sig) = ReadP.val_main_v15 (F := F) (V (main_arg0 : DevRef τ sig)) (V (main_arg1 : DevRef τ sig)) (V (main_arg2 : DevRef τ sig)) := A_v15 V
theorem st2_v15 (V : Valuation τ sig (Elt F)) : st2 V (main_v15 : DevRef τ sig) = ReadP.val_main_v15 (F := F) (V (main_arg0 : DevRef τ sig)) (V (main_arg1 : DevRef τ sig)) (V (main_arg2 : DevRef τ sig)) := (opsB_keep (st1 V) main_v15 (by decide)).trans (st1_v15 V)
theorem st2_v17 (V : Valuation τ sig (Elt F)) : st2 V (main_v17 : DevRef τ sig) = ReadP.val_main_v17 (F := F) (V (main_arg0 : DevRef τ sig)) :=
  (B_v17 (st1 V)).trans (by rw [st1_keep V main_arg0 (by decide)])
theorem st3_v15 (V : Valuation τ sig (Elt F)) : st3 V (main_v15 : DevRef τ sig) = ReadP.val_main_v15 (F := F) (V (main_arg0 : DevRef τ sig)) (V (main_arg1 : DevRef τ sig)) (V (main_arg2 : DevRef τ sig)) := (opsC0_keep (st2 V) main_v15 (by decide)).trans (st2_v15 V)
theorem st3_v17 (V : Valuation τ sig (Elt F)) : st3 V (main_v17 : DevRef τ sig) = ReadP.val_main_v17 (F := F) (V (main_arg0 : DevRef τ sig)) := (opsC0_keep (st2 V) main_v17 (by decide)).trans (st2_v17 V)
theorem st3_v53 (V : Valuation τ sig (Elt F)) : st3 V (main_v53 : DevRef τ sig) = ReadP.val_main_v53 (F := F) (V (main_arg0 : DevRef τ sig)) (V (main_arg1 : DevRef τ sig)) (V (main_arg2 : DevRef τ sig)) := C0_v53 (st2 V) _ _ _ (st2_v15 V) (st2_v17 V)
theorem st3_v54 (V : Valuation τ sig (Elt F)) : st3 V (main_v54 : DevRef τ sig) = ReadP.val_main_v54 (F := F) (V (main_arg0 : DevRef τ sig)) (V (main_arg1 : DevRef τ sig)) (V (main_arg2 : DevRef τ sig)) := C0_v54 (st2 V) _ _ _ (st2_v15 V) (st2_v17 V)
theorem st4_v15 (V : Valuation τ sig (Elt F)) : st4 V (main_v15 : DevRef τ sig) = ReadP.val_main_v15 (F := F) (V (main_arg0 : DevRef τ sig)) (V (main_arg1 : DevRef τ sig)) (V (main_arg2 : DevRef τ sig)) := (opsC1_keep (st3 V) main_v15 (by decide)).trans (st3_v15 V)
theorem st4_v17 (V : Valuation τ sig (Elt F)) : st4 V (main_v17 : DevRef τ sig) = ReadP.val_main_v17 (F := F) (V (main_arg0 : DevRef τ sig)) := (opsC1_keep (st3 V) main_v17 (by decide)).trans (st3_v17 V)
theorem st4_v109 (V : Valuation τ sig (Elt F)) : st4 V (main_v109 : DevRef τ sig) = ReadP.val_main_v109 (F := F) (V (main_arg0 : DevRef τ sig)) (V (main_arg1 : DevRef τ sig)) (V (main_arg2 : DevRef τ sig)) := C1_v109 (st3 V) _ _ _ (st3_v15 V) (st3_v17 V) (st3_v53 V) (st3_v54 V)
theorem st4_v113 (V : Valuation τ sig (Elt F)) : st4 V (main_v113 : DevRef τ sig) = ReadP.val_main_v113 (F := F) (V (main_arg0 : DevRef τ sig)) := C1_v113 (st3 V) _ (V (main_arg1 : DevRef τ sig)) (V (main_arg2 : DevRef τ sig)) (st3_v15 V) (st3_v17 V) (st3_v53 V) (st3_v54 V)
theorem st4_v114 (V : Valuation τ sig (Elt F)) : st4 V (main_v114 : DevRef τ sig) = ReadP.val_main_v114 (F := F) (V (main_arg0 : DevRef τ sig)) (V (main_arg1 : DevRef τ sig)) (V (main_arg2 : DevRef τ sig)) := C1_v114 (st3 V) _ _ _ (st3_v15 V) (st3_v17 V) (st3_v53 V) (st3_v54 V)
theorem st5_v124 (V : Valuation τ sig (Elt F)) : st5 V (main_v124 : DevRef τ sig) = ReadP.val_main_v124 (F := F) (V (main_arg0 : DevRef τ sig)) (V (main_arg1 : DevRef τ sig)) (V (main_arg2 : DevRef τ sig)) := C2_v124 (st4 V) _ _ _ (st4_v15 V) (st4_v17 V) (st4_v109 V) (st4_v113 V) (st4_v114 V)
theorem st6_v148 (V : Valuation τ sig (Elt F)) : st6 V (main_v148 : DevRef τ sig) = ReadP.val_main_v148 (F := F) (V (main_arg0 : DevRef τ sig)) (V (main_arg1 : DevRef τ sig)) (V (main_arg2 : DevRef τ sig)) (V (main_arg3 : DevRef τ sig)) (V (main_arg4 : DevRef τ sig)) :=
  (D_v148 (st5 V) _ _ _ (st5_v124 V)).trans (by rw [st5_keep V main_arg3 (by decide), st5_keep V main_arg4 (by decide)])
theorem st7_v158 (V : Valuation τ sig (Elt F)) : st7 V (main_v158 : DevRef τ sig) = ReadP.val_main_v158 (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) :=
  (E_v158 (st6 V) _ _ _ _ _ (st6_v148 V)).trans (by
    rw [st6_keep V main_arg5 (by decide), st6_keep V main_arg6 (by decide), st6_keep V main_arg7 (by decide), st6_keep V main_arg8 (by decide)])

/-- The line leaves the result buffer at the last stage's value of the arguments' contents. -/
theorem ops_v158 (V : Valuation τ sig (Elt F)) : after ops V (main_v158 : DevRef τ sig) = ReadP.val_main_v158 (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [after_ops]; exact st7_v158 V

/-- The line writes no argument. -/
theorem ops_keep (V : Valuation τ sig (Elt F)) (r : Ref sig .tc) (h : ((((((r ∉ opsA_W) ∧ r ∉ opsB_W) ∧ r ∉ opsC0_W) ∧ r ∉ opsC1_W) ∧ r ∉ opsC2_W) ∧ r ∉ opsD_W) ∧ r ∉ opsE_W) : after ops V (Proc.devRef .tc r) = V (Proc.devRef .tc r) := by
  rw [after_ops]; exact st7_keep V r h

/-- Every weakly fair execution of the reference terminates with its result buffer at the last stage's value of the arguments'
    launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v158) = ReadP.val_main_v158 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v158).trans (ops_v158 _),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide))⟩)
    (run_seq scopedRefs_eq scopedSems_eq defs main (fun _ => ops) main_eq (fun _ => ops_sub) m ρ
      (fun _ => List.forall_iff_forall_mem.mp ops_fresh))

end Cert.ReferenceIdeal.RefRun

end
-- ==== Proof.RefSoftmax.lean ====
import proofs.«151048_j12266426597625_1_alg».proof.Proof.ReadP
import proofs.«151048_j12266426597625_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.ReadP Cert.ConvLnFfn Idealize.ShloMosaic Idealize.ShloMosaic.ValueIdx

section Stages
variable (x0 : (⟨S2048x16x1024, .f32⟩ : BufTy).Contents (Elt Ideal)) (x1 : (⟨S240x1024, .f32⟩ : BufTy).Contents (Elt Ideal))
  (x2 : (⟨S240, .f32⟩ : BufTy).Contents (Elt Ideal))

/-- The projection at (t, b, j): row x0[t, b, ·] against row j of x1. -/
theorem v0_at (t : Fin 2048) (b : Fin 16) (j : Fin 240) :
    val_main_v0 (F := Ideal) x0 x1 (ix3 t b j) = ∑ c : Fin 1024, x0 (ix3 t b c) * x1 (ix2 j c) := by
  rw [val_main_v0_apply]
  refine Finset.sum_congr rfl fun c _ => ?_
  have el : lidx_main_v0 (ix3 t b j) c = ix3 t b c := by
    funext a; match a with | ⟨0, _⟩ => rfl | ⟨1, _⟩ => rfl | ⟨2, _⟩ => rfl
  have er : ridx_main_v0 (ix3 t b j) c = ix2 j c := by
    funext a; match a with | ⟨0, _⟩ => rfl | ⟨1, _⟩ => rfl
  rw [el, er]

/-- The bias broadcast over the positions reads entry j. -/
theorem v2_at (t : Fin 2048) (b : Fin 16) (j : Fin 240) :
    val_main_v2 (F := Ideal) x2 (ix3 t b j) = x2 (ix1 j) := by
  rw [val_main_v2_apply, val_main_v1_apply]
  exact congrArg x2 (by funext a; match a with | ⟨0, _⟩ => rfl)

/-- The biased projection at (t, b, j). -/
theorem v3_at (t : Fin 2048) (b : Fin 16) (j : Fin 240) :
    val_main_v3 (F := Ideal) x0 x1 x2 (ix3 t b j) = (∑ c : Fin 1024, x0 (ix3 t b c) * x1 (ix2 j c)) + x2 (ix1 j) := by
  rw [val_main_v3_apply, v0_at, v2_at]
  rfl

/-- Split into heads and taps, entry (h, k) is row 15 h + k: the logit. -/
theorem v4_at (t : Fin 2048) (b : Fin 16) (h : Fin 16) (k : Fin 15) :
    val_main_v4 (F := Ideal) x0 x1 x2 (ix4 t b h k)
      = logit (fun c => x0 (ix3 t b c)) (arr2 (n0 := 240) (n1 := 1024) x1) (arr1 (n := 240) x2) h k := by
  rw [val_main_v4_apply]
  have ht := t.isLt; have hb := b.isLt; have hh := h.isLt; have hkk := k.isLt
  have e : idx_main_v4 (ix4 t b h k) = ix3 t b (hk h k) := by
    funext a
    match a with
    | ⟨0, _⟩ => exact Fin.ext (show (((t.val * 16 + b.val) * 16 + h.val) * 15 + k.val) / 3840 = t.val by omega)
    | ⟨1, _⟩ => exact Fin.ext (show (((t.val * 16 + b.val) * 16 + h.val) * 15 + k.val) / 240 % 16 = b.val by omega)
    | ⟨2, _⟩ => exact Fin.ext (show (((t.val * 16 + b.val) * 16 + h.val) * 15 + k.val) % 240 = h.val * 15 + k.val by omega)
  rw [e, v3_at]
  rfl

/-- The reduction's shape fact in the form that names the inserted index. -/
theorem reduces_d3 : S2048x16x16x15.Reduces [3] S2048x16x16 := by decide

/-- The running maximum over the taps, from the −∞ word. -/
theorem v5_at (t : Fin 2048) (b : Fin 16) (h : Fin 16) :
    val_main_v5 (F := Ideal) x0 x1 x2 (ix3 t b h)
      = (Finset.univ : Finset (Fin 15)).fold max negInfW (fun k => val_main_v4 (F := Ideal) x0 x1 x2 (ix4 t b h k)) := by
  unfold val_main_v5
  refine (Host.reduce_eq_fold_single (FloatOps.maximumf (F := Ideal) (φ := .f32)) (val_main_v4 (F := Ideal) x0 x1 x2)
    (val_main_cst (F := Ideal)) Gen.reducesTo_S2048x16x16x15_S2048x16x16_d3 reduces_d3 Gen.h_S_ (ix3 t b h)).trans ?_
  have e : (val_main_v4 (F := Ideal) x0 x1 x2 ∘ reduces_d3.lift (ix3 t b h))
      = fun k : Fin 15 => val_main_v4 (F := Ideal) x0 x1 x2 (ix4 t b h k) := by
    funext k
    exact congrArg (val_main_v4 (F := Ideal) x0 x1 x2) (by
      funext a; match a with | ⟨0, _⟩ => rfl | ⟨1, _⟩ => rfl | ⟨2, _⟩ => rfl | ⟨3, _⟩ => rfl)
  exact congrArg (fun f => (Finset.univ : Finset (Fin 15)).fold max negInfW f) e

/-- The maximum against the −∞ splat changes nothing: the fold already starts from that word. -/
theorem v7_at (t : Fin 2048) (b : Fin 16) (h : Fin 16) :
    val_main_v7 (F := Ideal) x0 x1 x2 (ix3 t b h)
      = lmax (fun c => x0 (ix3 t b c)) (arr2 (n0 := 240) (n1 := 1024) x1) (arr1 (n := 240) x2) h := by
  rw [val_main_v7_apply, val_main_v6_apply, val_main_cst_0_apply, v5_at]
  show max negInfW _ = _
  rw [max_eq_right ((Finset.le_fold_max _).2 (Or.inl le_rfl))]
  unfold lmax
  exact congrArg (fun f => (Finset.univ : Finset (Fin 15)).fold max negInfW f) (funext fun k => v4_at x0 x1 x2 t b h k)

/-- The maximum broadcast back over the taps. -/
theorem v9_at (t : Fin 2048) (b : Fin 16) (h : Fin 16) (k : Fin 15) :
    val_main_v9 (F := Ideal) x0 x1 x2 (ix4 t b h k)
      = lmax (fun c => x0 (ix3 t b c)) (arr2 (n0 := 240) (n1 := 1024) x1) (arr1 (n := 240) x2) h := by
  rw [val_main_v9_apply, val_main_v8_apply]
  have e : idx_main_v8 (idx_main_v9 (ix4 t b h k)) = ix3 t b h := by
    funext a; match a with | ⟨0, _⟩ => rfl | ⟨1, _⟩ => rfl | ⟨2, _⟩ => rfl
  rw [e, v7_at]

/-- The exponential of the logit less the maximum. -/
theorem v11_at (t : Fin 2048) (b : Fin 16) (h : Fin 16) (k : Fin 15) :
    val_main_v11 (F := Ideal) x0 x1 x2 (ix4 t b h k)
      = ex (fun c => x0 (ix3 t b c)) (arr2 (n0 := 240) (n1 := 1024) x1) (arr1 (n := 240) x2) h k := by
  rw [val_main_v11_apply, val_main_v10_apply, v4_at, v9_at]
  rfl

/-- The sum of the exponentials over the taps, from the zero word. -/
theorem v12_at (t : Fin 2048) (b : Fin 16) (h : Fin 16) :
    val_main_v12 (F := Ideal) x0 x1 x2 (ix3 t b h)
      = esum (fun c => x0 (ix3 t b c)) (arr2 (n0 := 240) (n1 := 1024) x1) (arr1 (n := 240) x2) h := by
  rw [val_main_v12_apply, val_main_cst_1_apply, Ideal.ofBits_def, Ideal.ofBits_zero_f32, zero_add]
  unfold esum
  refine Finset.sum_congr rfl fun k _ => ?_
  have e : idx_main_v12 (ix3 t b h) k = ix4 t b h k := by
    funext a; match a with | ⟨0, _⟩ => rfl | ⟨1, _⟩ => rfl | ⟨2, _⟩ => rfl | ⟨3, _⟩ => rfl
  rw [e, v11_at]

/-- The sum broadcast back over the taps. -/
theorem v14_at (t : Fin 2048) (b : Fin 16) (h : Fin 16) (k : Fin 15) :
    val_main_v14 (F := Ideal) x0 x1 x2 (ix4 t b h k)
      = esum (fun c => x0 (ix3 t b c)) (arr2 (n0 := 240) (n1 := 1024) x1) (arr1 (n := 240) x2) h := by
  rw [val_main_v14_apply, val_main_v13_apply]
  have e : idx_main_v13 (idx_main_v14 (ix4 t b h k)) = ix3 t b h := by
    funext a; match a with | ⟨0, _⟩ => rfl | ⟨1, _⟩ => rfl | ⟨2, _⟩ => rfl
  rw [e, v12_at]

end Stages

/-- The reference's softmax weights at (t, b, h, k): the softmax over the taps of the logits of position (t, b). -/
theorem softmax_apply (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (k : Fin 15) :
    val_main_v15 (F := Ideal) x0 x1 x2 (ix4 t b h k)
      = wsm (fun c => x0 (ix3 t b c)) (arr2 (n0 := 240) (n1 := 1024) x1) (arr1 (n := 240) x2) h k := by
  rw [val_main_v15_apply, v11_at, v14_at]
  rfl

end Cert.ReferenceIdeal.RefValue

end
-- ==== Proof.RefConv.lean ====
import proofs.«151048_j12266426597625_1_alg».proof.Proof.ReadP
import proofs.«151048_j12266426597625_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

noncomputable section

namespace Cert.ReferenceIdeal.RefValue

open Cert.ReferenceIdeal Cert.ReferenceIdeal.ReadP Cert.ConvLnFfn Idealize.ShloMosaic Idealize.ShloMosaic.ValueIdx

/-- The input regrouped by heads: head h, lane r of a position is channel 64 h + r. -/
theorem v16_at (x0 : (⟨S2048x16x1024, .f32⟩ : BufTy).Contents (Elt Ideal)) (t : Fin 2048) (b : Fin 16) (h : Fin 16) (r : Fin 64) (c : Fin 1024)
    (hc : c.val = h.val * 64 + r.val) :
    val_main_v16 (F := Ideal) x0 (ix4 t b h r) = x0 (ix3 t b c) := by
  rw [val_main_v16_apply]
  refine congrArg x0 (funext fun a => ?_)
  have ht := t.isLt; have hb := b.isLt; have hh := h.isLt; have hr := r.isLt
  match a with
  | ⟨0, _⟩ => exact Fin.ext (by show (((t.val * 16 + b.val) * 16 + h.val) * 64 + r.val) / 16384 = t.val; omega)
  | ⟨1, _⟩ => exact Fin.ext (by show (((t.val * 16 + b.val) * 16 + h.val) * 64 + r.val) / 1024 % 16 = b.val; omega)
  | ⟨2, _⟩ => exact Fin.ext (by show (((t.val * 16 + b.val) * 16 + h.val) * 64 + r.val) % 1024 = c.val; omega)

/-- The time axis padded with fourteen rows in front, read at a row: the padded column of the channel. -/
theorem v17_at (x0 : (⟨S2048x16x1024, .f32⟩ : BufTy).Contents (Elt Ideal)) (t' : Fin 2062) (b : Fin 16) (h : Fin 16) (r : Fin 64) (c : Fin 1024)
    (hc : c.val = h.val * 64 + r.val) :
    val_main_v17 (F := Ideal) x0 (ix4 t' b h r) = padded (fun t'' => x0 (ix3 t'' b c)) t'.val := by
  have ht := t'.isLt
  unfold padded val_main_v17
  by_cases hin : 14 ≤ t'.val ∧ t'.val < 2062
  · rw [dif_pos hin]
    refine (pad_apply_of_inside _ _ _ _ _ _ _ (ix4 t' b h r) (ix4 (⟨t'.val - 14, by omega⟩ : Fin 2048) b h r) (fun a => ?_)).trans
      (v16_at x0 _ b h r c hc)
    match a with
    | ⟨0, _⟩ => show t'.val = 14 + (t'.val - 14) * (0 + 1); omega
    | ⟨1, _⟩ => show b.val = 0 + b.val * (0 + 1); omega
    | ⟨2, _⟩ => show h.val = 0 + h.val * (0 + 1); omega
    | ⟨3, _⟩ => show r.val = 0 + r.val * (0 + 1); omega
  · rw [dif_neg hin]
    refine (pad_apply_of_not_inside _ _ _ _ _ _ _ (ix4 t' b h r) (⟨0, by decide⟩ : Fin 4) (fun hh => hin ⟨?_, ht⟩)).trans rfl
    exact hh.1

/-- Tap 0: the weight spread over the head's 64 lanes. -/
theorem w0_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) :
    val_main_v23 (F := Ideal) x0 x1 x2 (ix4 t b h r) = val_main_v15 (F := Ideal) x0 x1 x2 (ix4 t b h (0 : Fin 15)) := by
  rw [val_main_v23_apply, val_main_v21_apply, val_main_v20_apply, val_main_v19_apply]
  refine congrArg _ (funext fun a => ?_)
  have ht := t.isLt; have hb := b.isLt; have hh := h.isLt
  match a with
  | ⟨0, _⟩ => exact Fin.ext (by show ((t.val * 16 + b.val) * 16 + h.val) / 256 = t.val; omega)
  | ⟨1, _⟩ => exact Fin.ext (by show ((t.val * 16 + b.val) * 16 + h.val) / 16 % 16 = b.val; omega)
  | ⟨2, _⟩ => exact Fin.ext (by show ((t.val * 16 + b.val) * 16 + h.val) / 1 % 16 = h.val; omega)
  | ⟨3, _⟩ => rfl

/-- Tap 0: the padded rows 0 … 2047, read at row t: padded row t + 0. -/
theorem r0_at (x0 : (⟨S2048x16x1024, .f32⟩ : BufTy).Contents (Elt Ideal)) (t : Fin 2048) (b : Fin 16) (h : Fin 16) (r : Fin 64) (c : Fin 1024)
    (hc : c.val = h.val * 64 + r.val) :
    val_main_v22 (F := Ideal) x0 (ix4 t b h r) = padded (fun t' => x0 (ix3 t' b c)) (t.val + (0 : Fin 15).val) := by
  rw [val_main_v22_apply]
  refine (congrArg _ (funext fun a => ?_)).trans (v17_at x0 (⟨t.val + 0, by have := t.isLt; omega⟩ : Fin 2062) b h r c hc)
  match a with
  | ⟨0, _⟩ => exact Fin.ext (rfl)
  | ⟨1, _⟩ => rfl
  | ⟨2, _⟩ => rfl
  | ⟨3, _⟩ => rfl

/-- Tap 1: the weight spread over the head's 64 lanes. -/
theorem w1_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) :
    val_main_v30 (F := Ideal) x0 x1 x2 (ix4 t b h r) = val_main_v15 (F := Ideal) x0 x1 x2 (ix4 t b h (1 : Fin 15)) := by
  rw [val_main_v30_apply, val_main_v28_apply, val_main_v27_apply, val_main_v26_apply]
  refine congrArg _ (funext fun a => ?_)
  have ht := t.isLt; have hb := b.isLt; have hh := h.isLt
  match a with
  | ⟨0, _⟩ => exact Fin.ext (by show ((t.val * 16 + b.val) * 16 + h.val) / 256 = t.val; omega)
  | ⟨1, _⟩ => exact Fin.ext (by show ((t.val * 16 + b.val) * 16 + h.val) / 16 % 16 = b.val; omega)
  | ⟨2, _⟩ => exact Fin.ext (by show ((t.val * 16 + b.val) * 16 + h.val) / 1 % 16 = h.val; omega)
  | ⟨3, _⟩ => rfl

/-- Tap 1: the padded rows 1 … 2048, read at row t: padded row t + 1. -/
theorem r1_at (x0 : (⟨S2048x16x1024, .f32⟩ : BufTy).Contents (Elt Ideal)) (t : Fin 2048) (b : Fin 16) (h : Fin 16) (r : Fin 64) (c : Fin 1024)
    (hc : c.val = h.val * 64 + r.val) :
    val_main_v29 (F := Ideal) x0 (ix4 t b h r) = padded (fun t' => x0 (ix3 t' b c)) (t.val + (1 : Fin 15).val) := by
  rw [val_main_v29_apply]
  refine (congrArg _ (funext fun a => ?_)).trans (v17_at x0 (⟨t.val + 1, by have := t.isLt; omega⟩ : Fin 2062) b h r c hc)
  match a with
  | ⟨0, _⟩ => exact Fin.ext (Nat.add_comm _ _)
  | ⟨1, _⟩ => rfl
  | ⟨2, _⟩ => rfl
  | ⟨3, _⟩ => rfl

/-- Tap 2: the weight spread over the head's 64 lanes. -/
theorem w2_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) :
    val_main_v37 (F := Ideal) x0 x1 x2 (ix4 t b h r) = val_main_v15 (F := Ideal) x0 x1 x2 (ix4 t b h (2 : Fin 15)) := by
  rw [val_main_v37_apply, val_main_v35_apply, val_main_v34_apply, val_main_v33_apply]
  refine congrArg _ (funext fun a => ?_)
  have ht := t.isLt; have hb := b.isLt; have hh := h.isLt
  match a with
  | ⟨0, _⟩ => exact Fin.ext (by show ((t.val * 16 + b.val) * 16 + h.val) / 256 = t.val; omega)
  | ⟨1, _⟩ => exact Fin.ext (by show ((t.val * 16 + b.val) * 16 + h.val) / 16 % 16 = b.val; omega)
  | ⟨2, _⟩ => exact Fin.ext (by show ((t.val * 16 + b.val) * 16 + h.val) / 1 % 16 = h.val; omega)
  | ⟨3, _⟩ => rfl

/-- Tap 2: the padded rows 2 … 2049, read at row t: padded row t + 2. -/
theorem r2_at (x0 : (⟨S2048x16x1024, .f32⟩ : BufTy).Contents (Elt Ideal)) (t : Fin 2048) (b : Fin 16) (h : Fin 16) (r : Fin 64) (c : Fin 1024)
    (hc : c.val = h.val * 64 + r.val) :
    val_main_v36 (F := Ideal) x0 (ix4 t b h r) = padded (fun t' => x0 (ix3 t' b c)) (t.val + (2 : Fin 15).val) := by
  rw [val_main_v36_apply]
  refine (congrArg _ (funext fun a => ?_)).trans (v17_at x0 (⟨t.val + 2, by have := t.isLt; omega⟩ : Fin 2062) b h r c hc)
  match a with
  | ⟨0, _⟩ => exact Fin.ext (Nat.add_comm _ _)
  | ⟨1, _⟩ => rfl
  | ⟨2, _⟩ => rfl
  | ⟨3, _⟩ => rfl

/-- Tap 3: the weight spread over the head's 64 lanes. -/
theorem w3_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) :
    val_main_v44 (F := Ideal) x0 x1 x2 (ix4 t b h r) = val_main_v15 (F := Ideal) x0 x1 x2 (ix4 t b h (3 : Fin 15)) := by
  rw [val_main_v44_apply, val_main_v42_apply, val_main_v41_apply, val_main_v40_apply]
  refine congrArg _ (funext fun a => ?_)
  have ht := t.isLt; have hb := b.isLt; have hh := h.isLt
  match a with
  | ⟨0, _⟩ => exact Fin.ext (by show ((t.val * 16 + b.val) * 16 + h.val) / 256 = t.val; omega)
  | ⟨1, _⟩ => exact Fin.ext (by show ((t.val * 16 + b.val) * 16 + h.val) / 16 % 16 = b.val; omega)
  | ⟨2, _⟩ => exact Fin.ext (by show ((t.val * 16 + b.val) * 16 + h.val) / 1 % 16 = h.val; omega)
  | ⟨3, _⟩ => rfl

/-- Tap 3: the padded rows 3 … 2050, read at row t: padded row t + 3. -/
theorem r3_at (x0 : (⟨S2048x16x1024, .f32⟩ : BufTy).Contents (Elt Ideal)) (t : Fin 2048) (b : Fin 16) (h : Fin 16) (r : Fin 64) (c : Fin 1024)
    (hc : c.val = h.val * 64 + r.val) :
    val_main_v43 (F := Ideal) x0 (ix4 t b h r) = padded (fun t' => x0 (ix3 t' b c)) (t.val + (3 : Fin 15).val) := by
  rw [val_main_v43_apply]
  refine (congrArg _ (funext fun a => ?_)).trans (v17_at x0 (⟨t.val + 3, by have := t.isLt; omega⟩ : Fin 2062) b h r c hc)
  match a with
  | ⟨0, _⟩ => exact Fin.ext (Nat.add_comm _ _)
  | ⟨1, _⟩ => rfl
  | ⟨2, _⟩ => rfl
  | ⟨3, _⟩ => rfl

/-- Tap 4: the weight spread over the head's 64 lanes. -/
theorem w4_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) :
    val_main_v51 (F := Ideal) x0 x1 x2 (ix4 t b h r) = val_main_v15 (F := Ideal) x0 x1 x2 (ix4 t b h (4 : Fin 15)) := by
  rw [val_main_v51_apply, val_main_v49_apply, val_main_v48_apply, val_main_v47_apply]
  refine congrArg _ (funext fun a => ?_)
  have ht := t.isLt; have hb := b.isLt; have hh := h.isLt
  match a with
  | ⟨0, _⟩ => exact Fin.ext (by show ((t.val * 16 + b.val) * 16 + h.val) / 256 = t.val; omega)
  | ⟨1, _⟩ => exact Fin.ext (by show ((t.val * 16 + b.val) * 16 + h.val) / 16 % 16 = b.val; omega)
  | ⟨2, _⟩ => exact Fin.ext (by show ((t.val * 16 + b.val) * 16 + h.val) / 1 % 16 = h.val; omega)
  | ⟨3, _⟩ => rfl

/-- Tap 4: the padded rows 4 … 2051, read at row t: padded row t + 4. -/
theorem r4_at (x0 : (⟨S2048x16x1024, .f32⟩ : BufTy).Contents (Elt Ideal)) (t : Fin 2048) (b : Fin 16) (h : Fin 16) (r : Fin 64) (c : Fin 1024)
    (hc : c.val = h.val * 64 + r.val) :
    val_main_v50 (F := Ideal) x0 (ix4 t b h r) = padded (fun t' => x0 (ix3 t' b c)) (t.val + (4 : Fin 15).val) := by
  rw [val_main_v50_apply]
  refine (congrArg _ (funext fun a => ?_)).trans (v17_at x0 (⟨t.val + 4, by have := t.isLt; omega⟩ : Fin 2062) b h r c hc)
  match a with
  | ⟨0, _⟩ => exact Fin.ext (Nat.add_comm _ _)
  | ⟨1, _⟩ => rfl
  | ⟨2, _⟩ => rfl
  | ⟨3, _⟩ => rfl

/-- Tap 5: the weight spread over the head's 64 lanes. -/
theorem w5_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) :
    val_main_v58 (F := Ideal) x0 x1 x2 (ix4 t b h r) = val_main_v15 (F := Ideal) x0 x1 x2 (ix4 t b h (5 : Fin 15)) := by
  rw [val_main_v58_apply, val_main_v56_apply, val_main_v55_apply, val_main_v54_apply]
  refine congrArg _ (funext fun a => ?_)
  have ht := t.isLt; have hb := b.isLt; have hh := h.isLt
  match a with
  | ⟨0, _⟩ => exact Fin.ext (by show ((t.val * 16 + b.val) * 16 + h.val) / 256 = t.val; omega)
  | ⟨1, _⟩ => exact Fin.ext (by show ((t.val * 16 + b.val) * 16 + h.val) / 16 % 16 = b.val; omega)
  | ⟨2, _⟩ => exact Fin.ext (by show ((t.val * 16 + b.val) * 16 + h.val) / 1 % 16 = h.val; omega)
  | ⟨3, _⟩ => rfl

/-- Tap 5: the padded rows 5 … 2052, read at row t: padded row t + 5. -/
theorem r5_at (x0 : (⟨S2048x16x1024, .f32⟩ : BufTy).Contents (Elt Ideal)) (t : Fin 2048) (b : Fin 16) (h : Fin 16) (r : Fin 64) (c : Fin 1024)
    (hc : c.val = h.val * 64 + r.val) :
    val_main_v57 (F := Ideal) x0 (ix4 t b h r) = padded (fun t' => x0 (ix3 t' b c)) (t.val + (5 : Fin 15).val) := by
  rw [val_main_v57_apply]
  refine (congrArg _ (funext fun a => ?_)).trans (v17_at x0 (⟨t.val + 5, by have := t.isLt; omega⟩ : Fin 2062) b h r c hc)
  match a with
  | ⟨0, _⟩ => exact Fin.ext (Nat.add_comm _ _)
  | ⟨1, _⟩ => rfl
  | ⟨2, _⟩ => rfl
  | ⟨3, _⟩ => rfl

/-- Tap 6: the weight spread over the head's 64 lanes. -/
theorem w6_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) :
    val_main_v65 (F := Ideal) x0 x1 x2 (ix4 t b h r) = val_main_v15 (F := Ideal) x0 x1 x2 (ix4 t b h (6 : Fin 15)) := by
  rw [val_main_v65_apply, val_main_v63_apply, val_main_v62_apply, val_main_v61_apply]
  refine congrArg _ (funext fun a => ?_)
  have ht := t.isLt; have hb := b.isLt; have hh := h.isLt
  match a with
  | ⟨0, _⟩ => exact Fin.ext (by show ((t.val * 16 + b.val) * 16 + h.val) / 256 = t.val; omega)
  | ⟨1, _⟩ => exact Fin.ext (by show ((t.val * 16 + b.val) * 16 + h.val) / 16 % 16 = b.val; omega)
  | ⟨2, _⟩ => exact Fin.ext (by show ((t.val * 16 + b.val) * 16 + h.val) / 1 % 16 = h.val; omega)
  | ⟨3, _⟩ => rfl

/-- Tap 6: the padded rows 6 … 2053, read at row t: padded row t + 6. -/
theorem r6_at (x0 : (⟨S2048x16x1024, .f32⟩ : BufTy).Contents (Elt Ideal)) (t : Fin 2048) (b : Fin 16) (h : Fin 16) (r : Fin 64) (c : Fin 1024)
    (hc : c.val = h.val * 64 + r.val) :
    val_main_v64 (F := Ideal) x0 (ix4 t b h r) = padded (fun t' => x0 (ix3 t' b c)) (t.val + (6 : Fin 15).val) := by
  rw [val_main_v64_apply]
  refine (congrArg _ (funext fun a => ?_)).trans (v17_at x0 (⟨t.val + 6, by have := t.isLt; omega⟩ : Fin 2062) b h r c hc)
  match a with
  | ⟨0, _⟩ => exact Fin.ext (Nat.add_comm _ _)
  | ⟨1, _⟩ => rfl
  | ⟨2, _⟩ => rfl
  | ⟨3, _⟩ => rfl

/-- Tap 7: the weight spread over the head's 64 lanes. -/
theorem w7_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) :
    val_main_v72 (F := Ideal) x0 x1 x2 (ix4 t b h r) = val_main_v15 (F := Ideal) x0 x1 x2 (ix4 t b h (7 : Fin 15)) := by
  rw [val_main_v72_apply, val_main_v70_apply, val_main_v69_apply, val_main_v68_apply]
  refine congrArg _ (funext fun a => ?_)
  have ht := t.isLt; have hb := b.isLt; have hh := h.isLt
  match a with
  | ⟨0, _⟩ => exact Fin.ext (by show ((t.val * 16 + b.val) * 16 + h.val) / 256 = t.val; omega)
  | ⟨1, _⟩ => exact Fin.ext (by show ((t.val * 16 + b.val) * 16 + h.val) / 16 % 16 = b.val; omega)
  | ⟨2, _⟩ => exact Fin.ext (by show ((t.val * 16 + b.val) * 16 + h.val) / 1 % 16 = h.val; omega)
  | ⟨3, _⟩ => rfl

/-- Tap 7: the padded rows 7 … 2054, read at row t: padded row t + 7. -/
theorem r7_at (x0 : (⟨S2048x16x1024, .f32⟩ : BufTy).Contents (Elt Ideal)) (t : Fin 2048) (b : Fin 16) (h : Fin 16) (r : Fin 64) (c : Fin 1024)
    (hc : c.val = h.val * 64 + r.val) :
    val_main_v71 (F := Ideal) x0 (ix4 t b h r) = padded (fun t' => x0 (ix3 t' b c)) (t.val + (7 : Fin 15).val) := by
  rw [val_main_v71_apply]
  refine (congrArg _ (funext fun a => ?_)).trans (v17_at x0 (⟨t.val + 7, by have := t.isLt; omega⟩ : Fin 2062) b h r c hc)
  match a with
  | ⟨0, _⟩ => exact Fin.ext (Nat.add_comm _ _)
  | ⟨1, _⟩ => rfl
  | ⟨2, _⟩ => rfl
  | ⟨3, _⟩ => rfl

/-- Tap 8: the weight spread over the head's 64 lanes. -/
theorem w8_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) :
    val_main_v79 (F := Ideal) x0 x1 x2 (ix4 t b h r) = val_main_v15 (F := Ideal) x0 x1 x2 (ix4 t b h (8 : Fin 15)) := by
  rw [val_main_v79_apply, val_main_v77_apply, val_main_v76_apply, val_main_v75_apply]
  refine congrArg _ (funext fun a => ?_)
  have ht := t.isLt; have hb := b.isLt; have hh := h.isLt
  match a with
  | ⟨0, _⟩ => exact Fin.ext (by show ((t.val * 16 + b.val) * 16 + h.val) / 256 = t.val; omega)
  | ⟨1, _⟩ => exact Fin.ext (by show ((t.val * 16 + b.val) * 16 + h.val) / 16 % 16 = b.val; omega)
  | ⟨2, _⟩ => exact Fin.ext (by show ((t.val * 16 + b.val) * 16 + h.val) / 1 % 16 = h.val; omega)
  | ⟨3, _⟩ => rfl

/-- Tap 8: the padded rows 8 … 2055, read at row t: padded row t + 8. -/
theorem r8_at (x0 : (⟨S2048x16x1024, .f32⟩ : BufTy).Contents (Elt Ideal)) (t : Fin 2048) (b : Fin 16) (h : Fin 16) (r : Fin 64) (c : Fin 1024)
    (hc : c.val = h.val * 64 + r.val) :
    val_main_v78 (F := Ideal) x0 (ix4 t b h r) = padded (fun t' => x0 (ix3 t' b c)) (t.val + (8 : Fin 15).val) := by
  rw [val_main_v78_apply]
  refine (congrArg _ (funext fun a => ?_)).trans (v17_at x0 (⟨t.val + 8, by have := t.isLt; omega⟩ : Fin 2062) b h r c hc)
  match a with
  | ⟨0, _⟩ => exact Fin.ext (Nat.add_comm _ _)
  | ⟨1, _⟩ => rfl
  | ⟨2, _⟩ => rfl
  | ⟨3, _⟩ => rfl

/-- Tap 9: the weight spread over the head's 64 lanes. -/
theorem w9_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) :
    val_main_v86 (F := Ideal) x0 x1 x2 (ix4 t b h r) = val_main_v15 (F := Ideal) x0 x1 x2 (ix4 t b h (9 : Fin 15)) := by
  rw [val_main_v86_apply, val_main_v84_apply, val_main_v83_apply, val_main_v82_apply]
  refine congrArg _ (funext fun a => ?_)
  have ht := t.isLt; have hb := b.isLt; have hh := h.isLt
  match a with
  | ⟨0, _⟩ => exact Fin.ext (by show ((t.val * 16 + b.val) * 16 + h.val) / 256 = t.val; omega)
  | ⟨1, _⟩ => exact Fin.ext (by show ((t.val * 16 + b.val) * 16 + h.val) / 16 % 16 = b.val; omega)
  | ⟨2, _⟩ => exact Fin.ext (by show ((t.val * 16 + b.val) * 16 + h.val) / 1 % 16 = h.val; omega)
  | ⟨3, _⟩ => rfl

/-- Tap 9: the padded rows 9 … 2056, read at row t: padded row t + 9. -/
theorem r9_at (x0 : (⟨S2048x16x1024, .f32⟩ : BufTy).Contents (Elt Ideal)) (t : Fin 2048) (b : Fin 16) (h : Fin 16) (r : Fin 64) (c : Fin 1024)
    (hc : c.val = h.val * 64 + r.val) :
    val_main_v85 (F := Ideal) x0 (ix4 t b h r) = padded (fun t' => x0 (ix3 t' b c)) (t.val + (9 : Fin 15).val) := by
  rw [val_main_v85_apply]
  refine (congrArg _ (funext fun a => ?_)).trans (v17_at x0 (⟨t.val + 9, by have := t.isLt; omega⟩ : Fin 2062) b h r c hc)
  match a with
  | ⟨0, _⟩ => exact Fin.ext (Nat.add_comm _ _)
  | ⟨1, _⟩ => rfl
  | ⟨2, _⟩ => rfl
  | ⟨3, _⟩ => rfl

/-- Tap 10: the weight spread over the head's 64 lanes. -/
theorem w10_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) :
    val_main_v93 (F := Ideal) x0 x1 x2 (ix4 t b h r) = val_main_v15 (F := Ideal) x0 x1 x2 (ix4 t b h (10 : Fin 15)) := by
  rw [val_main_v93_apply, val_main_v91_apply, val_main_v90_apply, val_main_v89_apply]
  refine congrArg _ (funext fun a => ?_)
  have ht := t.isLt; have hb := b.isLt; have hh := h.isLt
  match a with
  | ⟨0, _⟩ => exact Fin.ext (by show ((t.val * 16 + b.val) * 16 + h.val) / 256 = t.val; omega)
  | ⟨1, _⟩ => exact Fin.ext (by show ((t.val * 16 + b.val) * 16 + h.val) / 16 % 16 = b.val; omega)
  | ⟨2, _⟩ => exact Fin.ext (by show ((t.val * 16 + b.val) * 16 + h.val) / 1 % 16 = h.val; omega)
  | ⟨3, _⟩ => rfl

/-- Tap 10: the padded rows 10 … 2057, read at row t: padded row t + 10. -/
theorem r10_at (x0 : (⟨S2048x16x1024, .f32⟩ : BufTy).Contents (Elt Ideal)) (t : Fin 2048) (b : Fin 16) (h : Fin 16) (r : Fin 64) (c : Fin 1024)
    (hc : c.val = h.val * 64 + r.val) :
    val_main_v92 (F := Ideal) x0 (ix4 t b h r) = padded (fun t' => x0 (ix3 t' b c)) (t.val + (10 : Fin 15).val) := by
  rw [val_main_v92_apply]
  refine (congrArg _ (funext fun a => ?_)).trans (v17_at x0 (⟨t.val + 10, by have := t.isLt; omega⟩ : Fin 2062) b h r c hc)
  match a with
  | ⟨0, _⟩ => exact Fin.ext (Nat.add_comm _ _)
  | ⟨1, _⟩ => rfl
  | ⟨2, _⟩ => rfl
  | ⟨3, _⟩ => rfl

/-- Tap 11: the weight spread over the head's 64 lanes. -/
theorem w11_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) :
    val_main_v100 (F := Ideal) x0 x1 x2 (ix4 t b h r) = val_main_v15 (F := Ideal) x0 x1 x2 (ix4 t b h (11 : Fin 15)) := by
  rw [val_main_v100_apply, val_main_v98_apply, val_main_v97_apply, val_main_v96_apply]
  refine congrArg _ (funext fun a => ?_)
  have ht := t.isLt; have hb := b.isLt; have hh := h.isLt
  match a with
  | ⟨0, _⟩ => exact Fin.ext (by show ((t.val * 16 + b.val) * 16 + h.val) / 256 = t.val; omega)
  | ⟨1, _⟩ => exact Fin.ext (by show ((t.val * 16 + b.val) * 16 + h.val) / 16 % 16 = b.val; omega)
  | ⟨2, _⟩ => exact Fin.ext (by show ((t.val * 16 + b.val) * 16 + h.val) / 1 % 16 = h.val; omega)
  | ⟨3, _⟩ => rfl

/-- Tap 11: the padded rows 11 … 2058, read at row t: padded row t + 11. -/
theorem r11_at (x0 : (⟨S2048x16x1024, .f32⟩ : BufTy).Contents (Elt Ideal)) (t : Fin 2048) (b : Fin 16) (h : Fin 16) (r : Fin 64) (c : Fin 1024)
    (hc : c.val = h.val * 64 + r.val) :
    val_main_v99 (F := Ideal) x0 (ix4 t b h r) = padded (fun t' => x0 (ix3 t' b c)) (t.val + (11 : Fin 15).val) := by
  rw [val_main_v99_apply]
  refine (congrArg _ (funext fun a => ?_)).trans (v17_at x0 (⟨t.val + 11, by have := t.isLt; omega⟩ : Fin 2062) b h r c hc)
  match a with
  | ⟨0, _⟩ => exact Fin.ext (Nat.add_comm _ _)
  | ⟨1, _⟩ => rfl
  | ⟨2, _⟩ => rfl
  | ⟨3, _⟩ => rfl

/-- Tap 12: the weight spread over the head's 64 lanes. -/
theorem w12_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) :
    val_main_v107 (F := Ideal) x0 x1 x2 (ix4 t b h r) = val_main_v15 (F := Ideal) x0 x1 x2 (ix4 t b h (12 : Fin 15)) := by
  rw [val_main_v107_apply, val_main_v105_apply, val_main_v104_apply, val_main_v103_apply]
  refine congrArg _ (funext fun a => ?_)
  have ht := t.isLt; have hb := b.isLt; have hh := h.isLt
  match a with
  | ⟨0, _⟩ => exact Fin.ext (by show ((t.val * 16 + b.val) * 16 + h.val) / 256 = t.val; omega)
  | ⟨1, _⟩ => exact Fin.ext (by show ((t.val * 16 + b.val) * 16 + h.val) / 16 % 16 = b.val; omega)
  | ⟨2, _⟩ => exact Fin.ext (by show ((t.val * 16 + b.val) * 16 + h.val) / 1 % 16 = h.val; omega)
  | ⟨3, _⟩ => rfl

/-- Tap 12: the padded rows 12 … 2059, read at row t: padded row t + 12. -/
theorem r12_at (x0 : (⟨S2048x16x1024, .f32⟩ : BufTy).Contents (Elt Ideal)) (t : Fin 2048) (b : Fin 16) (h : Fin 16) (r : Fin 64) (c : Fin 1024)
    (hc : c.val = h.val * 64 + r.val) :
    val_main_v106 (F := Ideal) x0 (ix4 t b h r) = padded (fun t' => x0 (ix3 t' b c)) (t.val + (12 : Fin 15).val) := by
  rw [val_main_v106_apply]
  refine (congrArg _ (funext fun a => ?_)).trans (v17_at x0 (⟨t.val + 12, by have := t.isLt; omega⟩ : Fin 2062) b h r c hc)
  match a with
  | ⟨0, _⟩ => exact Fin.ext (Nat.add_comm _ _)
  | ⟨1, _⟩ => rfl
  | ⟨2, _⟩ => rfl
  | ⟨3, _⟩ => rfl

/-- Tap 13: the weight spread over the head's 64 lanes. -/
theorem w13_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) :
    val_main_v114 (F := Ideal) x0 x1 x2 (ix4 t b h r) = val_main_v15 (F := Ideal) x0 x1 x2 (ix4 t b h (13 : Fin 15)) := by
  rw [val_main_v114_apply, val_main_v112_apply, val_main_v111_apply, val_main_v110_apply]
  refine congrArg _ (funext fun a => ?_)
  have ht := t.isLt; have hb := b.isLt; have hh := h.isLt
  match a with
  | ⟨0, _⟩ => exact Fin.ext (by show ((t.val * 16 + b.val) * 16 + h.val) / 256 = t.val; omega)
  | ⟨1, _⟩ => exact Fin.ext (by show ((t.val * 16 + b.val) * 16 + h.val) / 16 % 16 = b.val; omega)
  | ⟨2, _⟩ => exact Fin.ext (by show ((t.val * 16 + b.val) * 16 + h.val) / 1 % 16 = h.val; omega)
  | ⟨3, _⟩ => rfl

/-- Tap 13: the padded rows 13 … 2060, read at row t: padded row t + 13. -/
theorem r13_at (x0 : (⟨S2048x16x1024, .f32⟩ : BufTy).Contents (Elt Ideal)) (t : Fin 2048) (b : Fin 16) (h : Fin 16) (r : Fin 64) (c : Fin 1024)
    (hc : c.val = h.val * 64 + r.val) :
    val_main_v113 (F := Ideal) x0 (ix4 t b h r) = padded (fun t' => x0 (ix3 t' b c)) (t.val + (13 : Fin 15).val) := by
  rw [val_main_v113_apply]
  refine (congrArg _ (funext fun a => ?_)).trans (v17_at x0 (⟨t.val + 13, by have := t.isLt; omega⟩ : Fin 2062) b h r c hc)
  match a with
  | ⟨0, _⟩ => exact Fin.ext (Nat.add_comm _ _)
  | ⟨1, _⟩ => rfl
  | ⟨2, _⟩ => rfl
  | ⟨3, _⟩ => rfl

/-- Tap 14: the weight spread over the head's 64 lanes. -/
theorem w14_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) :
    val_main_v121 (F := Ideal) x0 x1 x2 (ix4 t b h r) = val_main_v15 (F := Ideal) x0 x1 x2 (ix4 t b h (14 : Fin 15)) := by
  rw [val_main_v121_apply, val_main_v119_apply, val_main_v118_apply, val_main_v117_apply]
  refine congrArg _ (funext fun a => ?_)
  have ht := t.isLt; have hb := b.isLt; have hh := h.isLt
  match a with
  | ⟨0, _⟩ => exact Fin.ext (by show ((t.val * 16 + b.val) * 16 + h.val) / 256 = t.val; omega)
  | ⟨1, _⟩ => exact Fin.ext (by show ((t.val * 16 + b.val) * 16 + h.val) / 16 % 16 = b.val; omega)
  | ⟨2, _⟩ => exact Fin.ext (by show ((t.val * 16 + b.val) * 16 + h.val) / 1 % 16 = h.val; omega)
  | ⟨3, _⟩ => rfl

/-- Tap 14: the padded rows 14 … 2061, read at row t: padded row t + 14. -/
theorem r14_at (x0 : (⟨S2048x16x1024, .f32⟩ : BufTy).Contents (Elt Ideal)) (t : Fin 2048) (b : Fin 16) (h : Fin 16) (r : Fin 64) (c : Fin 1024)
    (hc : c.val = h.val * 64 + r.val) :
    val_main_v120 (F := Ideal) x0 (ix4 t b h r) = padded (fun t' => x0 (ix3 t' b c)) (t.val + (14 : Fin 15).val) := by
  rw [val_main_v120_apply]
  refine (congrArg _ (funext fun a => ?_)).trans (v17_at x0 (⟨t.val + 14, by have := t.isLt; omega⟩ : Fin 2062) b h r c hc)
  match a with
  | ⟨0, _⟩ => exact Fin.ext (Nat.add_comm _ _)
  | ⟨1, _⟩ => rfl
  | ⟨2, _⟩ => rfl
  | ⟨3, _⟩ => rfl

/-- The fifteen products summed left to right from the zero word, at head h, lane r of a position. -/
theorem v123_at (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (h : Fin 16) (r : Fin 64) (c : Fin 1024)
    (hc : c.val = h.val * 64 + r.val) :
    val_main_v123 (F := Ideal) x0 x1 x2 (ix4 t b h r)
      = mix (fun k => val_main_v15 (F := Ideal) x0 x1 x2 (ix4 t b h k)) (fun k => padded (fun t' => x0 (ix3 t' b c)) (t.val + k.val)) := by
  unfold mix
  rw [val_main_v123_apply, val_main_v122_apply, w14_at, r14_at x0 t b h r c hc,
    val_main_v116_apply, val_main_v115_apply, w13_at, r13_at x0 t b h r c hc,
    val_main_v109_apply, val_main_v108_apply, w12_at, r12_at x0 t b h r c hc,
    val_main_v102_apply, val_main_v101_apply, w11_at, r11_at x0 t b h r c hc,
    val_main_v95_apply, val_main_v94_apply, w10_at, r10_at x0 t b h r c hc,
    val_main_v88_apply, val_main_v87_apply, w9_at, r9_at x0 t b h r c hc,
    val_main_v81_apply, val_main_v80_apply, w8_at, r8_at x0 t b h r c hc,
    val_main_v74_apply, val_main_v73_apply, w7_at, r7_at x0 t b h r c hc,
    val_main_v67_apply, val_main_v66_apply, w6_at, r6_at x0 t b h r c hc,
    val_main_v60_apply, val_main_v59_apply, w5_at, r5_at x0 t b h r c hc,
    val_main_v53_apply, val_main_v52_apply, w4_at, r4_at x0 t b h r c hc,
    val_main_v46_apply, val_main_v45_apply, w3_at, r3_at x0 t b h r c hc,
    val_main_v39_apply, val_main_v38_apply, w2_at, r2_at x0 t b h r c hc,
    val_main_v32_apply, val_main_v31_apply, w1_at, r1_at x0 t b h r c hc,
    val_main_v25_apply, val_main_v24_apply, w0_at, r0_at x0 t b h r c hc,
    val_main_v18_apply, val_main_cst_2_apply]
  rfl

/-- The reference's mixed row at (t, b, c): the fifteen taps of the channel's head against the padded rows t … t + 14. -/
theorem conv_apply (x0 : (⟨S2048x16x1024, .f32⟩ : BufTy).Contents (Elt Ideal)) (x1 : (⟨S240x1024, .f32⟩ : BufTy).Contents (Elt Ideal)) (x2 : (⟨S240, .f32⟩ : BufTy).Contents (Elt Ideal)) (t : Fin 2048) (b : Fin 16) (c : Fin 1024) :
    val_main_v124 (F := Ideal) x0 x1 x2 (ix3 t b c)
      = mix (fun k => val_main_v15 (F := Ideal) x0 x1 x2 (ix4 t b (headOf c) k)) (fun k => rowsAt (arr3 (n0 := 2048) (n1 := 16) (n2 := 1024) x0) t b k c) := by
  have ht := t.isLt; have hb := b.isLt; have hcl := c.isLt
  rw [val_main_v124_apply]
  have hi : idx_main_v124 (ix3 t b c) = ix4 t b (headOf c) (⟨c.val % 64, by omega⟩ : Fin 64) := funext fun a => by
    match a with
    | ⟨0, _⟩ => exact Fin.ext (by show ((t.val * 16 + b.val) * 1024 + c.val) / 16384 = t.val; omega)
    | ⟨1, _⟩ => exact Fin.ext (by show ((t.val * 16 + b.val) * 1024 + c.val) / 1024 % 16 = b.val; omega)
    | ⟨2, _⟩ => exact Fin.ext (by show ((t.val * 16 + b.val) * 1024 + c.val) / 64 % 16 = c.val / 64; omega)
    | ⟨3, _⟩ => exact Fin.ext (by show ((t.val * 16 + b.val) * 1024 + c.val) % 64 = c.val % 64; omega)
  rw [hi, v123_at x0 x1 x2 t b (headOf c) _ c (by show c.val = c.val / 64 * 64 + c.val % 64; omega)]
  rfl

end Cert.ReferenceIdeal.RefValue

end
-- ==== Proof.RefNormFfn.lean ====
import proofs.«151048_j12266426597625_1_alg».proof.Proof.ReadP
import proofs.«151048_j12266426597625_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.ReadP Cert.ConvLnFfn Idealize.ShloMosaic Idealize.ShloMosaic.ValueIdx

/-! ## The normalisation, stage by stage at coordinates

Position (t, b) is fixed; y is its row c' ↦ v124 (t, b, c'). The keepdims stages carry the one coordinate z of the unit axis. -/

section NormStages
variable (x0 : (⟨S2048x16x1024, .f32⟩ : BufTy).Contents (Elt Ideal)) (x1 : (⟨S240x1024, .f32⟩ : BufTy).Contents (Elt Ideal))
  (x2 : (⟨S240, .f32⟩ : BufTy).Contents (Elt Ideal)) (t : Fin 2048) (b : Fin 16)

/-- The sum of the row over the channels: the reduction starts from the zero word, which adds nothing. -/
theorem v125_at :
    val_main_v125 (F := Ideal) x0 x1 x2 (ix2 t b) = ∑ k : Fin 1024, val_main_v124 (F := Ideal) x0 x1 x2 (ix3 t b k) := by
  rw [val_main_v125_apply, val_main_cst_3_apply, Ideal.ofBits_def, Ideal.ofBits_zero_f32, zero_add]
  refine Finset.sum_congr rfl fun k _ => ?_
  exact congrArg _ (funext fun a => by match a with | ⟨0, _⟩ => rfl | ⟨1, _⟩ => rfl | ⟨2, _⟩ => rfl)

theorem v126_at (z : Fin 1) :
    val_main_v126 (F := Ideal) x0 x1 x2 (ix3 t b z) = ∑ k : Fin 1024, val_main_v124 (F := Ideal) x0 x1 x2 (ix3 t b k) := by
  rw [val_main_v126_apply, ← v125_at]
  exact congrArg _ (funext fun a => by match a with | ⟨0, _⟩ => rfl | ⟨1, _⟩ => rfl)

theorem v127_at (i : S2048x16x1.Idx) : val_main_v127 (F := Ideal) i = nW := by
  rw [val_main_v127_apply, val_main_cst_4_apply]; rfl

/-- The mean of the row. -/
theorem v128_at (z : Fin 1) :
    val_main_v128 (F := Ideal) x0 x1 x2 (ix3 t b z) = mean (fun c' => val_main_v124 (F := Ideal) x0 x1 x2 (ix3 t b c')) := by
  rw [val_main_v128_apply, Ideal.hostDivf_def, v126_at, v127_at]; rfl

theorem v129_at (c : Fin 1024) :
    val_main_v129 (F := Ideal) x0 x1 x2 (ix3 t b c) = mean (fun c' => val_main_v124 (F := Ideal) x0 x1 x2 (ix3 t b c')) := by
  rw [val_main_v129_apply, ← v128_at x0 x1 x2 t b ⟨0, Nat.one_pos⟩]
  exact congrArg _ (funext fun a => by match a with | ⟨0, _⟩ => rfl | ⟨1, _⟩ => rfl | ⟨2, _⟩ => rfl)

/-- The deviation from the mean. -/
theorem v130_at (c : Fin 1024) :
    val_main_v130 (F := Ideal) x0 x1 x2 (ix3 t b c) = dev (fun c' => val_main_v124 (F := Ideal) x0 x1 x2 (ix3 t b c')) c := by
  rw [val_main_v130_apply, Ideal.subf_def, v129_at]; rfl

theorem v131_at (c : Fin 1024) :
    val_main_v131 (F := Ideal) x0 x1 x2 (ix3 t b c)
      = dev (fun c' => val_main_v124 (F := Ideal) x0 x1 x2 (ix3 t b c')) c * dev (fun c' => val_main_v124 (F := Ideal) x0 x1 x2 (ix3 t b c')) c := by
  rw [val_main_v131_apply, Ideal.mulf_def, v130_at]

/-- The sum of the squared deviations. -/
theorem v132_at :
    val_main_v132 (F := Ideal) x0 x1 x2 (ix2 t b)
      = ∑ c : Fin 1024, dev (fun c' => val_main_v124 (F := Ideal) x0 x1 x2 (ix3 t b c')) c * dev (fun c' => val_main_v124 (F := Ideal) x0 x1 x2 (ix3 t b c')) c := by
  rw [val_main_v132_apply, val_main_cst_5_apply, Ideal.ofBits_def, Ideal.ofBits_zero_f32, zero_add]
  refine Finset.sum_congr rfl fun k _ => ?_
  rw [← v131_at]
  exact congrArg _ (funext fun a => by match a with | ⟨0, _⟩ => rfl | ⟨1, _⟩ => rfl | ⟨2, _⟩ => rfl)

theorem v133_at (z : Fin 1) :
    val_main_v133 (F := Ideal) x0 x1 x2 (ix3 t b z)
      = ∑ c : Fin 1024, dev (fun c' => val_main_v124 (F := Ideal) x0 x1 x2 (ix3 t b c')) c * dev (fun c' => val_main_v124 (F := Ideal) x0 x1 x2 (ix3 t b c')) c := by
  rw [val_main_v133_apply, ← v132_at]
  exact congrArg _ (funext fun a => by match a with | ⟨0, _⟩ => rfl | ⟨1, _⟩ => rfl)

theorem v134_at (i : S2048x16x1.Idx) : val_main_v134 (F := Ideal) i = nW := by
  rw [val_main_v134_apply, val_main_cst_6_apply]; rfl

/-- The variance of the row. -/
theorem v135_at (z : Fin 1) :
    val_main_v135 (F := Ideal) x0 x1 x2 (ix3 t b z) = var (fun c' => val_main_v124 (F := Ideal) x0 x1 x2 (ix3 t b c')) := by
  rw [val_main_v135_apply, Ideal.hostDivf_def, v133_at, v134_at]; rfl

theorem v136_at (c : Fin 1024) :
    val_main_v136 (F := Ideal) x0 x1 x2 (ix3 t b c) = mean (fun c' => val_main_v124 (F := Ideal) x0 x1 x2 (ix3 t b c')) := by
  rw [val_main_v136_apply, ← v128_at x0 x1 x2 t b ⟨0, Nat.one_pos⟩]
  exact congrArg _ (funext fun a => by match a with | ⟨0, _⟩ => rfl | ⟨1, _⟩ => rfl | ⟨2, _⟩ => rfl)

theorem v137_at (c : Fin 1024) :
    val_main_v137 (F := Ideal) x0 x1 x2 (ix3 t b c) = dev (fun c' => val_main_v124 (F := Ideal) x0 x1 x2 (ix3 t b c')) c := by
  rw [val_main_v137_apply, Ideal.subf_def, v136_at]; rfl

theorem v138_at (i : S2048x16x1.Idx) : val_main_v138 (F := Ideal) i = epsW := by
  rw [val_main_v138_apply, val_main_cst_7_apply]; rfl

/-- The square root of the variance plus ε. -/
theorem v140_at (z : Fin 1) :
    val_main_v140 (F := Ideal) x0 x1 x2 (ix3 t b z)
      = Ideal.sqrt (var (fun c' => val_main_v124 (F := Ideal) x0 x1 x2 (ix3 t b c')) + epsW) := by
  rw [val_main_v140_apply, Ideal.hostUnary_sqrt_def, val_main_v139_apply, Ideal.addf_def, v135_at, v138_at]

theorem v141_at (c : Fin 1024) :
    val_main_v141 (F := Ideal) x0 x1 x2 (ix3 t b c)
      = Ideal.sqrt (var (fun c' => val_main_v124 (F := Ideal) x0 x1 x2 (ix3 t b c')) + epsW) := by
  rw [val_main_v141_apply, ← v140_at x0 x1 x2 t b ⟨0, Nat.one_pos⟩]
  exact congrArg _ (funext fun a => by match a with | ⟨0, _⟩ => rfl | ⟨1, _⟩ => rfl | ⟨2, _⟩ => rfl)

/-- The deviation divided by that square root. -/
theorem v142_at (c : Fin 1024) :
    val_main_v142 (F := Ideal) x0 x1 x2 (ix3 t b c)
      = Ideal.div (dev (fun c' => val_main_v124 (F := Ideal) x0 x1 x2 (ix3 t b c')) c)
          (Ideal.sqrt (var (fun c' => val_main_v124 (F := Ideal) x0 x1 x2 (ix3 t b c')) + epsW)) := by
  rw [val_main_v142_apply, Ideal.hostDivf_def, v137_at, v141_at]

end NormStages

/-- A vector over the channels broadcast over the positions reads its channel's entry. -/
theorem v144_at (x3 : (⟨S1024, .f32⟩ : BufTy).Contents (Elt Ideal)) (t : Fin 2048) (b : Fin 16) (c : Fin 1024) :
    val_main_v144 (F := Ideal) x3 (ix3 t b c) = x3 (ix1 c) := by
  rw [val_main_v144_apply, val_main_v143_apply]
  exact congrArg x3 (funext fun a => by match a with | ⟨0, _⟩ => rfl)

theorem v147_at (x4 : (⟨S1024, .f32⟩ : BufTy).Contents (Elt Ideal)) (t : Fin 2048) (b : Fin 16) (c : Fin 1024) :
    val_main_v147 (F := Ideal) x4 (ix3 t b c) = x4 (ix1 c) := by
  rw [val_main_v147_apply, val_main_v146_apply]
  exact congrArg x4 (funext fun a => by match a with | ⟨0, _⟩ => rfl)

/-- The reference's normalised row at (t, b, c), square root as a divisor. -/
theorem norm_apply (x0 : (⟨S2048x16x1024, .f32⟩ : BufTy).Contents (Elt Ideal)) (x1 : (⟨S240x1024, .f32⟩ : BufTy).Contents (Elt Ideal)) (x2 : (⟨S240, .f32⟩ : BufTy).Contents (Elt Ideal)) (x3 x4 : (⟨S1024, .f32⟩ : BufTy).Contents (Elt Ideal)) (t : Fin 2048) (b : Fin 16) (c : Fin 1024) :
    val_main_v148 (F := Ideal) x0 x1 x2 x3 x4 (ix3 t b c)
      = normR (fun c' => val_main_v124 (F := Ideal) x0 x1 x2 (ix3 t b c')) (arr1 (n := 1024) x3) (arr1 (n := 1024) x4) c := by
  rw [val_main_v148_apply, Ideal.addf_def, val_main_v145_apply, Ideal.mulf_def, v142_at, v144_at, v147_at]
  rfl

/-! ## The feed-forward block, stage by stage at coordinates -/

section FfnStages
variable (x0 : (⟨S2048x16x1024, .f32⟩ : BufTy).Contents (Elt Ideal)) (x1 : (⟨S240x1024, .f32⟩ : BufTy).Contents (Elt Ideal))
  (x2 : (⟨S240, .f32⟩ : BufTy).Contents (Elt Ideal)) (x3 x4 : (⟨S1024, .f32⟩ : BufTy).Contents (Elt Ideal))
  (x5 : (⟨S4096x1024, .f32⟩ : BufTy).Contents (Elt Ideal)) (x6 : (⟨S4096, .f32⟩ : BufTy).Contents (Elt Ideal))
  (x7 : (⟨S1024x4096, .f32⟩ : BufTy).Contents (Elt Ideal)) (t : Fin 2048) (b : Fin 16)

/-- The first projection: hidden unit f contracts the normalised row with row f of the weights. -/
theorem v149_at (f : Fin 4096) :
    val_main_v149 (F := Ideal) x0 x1 x2 x3 x4 x5 (ix3 t b f)
      = ∑ k : Fin 1024, val_main_v148 (F := Ideal) x0 x1 x2 x3 x4 (ix3 t b k) * x5 (ix2 f k) := by
  rw [val_main_v149_apply]
  refine Finset.sum_congr rfl fun k _ => ?_
  have el : lidx_main_v149 (ix3 t b f) k = ix3 t b k :=
    funext fun a => by match a with | ⟨0, _⟩ => rfl | ⟨1, _⟩ => rfl | ⟨2, _⟩ => rfl
  have er : ridx_main_v149 (ix3 t b f) k = ix2 f k :=
    funext fun a => by match a with | ⟨0, _⟩ => rfl | ⟨1, _⟩ => rfl
  rw [el, er]

theorem v151_at (f : Fin 4096) : val_main_v151 (F := Ideal) x6 (ix3 t b f) = x6 (ix1 f) := by
  rw [val_main_v151_apply, val_main_v150_apply]
  exact congrArg x6 (funext fun a => by match a with | ⟨0, _⟩ => rfl)

theorem call1_v0_at (i : S2048x16x4096.Idx) : val_main_call1_v0 (F := Ideal) i = zeroW := by
  rw [val_main_call1_v0_apply, val_main_call1_cst_apply]; rfl

/-- The hidden unit: the projection plus its bias, cut below at the zero word. -/
theorem v153_at (f : Fin 4096) :
    val_main_v153 (F := Ideal) x0 x1 x2 x3 x4 x5 x6 (ix3 t b f)
      = hid (fun c' => val_main_v148 (F := Ideal) x0 x1 x2 x3 x4 (ix3 t b c')) (arr2 (n0 := 4096) (n1 := 1024) x5) (arr1 (n := 4096) x6) f := by
  rw [val_main_v153_apply, Ideal.maximumf_def, val_main_v152_apply, Ideal.addf_def, v149_at, v151_at, call1_v0_at]
  rfl

/-- The second projection: channel c contracts the hidden units with row c of the weights. -/
theorem v154_at (c : Fin 1024) :
    val_main_v154 (F := Ideal) x0 x1 x2 x3 x4 x5 x6 x7 (ix3 t b c)
      = ∑ f : Fin 4096, hid (fun c' => val_main_v148 (F := Ideal) x0 x1 x2 x3 x4 (ix3 t b c')) (arr2 (n0 := 4096) (n1 := 1024) x5) (arr1 (n := 4096) x6) f
          * x7 (ix2 c f) := by
  rw [val_main_v154_apply]
  refine Finset.sum_congr rfl fun k _ => ?_
  have el : lidx_main_v154 (ix3 t b c) k = ix3 t b k :=
    funext fun a => by match a with | ⟨0, _⟩ => rfl | ⟨1, _⟩ => rfl | ⟨2, _⟩ => rfl
  have er : ridx_main_v154 (ix3 t b c) k = ix2 c k :=
    funext fun a => by match a with | ⟨0, _⟩ => rfl | ⟨1, _⟩ => rfl
  rw [el, er, v153_at]

end FfnStages

theorem v156_at (x8 : (⟨S1024, .f32⟩ : BufTy).Contents (Elt Ideal)) (t : Fin 2048) (b : Fin 16) (c : Fin 1024) :
    val_main_v156 (F := Ideal) x8 (ix3 t b c) = x8 (ix1 c) := by
  rw [val_main_v156_apply, val_main_v155_apply]
  exact congrArg x8 (funext fun a => by match a with | ⟨0, _⟩ => rfl)

/-- The reference's result at (t, b, c): the feed-forward block of the normalised row. -/
theorem ffn_apply (x0 : (⟨S2048x16x1024, .f32⟩ : BufTy).Contents (Elt Ideal)) (x1 : (⟨S240x1024, .f32⟩ : BufTy).Contents (Elt Ideal)) (x2 : (⟨S240, .f32⟩ : BufTy).Contents (Elt Ideal)) (x3 x4 : (⟨S1024, .f32⟩ : BufTy).Contents (Elt Ideal)) (x5 : (⟨S4096x1024, .f32⟩ : BufTy).Contents (Elt Ideal)) (x6 : (⟨S4096, .f32⟩ : BufTy).Contents (Elt Ideal)) (x7 : (⟨S1024x4096, .f32⟩ : BufTy).Contents (Elt Ideal)) (x8 : (⟨S1024, .f32⟩ : BufTy).Contents (Elt Ideal)) (t : Fin 2048) (b : Fin 16) (c : Fin 1024) :
    val_main_v158 (F := Ideal) x0 x1 x2 x3 x4 x5 x6 x7 x8 (ix3 t b c)
      = ffn (fun c' => val_main_v148 (F := Ideal) x0 x1 x2 x3 x4 (ix3 t b c')) (arr2 (n0 := 4096) (n1 := 1024) x5) (arr1 (n := 4096) x6)
          (arr2 (n0 := 1024) (n1 := 4096) x7) (arr1 (n := 1024) x8) c := by
  rw [val_main_v158_apply, Ideal.addf_def, val_main_v157_apply, Ideal.addf_def, v154_at, v156_at]
  rfl

end Cert.ReferenceIdeal.RefValue

end
-- ==== Proof.RefValue.lean ====
import proofs.«151048_j12266426597625_1_alg».proof.Proof.RefSoftmax
import proofs.«151048_j12266426597625_1_alg».proof.Proof.RefConv
import proofs.«151048_j12266426597625_1_alg».proof.Proof.RefNormFfn

noncomputable section

namespace Cert.ReferenceIdeal.RefValue

open Cert.ReferenceIdeal Cert.ReferenceIdeal.ReadP Cert.ConvLnFfn Idealize.ShloMosaic Idealize.ShloMosaic.ValueIdx

/-- The reference's result at (t, b, c) is the layer of Spec (square root as a divisor) of the argument arrays: the feed-forward block of the
    normalised row, the normalised row of the mixed row, the mixed row of the softmax weights of the position's own row (row 14 of its
    fifteen padded rows, which is x[t, b, ·]) against the padded rows. -/
theorem result_apply (x0 : (⟨S2048x16x1024, .f32⟩ : BufTy).Contents (Elt Ideal)) (x1 : (⟨S240x1024, .f32⟩ : BufTy).Contents (Elt Ideal)) (x2 : (⟨S240, .f32⟩ : BufTy).Contents (Elt Ideal)) (x3 x4 : (⟨S1024, .f32⟩ : BufTy).Contents (Elt Ideal)) (x5 : (⟨S4096x1024, .f32⟩ : BufTy).Contents (Elt Ideal)) (x6 : (⟨S4096, .f32⟩ : BufTy).Contents (Elt Ideal)) (x7 : (⟨S1024x4096, .f32⟩ : BufTy).Contents (Elt Ideal)) (x8 : (⟨S1024, .f32⟩ : BufTy).Contents (Elt Ideal)) (t : Fin 2048) (b : Fin 16) (c : Fin 1024) :
    val_main_v158 (F := Ideal) x0 x1 x2 x3 x4 x5 x6 x7 x8 (ix3 t b c)
      = layerR (arr3 (n0 := 2048) (n1 := 16) (n2 := 1024) x0) (arr2 (n0 := 240) (n1 := 1024) x1) (arr1 (n := 240) x2) (arr1 (n := 1024) x3) (arr1 (n := 1024) x4)
          (arr2 (n0 := 4096) (n1 := 1024) x5) (arr1 (n := 4096) x6) (arr2 (n0 := 1024) (n1 := 4096) x7) (arr1 (n := 1024) x8) t b c := by
  rw [ffn_apply]
  unfold layerR
  refine congrArg (fun y => ffn y _ _ _ _ c) (funext fun c' => ?_)
  rw [norm_apply]
  unfold yR
  refine congrArg (fun y => normR y _ _ c') (funext fun c'' => ?_)
  rw [conv_apply]
  unfold convRow
  refine congrArg (fun w => mix w _) (funext fun k => ?_)
  rw [softmax_apply]
  refine congrArg (fun r => wsm r _ _ (headOf c'') k) (funext fun c3 => ?_)
  have h14 : ((14 : Fin 15) : ℕ) = 14 := rfl
  unfold rowsAt padded
  rw [dif_pos ⟨by rw [h14]; omega, by rw [h14]; have := t.isLt; omega⟩]
  refine congrArg (fun tt => x0 (ix3 tt b c3)) (Fin.ext ?_)
  show t.val = t.val + ((14 : Fin 15) : ℕ) - 14
  rw [h14]; omega

end Cert.ReferenceIdeal.RefValue

end
-- ==== Proof.lean ====
/-
  The layer  x ↦ FFN(LayerNorm(dynamic causal depthwise convolution of x))  computed by two Pallas kernels (convolution + normalisation
  tiled over 64 time steps; the feed-forward block tiled over 256 rows) against the plain jnp reference, equal on the extended reals.

  Both programs compute, at every position (t, b), the same function of the fifteen padded rows x_padded[t … t + 14, b, ·] and of the
  weights (Proof/Spec.lean): softmax weights over the fifteen taps of each of the sixteen heads from the position's own row, the taps
  mixed channel by channel left to right from zero, the mixed row normalised over its 1024 channels, scaled, shifted, and passed through
  the feed-forward block with a residual. The kernel program reads its rows out of a windowed copy of the padded input (block t / 64, rows
  t % 64 + k), takes the weights transposed, and normalises with the reciprocal square root as a factor; the reference slices the padded
  input fifteen times and divides by the square root. The only law between the two is  d · rsqrt v = d / sqrt v  for v = variance + ε,
  which is positive on the extended reals whatever the inputs (a sum of squares is never negative there), +∞ included; the reference's
  extra maximum with −∞ in its softmax is the identity. Neither needs the inputs finite.

  The frames of the two kernel programs are the generated ones; the reference's frame is its run with the result dropped.
-/
import proofs.«151048_j12266426597625_1_alg».proof.Defs
import proofs.«151048_j12266426597625_1_alg».proof.Proof.Gen.Kernel
import proofs.«151048_j12266426597625_1_alg».proof.Proof.Gen.Kernel.Skeleton
import proofs.«151048_j12266426597625_1_alg».proof.Proof.Gen.Kernel.Launch
import proofs.«151048_j12266426597625_1_alg».proof.Proof.Gen.Kernel.Points
import proofs.«151048_j12266426597625_1_alg».proof.Proof.Gen.Kernel.Frame
import proofs.«151048_j12266426597625_1_alg».proof.Proof.Gen.KernelIdeal
import proofs.«151048_j12266426597625_1_alg».proof.Proof.Gen.KernelIdeal.Skeleton
import proofs.«151048_j12266426597625_1_alg».proof.Proof.Gen.KernelIdeal.Launch
import proofs.«151048_j12266426597625_1_alg».proof.Proof.Gen.KernelIdeal.Points
import proofs.«151048_j12266426597625_1_alg».proof.Proof.Gen.KernelIdeal.Frame
import proofs.«151048_j12266426597625_1_alg».proof.Proof.Gen.ReferenceIdeal
import proofs.«151048_j12266426597625_1_alg».proof.Proof.Gen.Pre_finite_inputs
import proofs.«151048_j12266426597625_1_alg».proof.Proof.KerRun
import proofs.«151048_j12266426597625_1_alg».proof.Proof.KerFinal
import proofs.«151048_j12266426597625_1_alg».proof.Proof.RefRun
import proofs.«151048_j12266426597625_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.ConvLnFfn

theorem frame_k [Cert.Kernel.Facts] [Cert.Pre_finite_inputs.Facts] : Cert.frame_Kernel := fun m ρ _ => Cert.Kernel.Gen.frame m ρ
theorem frame_ki [Cert.KernelIdeal.Facts] [Cert.Pre_finite_inputs.Facts] : Cert.frame_KernelIdeal := fun m ρ _ => Cert.KernelIdeal.Gen.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.RefRun.run (F := Ideal) m ρ)

/-- Both programs end with the layer of the argument arrays in their result: the kernel program's array after its last reshape, the
    reference's last stage; the two spellings of the layer agree position by position. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.Gen.W7 m ρ c (Proc.devRef .tc Cert.KernelIdeal.main_v26), Cert.KernelIdeal.Gen.run_named m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8⟩ := hagree c
  rw [h0, h1, h2, h3, h4, h5, h6, h7, h8]
  funext i
  obtain ⟨t, b, c', rfl⟩ : ∃ (t : Fin 2048) (b : Fin 16) (c' : Fin 1024), i = ix3 t b c' := ⟨i 0, i 1, i 2, eq_ix3 i⟩
  exact (Cert.ReferenceIdeal.RefValue.result_apply _ _ _ _ _ _ _ _ _ t b c').trans
    ((layerK_eq_layerR _ _ _ _ _ _ _ _ _ t b c').symm.trans (Cert.KernelIdeal.KerValue.result_apply m ρ c t b c').symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
